-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S128x8 : Shape := ⟨2, ![128, 8]⟩
abbrev S64x64 : Shape := ⟨2, ![64, 64]⟩
abbrev S64 : Shape := ⟨1, ![64]⟩
abbrev S64x8 : Shape := ⟨2, ![64, 8]⟩
abbrev S8 : Shape := ⟨1, ![8]⟩
abbrev S8x100 : Shape := ⟨2, ![8, 100]⟩
abbrev S100 : Shape := ⟨1, ![100]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S8x100 : S_.BroadcastsInDim S8x100 (![] : Fin 0 → Fin S8x100.rank)
  reducesTo_S8x100_S_d0_1 : S8x100.ReducesTo [0, 1] S_
  bcast_S_S100 : S_.BroadcastsInDim S100 (![] : Fin 0 → Fin S100.rank)
  reducesTo_S100_S_d0 : S100.ReducesTo [0] S_

variable [Facts]

def fn_part2 {F : FTy → Type} [FloatOps F] (main_arg9 : FVec F S8 .f32) (main_arg10 : FVec F S8x100 .f32) (main_arg11 : FVec F S100 .f32) (main_v33 : IVec S_ 1) : IVec S_ 1 :=
  let main_v34 : FVec F S8 .f32 := Host.absf main_arg9
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x100 .f32 := Host.absf main_arg10
  let main_cst_14 : FVec F S_ .f32 := constant S_ .f32 0x7F800000#32
  let main_v40 : FVec F S8x100 .f32 := broadcastInDim S8x100 ![] bcast_S_S8x100 main_cst_14
  let main_v41 : IVec S8x100 1 := cmpf .olt main_v39 main_v40
  let main_c_15 : IVec S_ 1 := constantI S_ 1 1#1
  let main_v42 : IVec S_ 1 := (fun x v => Host.reduce IntOp.andi x v reducesTo_S8x100_S_d0_1 h_S_) main_v41 main_c_15
  let main_v43 : IVec S_ 1 := andi main_v38 main_v42
  let main_v44 : FVec F S100 .f32 := Host.absf main_arg11
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  main_v48

def fn_part1 {F : FTy → Type} [FloatOps F] (main_arg6 : FVec F S64x8 .f32) (main_arg7 : FVec F S8 .f32) (main_arg8 : FVec F S64x8 .f32) (main_arg9 : FVec F S8 .f32) (main_arg10 : FVec F S8x100 .f32) (main_arg11 : FVec F S100 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x8 .f32 := Host.absf main_arg6
  let main_cst_6 : FVec F S_ .f32 := constant S_ .f32 0x7F800000#32
  let main_v20 : FVec F S64x8 .f32 := broadcastInDim S64x8 ![] bcast_S_S64x8 main_cst_6
  let main_v21 : IVec S64x8 1 := cmpf .olt main_v19 main_v20
  let main_c_7 : IVec S_ 1 := constantI S_ 1 1#1
  let main_v22 : IVec S_ 1 := (fun x v => Host.reduce IntOp.andi x v reducesTo_S64x8_S_d0_1 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S64x8 .f32 := Host.absf main_arg8
  let main_cst_10 : FVec F S_ .f32 := constant S_ .f32 0x7F800000#32
  let main_v30 : FVec F S64x8 .f32 := broadcastInDim S64x8 ![] bcast_S_S64x8 main_cst_10
  let main_v31 : IVec S64x8 1 := cmpf .olt main_v29 main_v30
  let main_c_11 : IVec S_ 1 := constantI S_ 1 1#1
  let main_v32 : IVec S_ 1 := (fun x v => Host.reduce IntOp.andi x v reducesTo_S64x8_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S2x1200000 32) (main_arg2 : IVec S100000 32) (main_arg3 : FVec F S128x8 .f32) (main_arg4 : FVec F S64x64 .f32) (main_arg5 : FVec F S64 .f32) (main_arg6 : FVec F S64x8 .f32) (main_arg7 : FVec F S8 .f32) (main_arg8 : FVec F S64x8 .f32) (main_arg9 : FVec F S8 .f32) (main_arg10 : FVec F S8x100 .f32) (main_arg11 : FVec F S100 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x8 .f32 := Host.absf main_arg3
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S128x8 : Shape := ⟨2, ![128, 8]⟩
abbrev S64x64 : Shape := ⟨2, ![64, 64]⟩
abbrev S64 : Shape := ⟨1, ![64]⟩
abbrev S64x8 : Shape := ⟨2, ![64, 8]⟩
abbrev S8 : Shape := ⟨1, ![8]⟩
abbrev S8x100 : Shape := ⟨2, ![8, 100]⟩
abbrev S100 : Shape := ⟨1, ![100]⟩
abbrev S50000x128 : Shape := ⟨2, ![50000, 128]⟩
abbrev S_ : Shape := ⟨0, ![]⟩
abbrev S128x128 : Shape := ⟨2, ![128, 128]⟩
abbrev S1 : Shape := ⟨1, ![1]⟩
abbrev S2 : Shape := ⟨1, ![2]⟩
abbrev S5000x128 : Shape := ⟨2, ![5000, 128]⟩
abbrev S1x1200000 : Shape := ⟨2, ![1, 1200000]⟩
abbrev S1200000 : Shape := ⟨1, ![1200000]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S2x128x64 : Shape := ⟨3, ![2, 128, 64]⟩
abbrev S5000x64 : Shape := ⟨2, ![5000, 64]⟩
abbrev S5000x1 : Shape := ⟨2, ![5000, 1]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩
abbrev S1x8 : Shape := ⟨2, ![1, 8]⟩
abbrev S1x100 : Shape := ⟨2, ![1, 100]⟩
abbrev S128x100 : Shape := ⟨2, ![128, 100]⟩
abbrev S128x10x10 : Shape := ⟨3, ![128, 10, 10]⟩

abbrev nBuf : Space → Nat
  | .hbm => 103
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S128x8, .f32⟩
  | .hbm, ⟨4, _⟩ => ⟨S64x64, .f32⟩
  | .hbm, ⟨5, _⟩ => ⟨S64, .f32⟩
  | .hbm, ⟨6, _⟩ => ⟨S64x8, .f32⟩
  | .hbm, ⟨7, _⟩ => ⟨S8, .f32⟩
  | .hbm, ⟨8, _⟩ => ⟨S64x8, .f32⟩
  | .hbm, ⟨9, _⟩ => ⟨S8, .f32⟩
  | .hbm, ⟨10, _⟩ => ⟨S8x100, .f32⟩
  | .hbm, ⟨11, _⟩ => ⟨S100, .f32⟩
  | .hbm, ⟨12, _⟩ => ⟨S50000x128, .f32⟩
  | .hbm, ⟨13, _⟩ => ⟨S_, .f32⟩
  | .hbm, ⟨14, _⟩ => ⟨S128x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S128x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S128x128, .f32⟩
  | .hbm, ⟨27, _⟩ => ⟨S50000x128, .bf16⟩
  | .hbm, ⟨28, _⟩ => ⟨S100000x64, .bf16⟩
  | .hbm, ⟨29, _⟩ => ⟨S1x1200000, .i32⟩
  | .hbm, ⟨30, _⟩ => ⟨S1200000, .i32⟩
  | .hbm, ⟨31, _⟩ => ⟨S1x1200000, .i32⟩
  | .hbm, ⟨32, _⟩ => ⟨S1200000, .i32⟩
  | .hbm, ⟨33, _⟩ => ⟨S_, .f32⟩
  | .hbm, ⟨34, _⟩ => ⟨S1200000, .f32⟩
  | .hbm, ⟨35, _⟩ => ⟨S_, .f32⟩
  | .hbm, ⟨36, _⟩ => ⟨S100000, .f32⟩
  | .hbm, ⟨37, _⟩ => ⟨S1200000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000, .f32⟩
  | .hbm, ⟨43, _⟩ => ⟨S100000, .f32⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000, .f32⟩
  | .hbm, ⟨53, _⟩ => ⟨S_, .i32⟩
  | .hbm, ⟨54, _⟩ => ⟨S1200000, .i32⟩
  | .hbm, ⟨55, _⟩ => ⟨S1200000, .i1⟩
  | .hbm, ⟨56, _⟩ => ⟨S_, .i32⟩
  | .hbm, ⟨57, _⟩ => ⟨S1200000, .i32⟩
  | .hbm, ⟨58, _⟩ => ⟨S1200000, .i32⟩
  | .hbm, ⟨59, _⟩ => ⟨S1200000, .i32⟩
  | .hbm, ⟨60, _⟩ => ⟨S1200000x1, .i32⟩
  | .hbm, ⟨61, _⟩ => ⟨S1200000, .f32⟩
  | .hbm, ⟨62, _⟩ => ⟨S1200000, .f32⟩
  | .hbm, ⟨63, _⟩ => ⟨S_, .i32⟩
  | .hbm, ⟨64, _⟩ => ⟨S1200000, .i32⟩
  | .hbm, ⟨65, _⟩ => ⟨S1200000, .i1⟩
  | .hbm, ⟨66, _⟩ => ⟨S_, .i32⟩
  | .hbm, ⟨67, _⟩ => ⟨S1200000, .i32⟩
  | .hbm, ⟨68, _⟩ => ⟨S1200000, .i32⟩
  | .hbm, ⟨69, _⟩ => ⟨S1200000, .i32⟩
  | .hbm, ⟨70, _⟩ => ⟨S1200000x1, .i32⟩
  | .hbm, ⟨71, _⟩ => ⟨S1200000x64, .bf16⟩
  | .hbm, ⟨72, _⟩ => ⟨S1200000x64, .f32⟩
  | .hbm, ⟨73, _⟩ => ⟨S1200000x1, .f32⟩
  | .hbm, ⟨74, _⟩ => ⟨S1200000x64, .f32⟩
  | .hbm, ⟨75, _⟩ => ⟨S1200000x64, .f32⟩
  | .hbm, ⟨76, _⟩ => ⟨S_, .f32⟩
  | .hbm, ⟨77, _⟩ => ⟨S100000x64, .f32⟩
  | .hbm, ⟨78, _⟩ => ⟨S1200000x1, .i32⟩
  | .hbm, ⟨79, _⟩ => ⟨S100000x64, .f32⟩
  | .hbm, ⟨80, _⟩ => ⟨S100000x1, .f32⟩
  | .hbm, ⟨81, _⟩ => ⟨S100000x1, .i32⟩
  | .hbm, ⟨82, _⟩ => ⟨S1x64, .f32⟩
  | .hbm, ⟨83, _⟩ => ⟨S2x128x64, .f32⟩
  | .hbm, ⟨84, _⟩ => ⟨S1x128x64, .f32⟩
  | .hbm, ⟨85, _⟩ => ⟨S128x64, .f32⟩
  | .hbm, ⟨86, _⟩ => ⟨S1x128x64, .f32⟩
  | .hbm, ⟨87, _⟩ => ⟨S128x64, .f32⟩
  | .hbm, ⟨88, _⟩ => ⟨S128x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S128, .f32⟩
  | .hbm, ⟨93, _⟩ => ⟨S100000x1, .i32⟩
  | .hbm, ⟨94, _⟩ => ⟨S128, .f32⟩
  | .hbm, ⟨95, _⟩ => ⟨S128x1, .f32⟩
  | .hbm, ⟨96, _⟩ => ⟨S1x8, .f32⟩
  | .hbm, ⟨97, _⟩ => ⟨S1x8, .f32⟩
  | .hbm, ⟨98, _⟩ => ⟨S1x100, .f32⟩
  | .hbm, ⟨99, _⟩ => ⟨S128x100, .f32⟩
  | .hbm, ⟨100, _⟩ => ⟨S128x8, .f32⟩
  | .hbm, ⟨101, _⟩ => ⟨S128x8, .f32⟩
  | .hbm, ⟨102, _⟩ => ⟨S128x10x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x64, .f32⟩
  | .local _ .vmem, ⟨6, _⟩ => ⟨S5000x64, .f32⟩
  | .local _ .vmem, ⟨7, _⟩ => ⟨S5000x64, .bf16⟩
  | .local _ .vmem, ⟨8, _⟩ => ⟨S5000x64, .bf16⟩
  | .local _ .vmem, ⟨9, _⟩ => ⟨S5000x1, .f32⟩
  | .local _ .vmem, ⟨10, _⟩ => ⟨S5000x1, .f32⟩
  | .local _ .vmem, ⟨11, _⟩ => ⟨S5000x1, .i32⟩
  | .local _ .vmem, ⟨12, _⟩ => ⟨S5000x1, .i32⟩
  | .local _ .vmem, ⟨13, _⟩ => ⟨S1x64, .f32⟩
  | .local _ .vmem, ⟨14, _⟩ => ⟨S1x128x64, .f32⟩
  | .local _ .vmem, ⟨15, _⟩ => ⟨S1x128x64, .f32⟩
  | .local _ .vmem, ⟨16, _⟩ => ⟨S128x64, .f32⟩
  | .local _ .vmem, ⟨17, _⟩ => ⟨S128x1, .f32⟩
  | .local _ .vmem, ⟨18, _⟩ => ⟨S128x8, .f32⟩
  | .local _ .vmem, ⟨19, _⟩ => ⟨S64x8, .f32⟩
  | .local _ .vmem, ⟨20, _⟩ => ⟨S1x8, .f32⟩
  | .local _ .vmem, ⟨21, _⟩ => ⟨S64x8, .f32⟩
  | .local _ .vmem, ⟨22, _⟩ => ⟨S1x8, .f32⟩
  | .local _ .vmem, ⟨23, _⟩ => ⟨S8x100, .f32⟩
  | .local _ .vmem, ⟨24, _⟩ => ⟨S1x100, .f32⟩
  | .local _ .vmem, ⟨25, _⟩ => ⟨S128x100, .f32⟩
  | .local _ .vmem, ⟨26, _⟩ => ⟨S128x8, .f32⟩
  | .local _ .vmem, ⟨27, _⟩ => ⟨S128x8, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_c_11 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70_0 : Ref sig .tc := ⟨.hbm, 99, rfl⟩
abbrev main_v70_1 : Ref sig .tc := ⟨.hbm, 100, rfl⟩
abbrev main_v70_2 : Ref sig .tc := ⟨.hbm, 101, rfl⟩
abbrev main_v71 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg11_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S5000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S8x100 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x100 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x100 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x8 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x8 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

class Facts₀ : Prop where
  shapeCasts_S100000x64_S50000x128 : S100000x64.ShapeCasts S50000x128
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  shapeCasts_S50000x128_S100000x64 : S50000x128.ShapeCasts S100000x64
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  iota_S5000x128_d1_w32 : S5000x128.Iotas .tc 32 [1]
  broadcasts_S5000x1_S5000x128 : S5000x1.Broadcasts S5000x128
  natLt_1_32 : 1 < 32
  slices_S2x128x64_S1x128x64_0_0_0 : S2x128x64.Slices ![0, 0, 0] S1x128x64
  slices_S2x128x64_S1x128x64_1_0_0 : S2x128x64.Slices ![1, 0, 0] S1x128x64
  bcast_S_S128 : S_.BroadcastsInDim S128 (![] : Fin 0 → Fin S128.rank)
  bcast_S100000_S100000x1_0 : S100000.BroadcastsInDim S100000x1 (![0] : Fin 1 → Fin S100000x1.rank)
  shapeCasts_S128_S128x1 : S128.ShapeCasts S128x1
  shapeCasts_S8_S1x8 : S8.ShapeCasts S1x8
  shapeCasts_S100_S1x100 : S100.ShapeCasts S1x100
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S128x8 : S1x8.Broadcasts S128x8
  inb_S128x8_S128x8_0_0 : ∀ a, (![0, 0] : Fin 2 → Nat) a + S128x8.size a ≤ S128x8.size a
  h_S128x8 : 0 < S128x8.numel
  inb_S8x100_S8x100_0_0 : ∀ a, (![0, 0] : Fin 2 → Nat) a + S8x100.size a ≤ S8x100.size a
  h_S8x100 : 0 < S8x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S128x100 : S1x100.Broadcasts S128x100
  inb_S128x100_S128x100_0_0 : ∀ a, (![0, 0] : Fin 2 → Nat) a + S128x100.size a ≤ S128x100.size a
  h_S128x100 : 0 < S128x100.numel
  shapeCasts_S128x100_S128x10x10 : S128x100.ShapeCasts S128x10x10
  scatter_S128x128_S2_S64x64_01_n_01_0_wf : ScatterDims.WF S128x128 S2 S64x64 [0, 1] [] [0, 1] 0
  dot_S5000x128_S128x128_S5000x128_1_0_0_1_n_n_wf : DotDims.WF S5000x128 S128x128 S5000x128 [1] [0] [0] [1] [] []
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x128_S5000x64_S128x64_0_0_1_1_n_n_wf : DotDims.WF S5000x128 S5000x64 S128x64 [0] [0] [1] [1] [] []
  scatter_S128_S100000x1_S100000_n_0_0_1_wf : ScatterDims.WF S128 S100000x1 S100000 [] [0] [0] 1
  dot_S128x64_S64x8_S128x8_1_0_0_1_n_n_wf : DotDims.WF S128x64 S64x8 S128x8 [1] [0] [0] [1] [] []
  dot_S128x8_S8x100_S128x100_1_0_0_1_n_n_wf : DotDims.WF S128x8 S8x100 S128x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .i32 = 32 ∨ (Rect.block (s := S100000x1) S5000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x64.size a ≤ S2x128x64.size a
  hwx1_5 : ∀ i : grid1.Coords, EltTy.bits .f32 = 32 ∨ (Rect.block (s := S2x128x64) S1x128x64.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x64.size a ≤ S128x64.size a
  hwx2_0 : ∀ i : grid2.Coords, EltTy.bits .f32 = 32 ∨ (Rect.block (s := S128x64) S128x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x8.size a ≤ S128x8.size a
  hwx2_2 : ∀ i : grid2.Coords, EltTy.bits .f32 = 32 ∨ (Rect.block (s := S128x8) S128x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x8.size a ≤ S64x8.size a
  hwx2_3 : ∀ i : grid2.Coords, EltTy.bits .f32 = 32 ∨ (Rect.block (s := S64x8) S64x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x8.size a ≤ S1x8.size a
  hwx2_4 : ∀ i : grid2.Coords, EltTy.bits .f32 = 32 ∨ (Rect.block (s := S1x8) S1x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x8.size a ≤ S64x8.size a
  hwx2_5 : ∀ i : grid2.Coords, EltTy.bits .f32 = 32 ∨ (Rect.block (s := S64x8) S64x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x8.size a ≤ S1x8.size a
  hwx2_6 : ∀ i : grid2.Coords, EltTy.bits .f32 = 32 ∨ (Rect.block (s := S1x8) S1x8.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S8x100.size a ≤ S8x100.size a
  hwx2_7 : ∀ i : grid2.Coords, EltTy.bits .f32 = 32 ∨ (Rect.block (s := S8x100) S8x100.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x100.size a ≤ S1x100.size a
  hwx2_8 : ∀ i : grid2.Coords, EltTy.bits .f32 = 32 ∨ (Rect.block (s := S1x100) S1x100.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x100.size a ≤ S128x100.size a
  hwx2_9 : ∀ i : grid2.Coords, EltTy.bits .f32 = 32 ∨ (Rect.block (s := S128x100) S128x100.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x8.size a ≤ S128x8.size a
  hwx2_10 : ∀ i : grid2.Coords, EltTy.bits .f32 = 32 ∨ (Rect.block (s := S128x8) S128x8.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x8.size a ≤ S128x8.size a
  hwx2_11 : ∀ i : grid2.Coords, EltTy.bits .f32 = 32 ∨ (Rect.block (s := S128x8) S128x8.size (cc2_transform_11 i) (hinb2_11 i)).WholeWords (EltTy.packing .f32)

variable [Facts₀]

def scatter_S128x128_S2_S64x64_01_n_01_0 : ScatterDims S128x128 S2 S64x64 where
  updateWindowDims := [0, 1]
  insertedWindowDims := []
  scatterDimsToOperandDims := [0, 1]
  indexVectorDim := 0
  wf := scatter_S128x128_S2_S64x64_01_n_01_0_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x8_S128x8_1_0_0_1_n_n : DotDims S128x64 S64x8 S128x8 where
  lhsContracting := [1]
  rhsContracting := [0]
  lhsNonContracting := [0]
  rhsNonContracting := [1]
  lhsBatch := []
  rhsBatch := []
  wf := dot_S128x64_S64x8_S128x8_1_0_0_1_n_n_wf
def dot_S128x8_S8x100_S128x100_1_0_0_1_n_n : DotDims S128x8 S8x100 S128x100 where
  lhsContracting := [1]
  rhsContracting := [0]
  lhsNonContracting := [0]
  rhsNonContracting := [1]
  lhsBatch := []
  rhsBatch := []
  wf := dot_S128x8_S8x100_S128x100_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1x128x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S128x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v66) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S64x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S1x8.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S8x100.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v69) S1x100.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v70_0) S128x100.size cc2_transform_9 reads2_9 true true 1 stage2_9 sem2_9
    hrank2 hreads2_9 hinb2_9 nbuf2_9 (Memref.isWhole_whole _) hwx2_9 hstage2_9

abbrev win2_10 : Pipeline.Window sig grid2 :=
  Pipeline.Window.ofSpec (Memref.whole main_v70_1) S128x8.size cc2_transform_10 reads2_10 true true 1 stage2_10 sem2_10
    hrank2 hreads2_10 hinb2_10 nbuf2_10 (Memref.isWhole_whole _) hwx2_10 hstage2_10

abbrev win2_11 : Pipeline.Window sig grid2 :=
  Pipeline.Window.ofSpec (Memref.whole main_v70_2) S128x8.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S128x8 : Shape := ⟨2, ![128, 8]⟩
abbrev S64x64 : Shape := ⟨2, ![64, 64]⟩
abbrev S64 : Shape := ⟨1, ![64]⟩
abbrev S64x8 : Shape := ⟨2, ![64, 8]⟩
abbrev S8 : Shape := ⟨1, ![8]⟩
abbrev S8x100 : Shape := ⟨2, ![8, 100]⟩
abbrev S100 : Shape := ⟨1, ![100]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S128 : Shape := ⟨1, ![128]⟩
abbrev S128x64 : Shape := ⟨2, ![128, 64]⟩
abbrev S128x1 : Shape := ⟨2, ![128, 1]⟩
abbrev S1x8 : Shape := ⟨2, ![1, 8]⟩
abbrev S128x100 : Shape := ⟨2, ![128, 100]⟩
abbrev S1x100 : Shape := ⟨2, ![1, 100]⟩
abbrev S128x10x10 : Shape := ⟨3, ![128, 10, 10]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S128x8, .f32⟩
  | .hbm, ⟨4, _⟩ => ⟨S64x64, .f32⟩
  | .hbm, ⟨5, _⟩ => ⟨S64, .f32⟩
  | .hbm, ⟨6, _⟩ => ⟨S64x8, .f32⟩
  | .hbm, ⟨7, _⟩ => ⟨S8, .f32⟩
  | .hbm, ⟨8, _⟩ => ⟨S64x8, .f32⟩
  | .hbm, ⟨9, _⟩ => ⟨S8, .f32⟩
  | .hbm, ⟨10, _⟩ => ⟨S8x100, .f32⟩
  | .hbm, ⟨11, _⟩ => ⟨S100, .f32⟩
  | .hbm, ⟨12, _⟩ => ⟨S100000x64, .f32⟩
  | .hbm, ⟨13, _⟩ => ⟨S1x1200000, .i32⟩
  | .hbm, ⟨14, _⟩ => ⟨S1200000, .i32⟩
  | .hbm, ⟨15, _⟩ => ⟨S1x1200000, .i32⟩
  | .hbm, ⟨16, _⟩ => ⟨S1200000, .i32⟩
  | .hbm, ⟨17, _⟩ => ⟨S_, .f32⟩
  | .hbm, ⟨18, _⟩ => ⟨S1200000, .f32⟩
  | .hbm, ⟨19, _⟩ => ⟨S_, .f32⟩
  | .hbm, ⟨20, _⟩ => ⟨S100000, .f32⟩
  | .hbm, ⟨21, _⟩ => ⟨S1200000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000, .f32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000, .f32⟩
  | .hbm, ⟨45, _⟩ => ⟨S1200000, .f32⟩
  | .hbm, ⟨46, _⟩ => ⟨S_, .i32⟩
  | .hbm, ⟨47, _⟩ => ⟨S1200000, .i32⟩
  | .hbm, ⟨48, _⟩ => ⟨S1200000, .i1⟩
  | .hbm, ⟨49, _⟩ => ⟨S_, .i32⟩
  | .hbm, ⟨50, _⟩ => ⟨S1200000, .i32⟩
  | .hbm, ⟨51, _⟩ => ⟨S1200000, .i32⟩
  | .hbm, ⟨52, _⟩ => ⟨S1200000, .i32⟩
  | .hbm, ⟨53, _⟩ => ⟨S1200000x1, .i32⟩
  | .hbm, ⟨54, _⟩ => ⟨S1200000x64, .f32⟩
  | .hbm, ⟨55, _⟩ => ⟨S1200000x1, .f32⟩
  | .hbm, ⟨56, _⟩ => ⟨S1200000x64, .f32⟩
  | .hbm, ⟨57, _⟩ => ⟨S1200000x64, .f32⟩
  | .hbm, ⟨58, _⟩ => ⟨S_, .f32⟩
  | .hbm, ⟨59, _⟩ => ⟨S100000x64, .f32⟩
  | .hbm, ⟨60, _⟩ => ⟨S1200000x1, .i32⟩
  | .hbm, ⟨61, _⟩ => ⟨S100000x64, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000, .f32⟩
  | .hbm, ⟨77, _⟩ => ⟨S_, .f32⟩
  | .hbm, ⟨78, _⟩ => ⟨S128, .f32⟩
  | .hbm, ⟨79, _⟩ => ⟨S100000x1, .i32⟩
  | .hbm, ⟨80, _⟩ => ⟨S128, .f32⟩
  | .hbm, ⟨81, _⟩ => ⟨S_, .f32⟩
  | .hbm, ⟨82, _⟩ => ⟨S128x64, .f32⟩
  | .hbm, ⟨83, _⟩ => ⟨S100000x1, .i32⟩
  | .hbm, ⟨84, _⟩ => ⟨S128x64, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128x1, .f32⟩
  | .hbm, ⟨89, _⟩ => ⟨S128x64, .f32⟩
  | .hbm, ⟨90, _⟩ => ⟨S128x64, .f32⟩
  | .hbm, ⟨91, _⟩ => ⟨S128x8, .f32⟩
  | .hbm, ⟨92, _⟩ => ⟨S1x8, .f32⟩
  | .hbm, ⟨93, _⟩ => ⟨S128x8, .f32⟩
  | .hbm, ⟨94, _⟩ => ⟨S128x8, .f32⟩
  | .hbm, ⟨95, _⟩ => ⟨S128x8, .f32⟩
  | .hbm, ⟨96, _⟩ => ⟨S1x8, .f32⟩
  | .hbm, ⟨97, _⟩ => ⟨S128x8, .f32⟩
  | .hbm, ⟨98, _⟩ => ⟨S128x8, .f32⟩
  | .hbm, ⟨99, _⟩ => ⟨S_, .f32⟩
  | .hbm, ⟨100, _⟩ => ⟨S128x8, .f32⟩
  | .hbm, ⟨101, _⟩ => ⟨S128x8, .f32⟩
  | .hbm, ⟨102, _⟩ => ⟨S128x8, .f32⟩
  | .hbm, ⟨103, _⟩ => ⟨S128x8, .f32⟩
  | .hbm, ⟨104, _⟩ => ⟨S128x8, .f32⟩
  | .hbm, ⟨105, _⟩ => ⟨S128x100, .f32⟩
  | .hbm, ⟨106, _⟩ => ⟨S1x100, .f32⟩
  | .hbm, ⟨107, _⟩ => ⟨S128x100, .f32⟩
  | .hbm, ⟨108, _⟩ => ⟨S128x100, .f32⟩
  | .hbm, ⟨109, _⟩ => ⟨S128x10x10, .f32⟩
  | .hbm, ⟨110, _⟩ => ⟨S_, .f32⟩
  | .hbm, ⟨111, _⟩ => ⟨S128x10x10, .f32⟩
  | .hbm, ⟨112, _⟩ => ⟨S128x10x10, .i1⟩
  | .hbm, ⟨113, _⟩ => ⟨S128x10x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call0_cst : Ref sig .tc := ⟨.hbm, 72, rfl⟩
abbrev main_call0_v0 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128 : S_.BroadcastsInDim S128 (![] : Fin 0 → Fin S128.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  bcast_S_S128x8 : S_.BroadcastsInDim S128x8 (![] : Fin 0 → Fin S128x8.rank)
  bcast_S100_S1x100_1 : S100.BroadcastsInDim S1x100 (![1] : Fin 1 → Fin S1x100.rank)
  bcast_S1x100_S128x100_0_1 : S1x100.BroadcastsInDim S128x100 (![0, 1] : Fin 2 → Fin S128x100.rank)
  shapeCasts_S128x100_S128x10x10 : S128x100.ShapeCasts S128x10x10
  bcast_S_S128x10x10 : S_.BroadcastsInDim S128x10x10 (![] : Fin 0 → Fin S128x10x10.rank)
  dot_S100000x64_S64x64_S100000x64_1_0_0_1_n_n_wf : DotDims.WF S100000x64 S64x64 S100000x64 [1] [0] [0] [1] [] []
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1
  dot_S128x64_S64x8_S128x8_1_0_0_1_n_n_wf : DotDims.WF S128x64 S64x8 S128x8 [1] [0] [0] [1] [] []
  dot_S128x8_S8x100_S128x100_1_0_0_1_n_n_wf : DotDims.WF S128x8 S8x100 S128x100 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x8_S128x8_1_0_0_1_n_n : DotDims S128x64 S64x8 S128x8 where
  lhsContracting := [1]
  rhsContracting := [0]
  lhsNonContracting := [0]
  rhsNonContracting := [1]
  lhsBatch := []
  rhsBatch := []
  wf := dot_S128x64_S64x8_S128x8_1_0_0_1_n_n_wf
def dot_S128x8_S8x100_S128x100_1_0_0_1_n_n : DotDims S128x8 S8x100 S128x100 where
  lhsContracting := [1]
  rhsContracting := [0]
  lhsNonContracting := [0]
  rhsNonContracting := [1]
  lhsBatch := []
  rhsBatch := []
  wf := dot_S128x8_S8x100_S128x100_1_0_0_1_n_n_wf

class Facts : Prop extends Facts₀ where

variable [Facts]
-- ==== Proof.Stretches.lean ====
import proofs.«410265_j83872121356775_3_alg».proof.Proof.Gen.KernelIdeal.Frame
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stretch

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! What each pallas_call's operand arrays hold when the call is entered, as terms of the launch memory and of the
    previous call's output array: the host operations of each stretch, composed.

    The edge list `ei` is a [2, 1200000] array of words: row 0 the sources, row 1 the destinations. -/

/-- The source (row 0) and destination (row 1) index vectors of the edge list. -/
abbrev src (ei : S2x1200000.Idx → BitVec 32) : S1200000.Idx → BitVec 32 :=
  shapeCast S1200000 (extractStridedSlice S1x1200000 ![0, 0] ei Facts₀.slices_S2x1200000_S1x1200000_0_0) Facts₀.shapeCasts_S1x1200000_S1200000
abbrev dst (ei : S2x1200000.Idx → BitVec 32) : S1200000.Idx → BitVec 32 :=
  shapeCast S1200000 (extractStridedSlice S1x1200000 ![1, 0] ei Facts₀.slices_S2x1200000_S1x1200000_1_0) Facts₀.shapeCasts_S1x1200000_S1200000
/-- An index vector with its negative entries moved up by the number of nodes (how an array is indexed by a vector). -/
abbrev wrapIdx (v : S1200000.Idx → BitVec 32) : S1200000.Idx → BitVec 32 :=
  select (cmpi .slt v (broadcastInDim S1200000 ![] Facts₀.bcast_S_S1200000 (constantI S_ 32 0#32)))
    (addi v (broadcastInDim S1200000 ![] Facts₀.bcast_S_S1200000 (constantI S_ 32 100000#32))) v
/-- An index vector as a one-column array. -/
abbrev col (v : S1200000.Idx → BitVec 32) : S1200000x1.Idx → BitVec 32 :=
  broadcastInDim S1200000x1 ![0] Facts₀.bcast_S1200000_S1200000x1_0 v
/-- The node degrees: the edges counted by destination, plus one. -/
abbrev degK (ei : S2x1200000.Idx → BitVec 32) : S100000.Idx → EReal :=
  addf (F := Ideal) (φ := .f32)
    (Host.scatterAdd (F := Ideal) (φ := .f32) scatter_S100000_S1200000x1_S1200000_n_0_0_1
      (broadcastInDim S100000 ![] Facts₀.bcast_S_S100000 (constant (F := Ideal) S_ .f32 0x00000000#32)) (col (dst ei))
      (broadcastInDim S1200000 ![] Facts₀.bcast_S_S1200000 (constant (F := Ideal) S_ .f32 0x3F800000#32)))
    (broadcastInDim S100000 ![] Facts₀.bcast_S_S100000 (constant (F := Ideal) S_ .f32 0x3F800000#32))
/-- The neighbour aggregate of node features `h`: each edge carries its source's features, scaled by the inverse square
    roots of both ends' degrees, to its destination. -/
abbrev aggK (h : S100000x64.Idx → EReal) (ei : S2x1200000.Idx → BitVec 32) : S100000x64.Idx → EReal :=
  Host.scatterAdd (F := Ideal) (φ := .f32) scatter_S100000x64_S1200000x1_S1200000x64_1_0_0_1
    (broadcastInDim S100000x64 ![] Facts₀.bcast_S_S100000x64 (constant (F := Ideal) S_ .f32 0x00000000#32)) (col (dst ei))
    (mulf (F := Ideal) (φ := .f32)
      (extf (F := Ideal) .f32 (Host.gather gather_S100000x64_S1200000x1_S1200000x64_1_0_n_n_0_1_164 h (col (wrapIdx (src ei)))) Facts₀.bitsLt_bf16_f32)
      (broadcastInDim S1200000x64 ![0, 1] Facts₀.bcast_S1200000x1_S1200000x64_0_1
        (broadcastInDim S1200000x1 ![0] Facts₀.bcast_S1200000_S1200000x1_0
          (mulf (F := Ideal) (φ := .f32)
            (Host.gather gather_S100000_S1200000x1_S1200000_n_0_n_n_0_1_1 (Host.rsqrt (F := Ideal) (φ := .f32) (degK ei)) (col (wrapIdx (src ei))))
            (Host.gather gather_S100000_S1200000x1_S1200000_n_0_n_n_0_1_1 (Host.rsqrt (F := Ideal) (φ := .f32) (degK ei)) (col (wrapIdx (dst ei))))))))
/-- The zero matrix the block-diagonal weight is written into. -/
abbrev Z0 : S128x128.Idx → EReal := broadcastInDim S128x128 ![] Facts₀.bcast_S_S128x128 (constant (F := Ideal) S_ .f32 0x00000000#32)
/-- The index vector (w, w) of a `.at[w:, w:].set`. -/
abbrev idxPair (w : BitVec 32) : IVec S2 32 :=
  concatenate S2 0 [⟨S1, broadcastInDim S1 ![] Facts₀.bcast_S_S1 (constantI S_ 32 w)⟩, ⟨S1, broadcastInDim S1 ![] Facts₀.bcast_S_S1 (constantI S_ 32 w)⟩] Facts₀.concatenates_S1_S1_S2_d0

/-! ## Before the first call -/

theorem V1_v0 (c : Dev nD) :
    V1 m ρ c main_v0 = shapeCast S50000x128 (m ((c : Thread nD τ).loc main_arg0)) Facts₀.shapeCasts_S100000x64_S50000x128 := by
  show StableHlo.after hostOps0 (W0 m ρ c) _ = _
  after_results_simp
  try rfl

theorem V1_v9 (c : Dev nD) :
    V1 m ρ c main_v9 = Host.scatter scatter_S128x128_S2_S64x64_01_n_01_0 (fun _ b => b)
      (Host.scatter scatter_S128x128_S2_S64x64_01_n_01_0 (fun _ b => b) Z0 (idxPair 0#32) (m ((c : Thread nD τ).loc main_arg4)))
      (idxPair 64#32) (m ((c : Thread nD τ).loc main_arg4)) := by
  show StableHlo.after hostOps0 (W0 m ρ c) _ = _
  after_results
  try rfl

/-! ## Between the first and the second call -/

theorem V3_v11 (c : Dev nD) :
    V3 m ρ c main_v11 = shapeCast S100000x64 (W2 m ρ c (Proc.devRef .tc main_v10)) Facts₀.shapeCasts_S50000x128_S100000x64 := by
  show StableHlo.after hostOps1 (W2 m ρ c) _ = _
  after_results_simp
  try rfl

theorem V3_v52 (c : Dev nD) :
    V3 m ρ c main_v52 = aggK (shapeCast S100000x64 (W2 m ρ c (Proc.devRef .tc main_v10)) Facts₀.shapeCasts_S50000x128_S100000x64)
      (W2 m ρ c (Proc.devRef .tc main_arg1)) := by
  show StableHlo.after hostOps1 (W2 m ρ c) _ = _
  after_results_simp
  try rfl

theorem V3_v53 (c : Dev nD) :
    V3 m ρ c main_v53 = shapeCast S100000x1
      (mulf (F := Ideal) (φ := .f32) (Host.rsqrt (F := Ideal) (φ := .f32) (degK (W2 m ρ c (Proc.devRef .tc main_arg1))))
        (Host.rsqrt (F := Ideal) (φ := .f32) (degK (W2 m ρ c (Proc.devRef .tc main_arg1)))))
      Facts₀.shapeCasts_S100000_S100000x1 := by
  show StableHlo.after hostOps1 (W2 m ρ c) _ = _
  after_results_simp
  try rfl

theorem V3_v54 (c : Dev nD) :
    V3 m ρ c main_v54 = shapeCast S100000x1 (W2 m ρ c (Proc.devRef .tc main_arg2)) Facts₀.shapeCasts_S100000_S100000x1 := by
  show StableHlo.after hostOps1 (W2 m ρ c) _ = _
  after_results_simp
  try rfl

theorem V3_v55 (c : Dev nD) :
    V3 m ρ c main_v55 = shapeCast S1x64 (W2 m ρ c (Proc.devRef .tc main_arg5)) Facts₀.shapeCasts_S64_S1x64 := by
  show StableHlo.after hostOps1 (W2 m ρ c) _ = _
  after_results_simp
  try rfl

/-! ## Between the second and the third call -/

theorem V5_v61 (c : Dev nD) :
    V5 m ρ c main_v61 = addf (F := Ideal) (φ := .f32)
      (shapeCast S128x64 (extractStridedSlice S1x128x64 ![0, 0, 0] (W4 m ρ c (Proc.devRef .tc main_v56)) Facts₀.slices_S2x128x64_S1x128x64_0_0_0) Facts₀.shapeCasts_S1x128x64_S128x64)
      (shapeCast S128x64 (extractStridedSlice S1x128x64 ![1, 0, 0] (W4 m ρ c (Proc.devRef .tc main_v56)) Facts₀.slices_S2x128x64_S1x128x64_1_0_0) Facts₀.shapeCasts_S1x128x64_S128x64) := by
  show StableHlo.after hostOps2 (W4 m ρ c) _ = _
  after_results_simp
  try rfl

theorem V5_v66 (c : Dev nD) :
    V5 m ρ c main_v66 = shapeCast S128x1
      (Host.scatterAdd (F := Ideal) (φ := .f32) scatter_S128_S100000x1_S100000_n_0_0_1
        (broadcastInDim S128 ![] Facts₀.bcast_S_S128 (constant (F := Ideal) S_ .f32 0x00000000#32))
        (broadcastInDim S100000x1 ![0] Facts₀.bcast_S100000_S100000x1_0 (W4 m ρ c (Proc.devRef .tc main_arg2)))
        (broadcastInDim S100000 ![] Facts₀.bcast_S_S100000 (constant (F := Ideal) S_ .f32 0x3F800000#32)))
      Facts₀.shapeCasts_S128_S128x1 := by
  show StableHlo.after hostOps2 (W4 m ρ c) _ = _
  after_results_simp
  try rfl

theorem V5_v67 (c : Dev nD) : V5 m ρ c main_v67 = shapeCast S1x8 (W4 m ρ c (Proc.devRef .tc main_arg7)) Facts₀.shapeCasts_S8_S1x8 := by
  show StableHlo.after hostOps2 (W4 m ρ c) _ = _
  after_results_simp
  try rfl
theorem V5_v68 (c : Dev nD) : V5 m ρ c main_v68 = shapeCast S1x8 (W4 m ρ c (Proc.devRef .tc main_arg9)) Facts₀.shapeCasts_S8_S1x8 := by
  show StableHlo.after hostOps2 (W4 m ρ c) _ = _
  after_results_simp
  try rfl
theorem V5_v69 (c : Dev nD) : V5 m ρ c main_v69 = shapeCast S1x100 (W4 m ρ c (Proc.devRef .tc main_arg11)) Facts₀.shapeCasts_S100_S1x100 := by
  show StableHlo.after hostOps2 (W4 m ρ c) _ = _
  after_results_simp
  try rfl
theorem V5_arg3 (c : Dev nD) : V5 m ρ c main_arg3 = W4 m ρ c (Proc.devRef .tc main_arg3) := by
  show StableHlo.after hostOps2 (W4 m ρ c) _ = _
  after_results_simp
  try rfl
theorem V5_arg6 (c : Dev nD) : V5 m ρ c main_arg6 = W4 m ρ c (Proc.devRef .tc main_arg6) := by
  show StableHlo.after hostOps2 (W4 m ρ c) _ = _
  after_results_simp
  try rfl
theorem V5_arg8 (c : Dev nD) : V5 m ρ c main_arg8 = W4 m ρ c (Proc.devRef .tc main_arg8) := by
  show StableHlo.after hostOps2 (W4 m ρ c) _ = _
  after_results_simp
  try rfl
theorem V5_arg10 (c : Dev nD) : V5 m ρ c main_arg10 = W4 m ρ c (Proc.devRef .tc main_arg10) := by
  show StableHlo.after hostOps2 (W4 m ρ c) _ = _
  after_results_simp
  try rfl

/-! ## After the third call -/

theorem W7_v71 (c : Dev nD) :
    W7 m ρ c (Proc.devRef .tc main_v71) = shapeCast S128x10x10 (W6 m ρ c (Proc.devRef .tc main_v70_0)) Facts₀.shapeCasts_S128x100_S128x10x10 := by
  show StableHlo.after hostOps3 (W6 m ρ c) _ = _
  after_results_simp
  try rfl
theorem W7_v70_1 (c : Dev nD) : W7 m ρ c (Proc.devRef .tc main_v70_1) = W6 m ρ c (Proc.devRef .tc main_v70_1) := by
  show StableHlo.after hostOps3 (W6 m ρ c) _ = _
  after_results_simp
  try rfl
theorem W7_v70_2 (c : Dev nD) : W7 m ρ c (Proc.devRef .tc main_v70_2) = W6 m ρ c (Proc.devRef .tc main_v70_2) := by
  show StableHlo.after hostOps3 (W6 m ρ c) _ = _
  after_results_simp
  try rfl

end Cert.KernelIdeal.Stretch

end
-- ==== Proof.ArgsKept.lean ====
import proofs.«410265_j83872121356775_3_alg».proof.Proof.Gen.KernelIdeal.Frame

set_option maxRecDepth 16384

noncomputable section

namespace Cert.KernelIdeal.Kept

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! No host operation and no pallas_call writes an argument of @main, so at every boundary between the stretches of
    host operations and the calls an argument's buffer still holds what it was launched with. -/

/-- No operation of a stretch of host operations writes the buffer: each operation writes one buffer, another one. -/
local macro "not_written " ops:ident : tactic => `(tactic| (
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _
          (List.forall_iff_forall_mem.mp (by not_written hostOps0))
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _
          (List.forall_iff_forall_mem.mp (by not_written hostOps0))
    _ = m ((c : Thread nD τ).loc main_arg2) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _
          (List.forall_iff_forall_mem.mp (by not_written hostOps0))
    _ = m ((c : Thread nD τ).loc main_arg5) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _
          (List.forall_iff_forall_mem.mp (by not_written hostOps1))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _
          (List.forall_iff_forall_mem.mp (by not_written hostOps0))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _
          (List.forall_iff_forall_mem.mp (by not_written hostOps1))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _
          (List.forall_iff_forall_mem.mp (by not_written hostOps0))
    _ = m ((c : Thread nD τ).loc main_arg3) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _
          (List.forall_iff_forall_mem.mp (by not_written hostOps1))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _
          (List.forall_iff_forall_mem.mp (by not_written hostOps0))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _
          (List.forall_iff_forall_mem.mp (by not_written hostOps1))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _
          (List.forall_iff_forall_mem.mp (by not_written hostOps0))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _
          (List.forall_iff_forall_mem.mp (by not_written hostOps1))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _
          (List.forall_iff_forall_mem.mp (by not_written hostOps0))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _
          (List.forall_iff_forall_mem.mp (by not_written hostOps1))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _
          (List.forall_iff_forall_mem.mp (by not_written hostOps0))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _
          (List.forall_iff_forall_mem.mp (by not_written hostOps1))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _
          (List.forall_iff_forall_mem.mp (by not_written hostOps0))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _
          (List.forall_iff_forall_mem.mp (by not_written hostOps1))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _
          (List.forall_iff_forall_mem.mp (by not_written hostOps0))
    _ = m ((c : Thread nD τ).loc main_arg11) := rfl

end Cert.KernelIdeal.Kept

end
-- ==== Proof.Spec.lean ====
/-
  The two whole-array functions the first two pallas_calls compute, written over plain coordinates.

  * The first call multiplies rows of the node features, packed two nodes to a 128-lane row, by a 128×128 weight:
    `packed X Wd r q = Σ_k X[r, k] · Wd[k, q]`.
  * The second call walks the nodes in tiles of 5000, ten tiles to each of two cores. A node `n` adds to graph `g`,
    feature `j`, the value `act … n j = max (A[n, j] + H[n, j] · D[n] + b[j]) 0` when its graph id is `g` (`hit`), and
    nothing otherwise; `coreSum … co g j` is core `co`'s total over its fifty thousand nodes, tile by tile.
-/
import proofs.«410265_j83872121356775_3_alg».proof.KernelIdeal
import Idealize.ShloMosaic.PureOps.Ideal
import Idealize.ShloMosaic.Lib.ValueIdx

noncomputable section

namespace Cert.Spec

open Cert.KernelIdeal Idealize.ShloMosaic Idealize.ShloMosaic.ValueIdx

/-- Row `r`, lane `q` of the packed product: the sum over the 128 packed input lanes. -/
def packed (X : S50000x128.Idx → EReal) (Wd : S128x128.Idx → EReal) (r : Fin 50000) (q : Fin 128) : EReal :=
  ∑ k : Fin 128, X (ix2 r k) * Wd (ix2 k q)

/-- What node `n` holds at feature `j` after the combine and the relu: the aggregate plus the node's own features
    scaled by its inverse degree, plus the bias, cut off below at zero. -/
def act (A H : S100000x64.Idx → EReal) (D : S100000x1.Idx → EReal) (b : S1x64.Idx → EReal) (n : Fin 100000) (j : Fin 64) : EReal :=
  max (A (ix2 n j) + H (ix2 n j) * D (ix2 n (0 : Fin 1)) + b (ix2 (0 : Fin 1) j)) 0

/-- One where node `n`'s graph id is `g`, zero elsewhere. -/
def hit (B : S100000x1.Idx → BitVec 32) (n : Fin 100000) (g : Fin 128) : EReal :=
  if B (ix2 n (0 : Fin 1)) = BitVec.ofNat 32 g.val then 1 else 0

/-- Row `r` of tile `s` of core `co`, as a node number: the cores take the two halves of the nodes, ten tiles of 5000 each. -/
def node (co : Fin 2) (s : Fin 10) (r : Fin 5000) : Fin 100000 :=
  ⟨5000 * (10 * co.val + s.val) + r.val, by have := co.isLt; have := s.isLt; have := r.isLt; omega⟩

/-- Core `co`'s pooled sum at graph `g`, feature `j`: over its ten tiles, over each tile's rows. -/
def coreSum (A H : S100000x64.Idx → EReal) (D : S100000x1.Idx → EReal) (B : S100000x1.Idx → BitVec 32) (b : S1x64.Idx → EReal)
    (co : Fin 2) (g : Fin 128) (j : Fin 64) : EReal :=
  ∑ s : Fin 10, ∑ r : Fin 5000, hit B (node co s r) g * act A H D b (node co s r) j

end Cert.Spec

end
-- ==== Proof.Transform.lean ====
import proofs.«410265_j83872121356775_3_alg».proof.Proof.Gen.KernelIdeal.Frame
import proofs.«410265_j83872121356775_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Transform

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The product's index maps, axis by axis -/

/-- The left operand is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the summed lane; -/
theorem lhs_lane (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summed row … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's lane. -/
theorem rhs_lane (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's arithmetic at an index -/

/-- One block of the product: row `p`, lane `q` of what the body stores is the sum over the 128 lanes of the loaded
    row block against the loaded weight. The roundings to the narrower format are the identity on extended reals, and
    the accumulator the product is added to is zero. -/
theorem block_product (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [shapeCast_self]
  refine (truncf_apply (ψ := .bf16) _ bitsLt_bf16_f32 (ix2 p q)).trans ?_
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_lane _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_lane _ _)
  rw [el, er]
  rfl

/-! ## From the blocks to the array -/

theorem zero_offsets : (![0, 0] : Fin 2 → Nat) = fun _ => 0 := funext fun a => by fin_cases a <;> rfl

/-- The whole product as one array: row `i 0`, lane `i 1`. -/
abbrev product (c : Dev nD) : S50000x128.Idx → Elt Ideal .bf16 := fun i =>
  Cert.Spec.packed (V c main_v0) (V c main_v9) ⟨(i 0).val, (i 0).isLt⟩ ⟨(i 1).val, (i 1).isLt⟩

/-- Where the three windows sit at grid point `t`: the row operand and the output at row block `t`, the weight whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row operand's block at point `t` is rows `5000 t … 5000 t + 4999` of the array. -/
theorem rows_block (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_v0 : S50000x128.Idx → Elt Ideal .f32) i := by
  obtain ⟨e0, e1, -, -, -, -⟩ := block_indices t
  unfold iblk0
  rw [View.read_apply]
  show V c main_v0 _ = V c main_v0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight's block at every point is the whole weight. -/
theorem weight_block (c : Dev nD) (t : Fin cfg0.N) (y : S128x128.Idx) :
    (iblk0 V c 1 t : Vec Ideal S128x128 .f32) y = (V c main_v9 : S128x128.Idx → Elt Ideal .f32) y := by
  obtain ⟨-, -, e2, e3, -, -⟩ := block_indices t
  unfold iblk0
  rw [View.read_apply]
  show V c main_v9 _ = V c main_v9 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- One stored element against the whole product: when the loaded row block is rows of `X` and the loaded weight is
    `Wd`, the element at `j` is the packed product at the row and lane `j` sits at. -/
theorem stored_eq_packed (X : S50000x128.Idx → EReal) (Wd : S128x128.Idx → EReal)
    (x0 : Vec Ideal S5000x128 .f32) (x1 : Vec Ideal S128x128 .f32) (j : S5000x128.Idx) (r : Fin 50000) (q : Fin 128)
    (hq : (j 1).val = q.val)
    (h0 : ∀ k : Fin 128, x0 (ix2 (j 0) k) = X (ix2 r k))
    (h1 : ∀ y : S128x128.Idx, x1 y = Wd y) :
    k0_pay1 (F := Ideal) x0 x1 j = Cert.Spec.packed X Wd r q := by
  obtain ⟨p, q', rfl⟩ : ∃ (p : Fin 5000) (q' : Fin 128), j = ix2 p q' := ⟨j 0, j 1, eq_ix2 j⟩
  obtain rfl : q' = q := Fin.ext hq
  rw [block_product]
  unfold Cert.Spec.packed
  refine Finset.sum_congr rfl fun k _ => ?_
  exact congr (congrArg _ (h0 k)) (h1 _)

/-- What grid point `t` writes back is block `t` of the whole product. -/
theorem flushed_eq (c : Dev nD) (t : Fin cfg0.N) :
    (dat0 (F := Ideal) V c).flushed 2 t = ((cfg0.win 2).blk t).view.read (Elt Ideal) (product V c) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e4, e5⟩ := block_indices t
  funext j
  show k0_pay1 (F := Ideal) (iblk0 V c 0 t) (iblk0 V c 1 t) j = product V c (((cfg0.win 2).blk t).view.emb j)
  have r0 : ((((cfg0.win 2).blk t).view.emb j) 0).val = 5000 * t.val + (j 0).val := by
    show win0_2.index t (0 : Fin 2) * 5000 + 1 * (j 0).val = _; rw [e4]; omega
  have r1 : ((((cfg0.win 2).blk t).view.emb j) 1).val = (j 1).val := by
    show win0_2.index t (1 : Fin 2) * 128 + 1 * (j 1).val = _; rw [e5]; omega
  refine stored_eq_packed (V c main_v0) (V c main_v9) (iblk0 V c 0 t) (iblk0 V c 1 t) j _ _ r1.symm (fun k => ?_) (fun y => weight_block V c t y)
  exact rows_block V c t _ _ r0 rfl

/-- An index of the array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v10).slice (win0_2.rect t)).set ↔ _
  rw [View.set_slice_whole, Rect.mem_set_unit]
  exact Iff.rfl

/-- The ten row blocks fill the array: row `i 0` is in the block of point `i 0 / 5000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := by decide
  have ht : (i 0).val / 5000 < cfg0.N := by rw [hN]; omega
  obtain ⟨-, -, -, -, e4, e5⟩ := block_indices ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_block]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e4']; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; rw [e5]; omega

/-- So the output array ends holding the whole product. -/
theorem array_eq_product (c : Dev nD) : (dat0 (F := Ideal) V c).arrAt 2 cfg0.N = product V c :=
  (dat0 (F := Ideal) V c).arrAt_eq_of_cover 2 (product V c) (fun t _ => flushed_eq V c t) covered

/-- What the run leaves in the first product's output array: at packed row `r`, lane `q`, the product of packed row `r`
    of its first operand with column `q` of its second. -/
theorem region0_array (c : Dev nD) (r : Fin 50000) (q : Fin 128) :
    (dat0 (F := Ideal) V c).arrAt 2 cfg0.N (ix2 r q) = Cert.Spec.packed (V c main_v0) (V c main_v9) r q := by
  rw [array_eq_product]

end Cert.KernelIdeal.Transform

end
-- ==== Proof.TransformEq.lean ====
import proofs.«410265_j83872121356775_3_alg».proof.KernelIdeal
import proofs.«410265_j83872121356775_3_alg».proof.ReferenceIdeal
import proofs.«410265_j83872121356775_3_alg».proof.Proof.Gen.KernelIdeal
import proofs.«410265_j83872121356775_3_alg».proof.Proof.Gen.ReferenceIdeal
import proofs.«410265_j83872121356775_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TransformEq

open Idealize.ShloMosaic Idealize.ShloMosaic.ValueIdx
open Cert.KernelIdeal Cert.KernelIdeal.Facts₀

/-- Packing two nodes to a row: the [100000, 64] features recast to [50000, 128] read, at (r, k), node `2r + k / 64`,
    feature `k mod 64`. -/
theorem pack_apply (x : S100000x64.Idx → EReal) (r : Fin 50000) (k : Fin 128) :
    shapeCast S50000x128 x shapeCasts_S100000x64_S50000x128 (ix2 r k)
      = x (ix2 (⟨2 * r.val + k.val / 64, by have := r.isLt; have := k.isLt; omega⟩ : Fin 100000)
              (⟨k.val % 64, Nat.mod_lt _ (by decide)⟩ : Fin 64)) := by
  -- both indices have row-major number 128 r + k = 64 (2 r + k / 64) + k mod 64
  refine shapeCast_apply x shapeCasts_S100000x64_S50000x128 (ix2 r k) _ ?_
  rw [Shape.rowMajor_val_two, Shape.rowMajor_val_two]
  show (2 * r.val + k.val / 64) * 64 + k.val % 64 = r.val * 128 + k.val
  omega

/-- And unpacking: a [50000, 128] array recast to [100000, 64] reads, at (n, j), row `n / 2`, lane `64 (n mod 2) + j`. -/
theorem unpack_apply (Y : S50000x128.Idx → EReal) (n : Fin 100000) (j : Fin 64) :
    shapeCast S100000x64 Y shapeCasts_S50000x128_S100000x64 (ix2 n j)
      = Y (ix2 (⟨n.val / 2, by have := n.isLt; omega⟩ : Fin 50000)
              (⟨(n.val % 2) * 64 + j.val, by have := j.isLt; omega⟩ : Fin 128)) := by
  -- both indices have row-major number 64 n + j = 128 (n / 2) + 64 (n mod 2) + j
  refine shapeCast_apply Y shapeCasts_S50000x128_S100000x64 (ix2 n j) _ ?_
  rw [Shape.rowMajor_val_two, Shape.rowMajor_val_two]
  show n.val / 2 * 128 + (n.val % 2 * 64 + j.val) = n.val * 64 + j.val
  omega

/-- Two rank-2 indices with the same coordinate values are the same index. -/
theorem ix2_congr {n0 n1 : Nat} {a a' : Fin n0} {c c' : Fin n1} (ha : a.val = a'.val) (hc : c.val = c'.val) :
    ix2 a c = ix2 a' c' := by
  have e1 := Fin.ext ha
  have e2 := Fin.ext hc
  subst e1 e2
  rfl

/-- On its free axis (axis 0) the left operand of the reference's `dot_general` is read at the result's row. -/
theorem ref_lhs_row (i : S100000x64.Idx) (c : Cert.ReferenceIdeal.dot_S100000x64_S64x64_S100000x64_1_0_0_1_n_n.contr.Idx) :
    (Cert.ReferenceIdeal.dot_S100000x64_S64x64_S100000x64_1_0_0_1_n_n.lhsIdx i c 0).val = (i 0).val := by
  unfold DotDims.lhsIdx
  rw [dif_neg (show ¬(0 : Fin S100000x64.rank) ∈ Cert.ReferenceIdeal.dot_S100000x64_S64x64_S100000x64_1_0_0_1_n_n.lhsBatch by decide),
    dif_pos (show (0 : Fin S100000x64.rank) ∈ Cert.ReferenceIdeal.dot_S100000x64_S64x64_S100000x64_1_0_0_1_n_n.lhsNonContracting by decide)]
  rfl

/-- On its free axis (axis 1) the right operand is read at the result's column. -/
theorem ref_rhs_col (i : S100000x64.Idx) (c : Cert.ReferenceIdeal.dot_S100000x64_S64x64_S100000x64_1_0_0_1_n_n.contr.Idx) :
    (Cert.ReferenceIdeal.dot_S100000x64_S64x64_S100000x64_1_0_0_1_n_n.rhsIdx i c 1).val = (i 1).val := by
  unfold DotDims.rhsIdx
  rw [dif_neg (show ¬(1 : Fin S64x64.rank) ∈ Cert.ReferenceIdeal.dot_S100000x64_S64x64_S100000x64_1_0_0_1_n_n.rhsBatch by decide),
    dif_pos (show (1 : Fin S64x64.rank) ∈ Cert.ReferenceIdeal.dot_S100000x64_S64x64_S100000x64_1_0_0_1_n_n.rhsNonContracting by decide)]
  rfl

/-- The reference's `dot_general` at (n, j): the sum over the shared axis of `x[n, b] · W[b, j]`. Its left index keeps
    the result's row and takes the contraction coordinate as column; its right index takes the contraction coordinate as
    row and keeps the result's column. -/
theorem ref_dot_apply (x : S100000x64.Idx → EReal) (W : S64x64.Idx → EReal) (n : Fin 100000) (j : Fin 64) :
    Host.dotGeneral (F := Ideal) (φ₁ := .f32) (φ₂ := .f32) Cert.ReferenceIdeal.dot_S100000x64_S64x64_S100000x64_1_0_0_1_n_n none x W (ix2 n j)
      = ∑ b : Fin 64, x (ix2 n b) * W (ix2 b j) := by
  simp only [Host.dotGeneral]
  rw [Ideal.dotGeneral_apply,
    ← Equiv.sum_comp (contrEquiv1 Cert.ReferenceIdeal.dot_S100000x64_S64x64_S100000x64_1_0_0_1_n_n 64 rfl rfl).symm]
  refine Finset.sum_congr rfl fun b _ => ?_
  have hb := contrEquiv1_symm_val Cert.ReferenceIdeal.dot_S100000x64_S64x64_S100000x64_1_0_0_1_n_n 64 rfl rfl b
  have el : Cert.ReferenceIdeal.dot_S100000x64_S64x64_S100000x64_1_0_0_1_n_n.lhsIdx (ix2 n j)
      ((contrEquiv1 Cert.ReferenceIdeal.dot_S100000x64_S64x64_S100000x64_1_0_0_1_n_n 64 rfl rfl).symm b) = ix2 n b :=
    funext fun a => Fin.ext (by
      match a with
      | ⟨0, _⟩ => exact ref_lhs_row _ _
      | ⟨1, _⟩ =>
        -- axis 1 is the contracted one
        exact (Cert.ReferenceIdeal.dot_S100000x64_S64x64_S100000x64_1_0_0_1_n_n.lhsIdx_val_of_single rfl (ix2 n j) _).trans hb)
  have er : Cert.ReferenceIdeal.dot_S100000x64_S64x64_S100000x64_1_0_0_1_n_n.rhsIdx (ix2 n j)
      ((contrEquiv1 Cert.ReferenceIdeal.dot_S100000x64_S64x64_S100000x64_1_0_0_1_n_n 64 rfl rfl).symm b) = ix2 b j :=
    funext fun a => Fin.ext (by
      match a with
      | ⟨0, _⟩ =>
        -- axis 0 is the contracted one
        exact (Cert.ReferenceIdeal.dot_S100000x64_S64x64_S100000x64_1_0_0_1_n_n.rhsIdx_val_of_single rfl (ix2 n j) _).trans hb
      | ⟨1, _⟩ => exact ref_rhs_col _ _)
  rw [el, er]

/-- A sum over the 128 packed lanes, taken half by half: lane `64 a + b` is lane `b` of half `a`. -/
theorem sum_halves {M : Type*} [AddCommMonoid M] (g : Fin 128 → M) :
    ∑ k : Fin 128, g k
      = ∑ a : Fin 2, ∑ b : Fin 64, g (⟨64 * a.val + b.val, by have := a.isLt; have := b.isLt; omega⟩ : Fin 128) := by
  calc ∑ k : Fin 128, g k
      = ∑ p : Fin 2 × Fin 64, g (finProdFinEquiv p) := (Equiv.sum_comp (finProdFinEquiv (m := 2) (n := 64)) g).symm
    _ = ∑ a : Fin 2, ∑ b : Fin 64, g (finProdFinEquiv (a, b)) := Fintype.sum_prod_type _
    _ = _ := Finset.sum_congr rfl fun a _ => Finset.sum_congr rfl fun b _ => congrArg g (Fin.ext (by
          show b.val + 64 * a.val = 64 * a.val + b.val
          omega))

section lanes

variable (x : S100000x64.Idx → EReal) (W : S64x64.Idx → EReal) (X : S50000x128.Idx → EReal)
  (hX : ∀ (r : Fin 50000) (k : Fin 128), X (ix2 r k)
    = x (ix2 (⟨2 * r.val + k.val / 64, by have := r.isLt; have := k.isLt; omega⟩ : Fin 100000) (⟨k.val % 64, Nat.mod_lt _ (by decide)⟩ : Fin 64)))
  (Wd : S128x128.Idx → EReal)
  (hW : ∀ k q : Fin 128, Wd (ix2 k q)
    = if k.val / 64 = q.val / 64 then W (ix2 (⟨k.val % 64, Nat.mod_lt _ (by decide)⟩ : Fin 64) (⟨q.val % 64, Nat.mod_lt _ (by decide)⟩ : Fin 64)) else 0)

include hX hW in
/-- A lane of node `n`'s own half. In row `r = n / 2`, input lane `k = 64 (n mod 2) + b` holds `x[n, b]` (for
    `2 (n / 2) + n mod 2 = n`), and against output lane `q = 64 (n mod 2) + j` the weight is on the diagonal block:
    `W[b, j]`. -/
theorem own_lane (n : Fin 100000) (j b : Fin 64) (r : Fin 50000) (k q : Fin 128)
    (hr : r.val = n.val / 2) (hk : k.val = 64 * (n.val % 2) + b.val) (hq : q.val = n.val % 2 * 64 + j.val) :
    X (ix2 r k) * Wd (ix2 k q) = x (ix2 n b) * W (ix2 b j) := by
  have hn := n.isLt
  have hj := j.isLt
  have hb := b.isLt
  rw [hX r k, hW k q, if_pos (show k.val / 64 = q.val / 64 by omega)]
  have e1 : x (ix2 (⟨2 * r.val + k.val / 64, by have := r.isLt; have := k.isLt; omega⟩ : Fin 100000) (⟨k.val % 64, Nat.mod_lt _ (by decide)⟩ : Fin 64))
      = x (ix2 n b) :=
    congrArg x (ix2_congr (by show 2 * r.val + k.val / 64 = n.val; omega) (by show k.val % 64 = b.val; omega))
  have e2 : W (ix2 (⟨k.val % 64, Nat.mod_lt _ (by decide)⟩ : Fin 64) (⟨q.val % 64, Nat.mod_lt _ (by decide)⟩ : Fin 64))
      = W (ix2 b j) :=
    congrArg W (ix2_congr (by show k.val % 64 = b.val; omega) (by show q.val % 64 = j.val; omega))
  rw [e1, e2]

include hW in
/-- A lane of the other half meets a zero block of the weight. -/
theorem other_lane (r : Fin 50000) (k q : Fin 128) (h : k.val / 64 ≠ q.val / 64) :
    X (ix2 r k) * Wd (ix2 k q) = 0 := by
  rw [hW k q, if_neg h, mul_zero]

end lanes

/-- The packed product against the block-diagonal weight is the plain product `x · W`: at node `n`, feature `j`, the
    128 packed lanes' sum keeps the 64 lanes of `n`'s own half (the other half meets the zero blocks), which is the
    reference's `dot_general` there. -/
theorem transform_eq (x : S100000x64.Idx → EReal) (W : S64x64.Idx → EReal)
    (X : S50000x128.Idx → EReal)
    (hX : ∀ (r : Fin 50000) (k : Fin 128), X (ix2 r k)
      = x (ix2 (⟨2 * r.val + k.val / 64, by have := r.isLt; have := k.isLt; omega⟩ : Fin 100000) (⟨k.val % 64, Nat.mod_lt _ (by decide)⟩ : Fin 64)))
    (Wd : S128x128.Idx → EReal)
    (hW : ∀ k q : Fin 128, Wd (ix2 k q)
      = if k.val / 64 = q.val / 64 then W (ix2 (⟨k.val % 64, Nat.mod_lt _ (by decide)⟩ : Fin 64) (⟨q.val % 64, Nat.mod_lt _ (by decide)⟩ : Fin 64)) else 0)
    (n : Fin 100000) (j : Fin 64) :
    Cert.Spec.packed X Wd (⟨n.val / 2, by have := n.isLt; omega⟩ : Fin 50000) (⟨(n.val % 2) * 64 + j.val, by have := j.isLt; omega⟩ : Fin 128)
      = Host.dotGeneral (F := Ideal) (φ₁ := .f32) (φ₂ := .f32) Cert.ReferenceIdeal.dot_S100000x64_S64x64_S100000x64_1_0_0_1_n_n none x W (ix2 n j) := by
  have hj := j.isLt
  rw [ref_dot_apply]
  unfold Cert.Spec.packed
  rw [sum_halves]
  -- of the two halves only half `n mod 2` contributes
  rw [Fintype.sum_eq_single (⟨n.val % 2, Nat.mod_lt _ (by decide)⟩ : Fin 2)]
  · exact Finset.sum_congr rfl fun b _ => own_lane x W X hX Wd hW n j b _ _ _ rfl rfl rfl
  · intro a ha
    refine Finset.sum_eq_zero fun b _ => other_lane W X Wd hW _ _ _ ?_
    have hb := b.isLt
    have ha' : a.val ≠ n.val % 2 := fun h => ha (Fin.ext h)
    show (64 * a.val + b.val) / 64 ≠ (n.val % 2 * 64 + j.val) / 64
    omega

end Cert.KernelIdeal.TransformEq

end
-- ==== Proof.BlockDiag.lean ====
import proofs.«410265_j83872121356775_3_alg».proof.KernelIdeal
import proofs.«410265_j83872121356775_3_alg».proof.ReferenceIdeal
import proofs.«410265_j83872121356775_3_alg».proof.Proof.Gen.KernelIdeal
import proofs.«410265_j83872121356775_3_alg».proof.Proof.Gen.ReferenceIdeal
import proofs.«410265_j83872121356775_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockDiag

open Idealize.ShloMosaic Idealize.ShloMosaic.ValueIdx
open Cert.KernelIdeal Cert.KernelIdeal.Facts₀

/-- A left fold of "replace the element at `ρ n` by `v n`, when `ρ n` is an index" read at an index no step of the list
    lands on: the starting function's value there. -/
theorem foldl_set_miss {ι σ α : Type*} [DecidableEq σ] (ρ : ι → Option σ) (v : ι → α)
    (step : (σ → α) → ι → (σ → α))
    (hsome : ∀ r n i, ρ n = some i → step r n = fun i' => if i' = i then v n else r i')
    (hnone : ∀ r n, ρ n = none → step r n = r)
    (l : List ι) (x : σ → α) (i : σ) (h : ∀ n ∈ l, ρ n ≠ some i) :
    l.foldl step x i = x i := by
  induction l generalizing x with
  | nil => rfl
  | cons a t ih =>
    rw [List.foldl_cons, ih _ (fun n hn => h n (List.mem_cons_of_mem _ hn))]
    cases hρ : ρ a with
    | none => rw [hnone _ _ hρ]
    | some i' =>
      rw [hsome _ _ _ hρ]
      have hne : i ≠ i' := fun e => h a (List.mem_cons_self) (by rw [hρ, e])
      simp only [if_neg hne]

/-- The same fold read at an index that one step `n₀` of the list lands on and no other step does: `v n₀`. -/
theorem foldl_set_hit {ι σ α : Type*} [DecidableEq σ] (ρ : ι → Option σ) (v : ι → α)
    (step : (σ → α) → ι → (σ → α))
    (hsome : ∀ r n i, ρ n = some i → step r n = fun i' => if i' = i then v n else r i')
    (hnone : ∀ r n, ρ n = none → step r n = r)
    (l : List ι) (x : σ → α) (i : σ) (n₀ : ι) (hmem : n₀ ∈ l) (h0 : ρ n₀ = some i)
    (huniq : ∀ n ∈ l, ρ n = some i → n = n₀) :
    l.foldl step x i = v n₀ := by
  induction l generalizing x with
  | nil => cases hmem
  | cons a t ih =>
    rw [List.foldl_cons]
    by_cases ht : n₀ ∈ t
    · exact ih _ ht (fun n hn => huniq n (List.mem_cons_of_mem _ hn))
    · have ha : n₀ = a := by
        rcases List.mem_cons.1 hmem with e | e
        · exact e
        · exact absurd e ht
      subst ha
      rw [foldl_set_miss ρ v step hsome hnone t _ i (fun n hn e => ht (huniq n (List.mem_cons_of_mem _ hn) e ▸ hn)),
        hsome _ _ _ h0]
      simp only [if_true]

/-- A scatter whose body returns the update, read at an index no update lands on: the operand there. -/
theorem scatter_set_miss {α : Type} {w : Nat} {s si u : Shape} (d : ScatterDims s si u) (x : s.Idx → α) (idx : IVec si w)
    (upd : u.Idx → α) (i : s.Idx) (h : ∀ j, d.resultIdx? j idx ≠ some i) :
    Host.scatter d (fun _ b => b) x idx upd i = x i := by
  unfold Host.scatter
  refine foldl_set_miss (fun n => d.resultIdx? (u.rowMajor.symm n) idx) (fun n => upd (u.rowMajor.symm n)) _ ?_ ?_ _ x i
    (fun n _ => h _)
  · intro r n i' hρ
    simp only [hρ]
  · intro r n hρ
    simp only [hρ]

/-- A scatter whose body returns the update, read at an index exactly one update `j₀` lands on: that update. -/
theorem scatter_set_hit {α : Type} {w : Nat} {s si u : Shape} (d : ScatterDims s si u) (x : s.Idx → α) (idx : IVec si w)
    (upd : u.Idx → α) (i : s.Idx) (j₀ : u.Idx) (h0 : d.resultIdx? j₀ idx = some i)
    (huniq : ∀ j, d.resultIdx? j idx = some i → j = j₀) :
    Host.scatter d (fun _ b => b) x idx upd i = upd j₀ := by
  unfold Host.scatter
  refine (foldl_set_hit (fun n => d.resultIdx? (u.rowMajor.symm n) idx) (fun n => upd (u.rowMajor.symm n)) _ ?_ ?_
    (List.finRange u.numel) x i (u.rowMajor j₀) (List.mem_finRange _)
    (by rw [Equiv.symm_apply_apply]; exact h0)
    (fun n _ e => by rw [← huniq _ e, Equiv.apply_symm_apply])).trans ?_
  · intro r n i' hρ
    simp only [hρ]
  · intro r n hρ
    simp only [hρ]
  · rw [Equiv.symm_apply_apply]

/-- The block-write record's start on either axis: the index vector's component there, both components being the word `c`. -/
theorem start_eq (c : BitVec 32) (idx : IVec S2 32) (h : ∀ a, idx a = c) (j : S64x64.Idx) (a : Fin 2) :
    scatter_S128x128_S2_S64x64_01_n_01_0.start j idx a = c.toInt := by
  have ha : a ∈ scatter_S128x128_S2_S64x64_01_n_01_0.scatterDimsToOperandDims := by
    fin_cases a <;> decide
  rw [ScatterDims.start, dif_pos ha, h]

/-- The block-write record's window coordinate on either axis: the update index's coordinate on that axis. -/
theorem window_eq (j : S64x64.Idx) (a : Fin 2) :
    scatter_S128x128_S2_S64x64_01_n_01_0.window j a = (j a).val := by
  fin_cases a <;> rfl

/-- Where the block-write record puts update `(a, b)` when both components of the index vector are the word `c` of
    value `cn` and the 64×64 block at `(cn, cn)` lies inside the 128×128 operand: at `(cn + a, cn + b)`. -/
theorem resultIdx?_eq (c : BitVec 32) (cn : Nat) (hc : c.toInt = cn) (hcn : cn + 64 ≤ 128) (idx : IVec S2 32)
    (h : ∀ a, idx a = c) (j : S64x64.Idx) :
    scatter_S128x128_S2_S64x64_01_n_01_0.resultIdx? j idx
      = some (ix2 (⟨cn + (j 0).val, by have := (j 0).isLt; simp at this; omega⟩ : Fin 128)
          (⟨cn + (j 1).val, by have := (j 1).isLt; simp at this; omega⟩ : Fin 128)) := by
  have hj : ∀ a : Fin 2, (j a).val < 64 := fun a => by fin_cases a <;> exact (j _).isLt
  have hcond : ∀ a : Fin S128x128.rank, 0 ≤ scatter_S128x128_S2_S64x64_01_n_01_0.start j idx a + scatter_S128x128_S2_S64x64_01_n_01_0.window j a
      ∧ scatter_S128x128_S2_S64x64_01_n_01_0.start j idx a + scatter_S128x128_S2_S64x64_01_n_01_0.window j a < S128x128.size a := by
    intro a
    have hs : S128x128.size a = 128 := by fin_cases a <;> rfl
    rw [start_eq c idx h j a, window_eq j a, hc, hs]
    have := hj a
    omega
  rw [ScatterDims.resultIdx?, dif_pos hcond]
  congr 1
  funext a
  apply Fin.ext
  show (scatter_S128x128_S2_S64x64_01_n_01_0.start j idx a + scatter_S128x128_S2_S64x64_01_n_01_0.window j a).toNat = _
  rw [start_eq c idx h j a, window_eq j a, hc]
  fin_cases a
  · show ((cn : Int) + ((j 0).val : Int)).toNat = cn + (j 0).val
    omega
  · show ((cn : Int) + ((j 1).val : Int)).toNat = cn + (j 1).val
    omega

/-- One block write read at `(k, q)`: a 64×64 update `W` written at offset `(cn, cn)` of a 128×128 operand `x` is
    `W[k - cn, q - cn]` inside the block and `x[k, q]` outside it. -/
theorem scatter_block_apply (c : BitVec 32) (cn : Nat) (hc : c.toInt = cn) (hcn : cn + 64 ≤ 128) (idx : IVec S2 32)
    (h : ∀ a, idx a = c) (x : S128x128.Idx → EReal) (W : S64x64.Idx → EReal) (k q : Fin 128) :
    Host.scatter scatter_S128x128_S2_S64x64_01_n_01_0 (fun _ b => b) x idx W (ix2 k q)
      = if hin : (cn ≤ k.val ∧ k.val < cn + 64) ∧ (cn ≤ q.val ∧ q.val < cn + 64) then
          W (ix2 (⟨k.val - cn, by omega⟩ : Fin 64) (⟨q.val - cn, by omega⟩ : Fin 64))
        else x (ix2 k q) := by
  by_cases hin : (cn ≤ k.val ∧ k.val < cn + 64) ∧ (cn ≤ q.val ∧ q.val < cn + 64)
  · rw [dif_pos hin]
    refine scatter_set_hit _ x idx W (ix2 k q) _ ?_ ?_
    · rw [resultIdx?_eq c cn hc hcn idx h]
      have g0 : (⟨cn + (k.val - cn), by omega⟩ : Fin 128) = k := Fin.ext (by show cn + (k.val - cn) = k.val; omega)
      have g1 : (⟨cn + (q.val - cn), by omega⟩ : Fin 128) = q := Fin.ext (by show cn + (q.val - cn) = q.val; omega)
      show some (ix2 (⟨cn + (k.val - cn), by omega⟩ : Fin 128) (⟨cn + (q.val - cn), by omega⟩ : Fin 128)) = some (ix2 k q)
      rw [g0, g1]
    · intro j hj
      rw [resultIdx?_eq c cn hc hcn idx h] at hj
      have hj' := Option.some.inj hj
      have h0 : cn + (j 0).val = k.val := congrArg Fin.val (congrFun hj' 0)
      have h1 : cn + (j 1).val = q.val := congrArg Fin.val (congrFun hj' 1)
      rw [eq_ix2 j]
      have f0 : j 0 = (⟨k.val - cn, by omega⟩ : Fin 64) := Fin.ext (by show (j 0).val = k.val - cn; omega)
      have f1 : j 1 = (⟨q.val - cn, by omega⟩ : Fin 64) := Fin.ext (by show (j 1).val = q.val - cn; omega)
      rw [f0, f1]
      rfl
  · rw [dif_neg hin]
    refine scatter_set_miss _ x idx W (ix2 k q) ?_
    intro j hj
    rw [resultIdx?_eq c cn hc hcn idx h] at hj
    have hj' := Option.some.inj hj
    have h0 : cn + (j 0).val = k.val := congrArg Fin.val (congrFun hj' 0)
    have h1 : cn + (j 1).val = q.val := congrArg Fin.val (congrFun hj' 1)
    have b0 : (j 0).val < 64 := (j 0).isLt
    have b1 : (j 1).val < 64 := (j 1).isLt
    exact hin ⟨⟨by omega, by omega⟩, ⟨by omega, by omega⟩⟩

/-- The 128×128 weight the first pallas_call multiplies by: a 64×64 matrix `W` written into a zero matrix at offset
    (0, 0) and again at offset (64, 64). Read at (k, q) it is `W[k mod 64, q mod 64]` on the two diagonal blocks and
    zero on the two others. -/
theorem blockdiag_apply (W : S64x64.Idx → EReal) (Z : S128x128.Idx → EReal) (hZ : ∀ i, Z i = 0)
    (i0 i64 : IVec S2 32) (h0 : ∀ a, i0 a = 0#32) (h64 : ∀ a, i64 a = 64#32) (k q : Fin 128) :
    Host.scatter scatter_S128x128_S2_S64x64_01_n_01_0 (fun _ b => b)
        (Host.scatter scatter_S128x128_S2_S64x64_01_n_01_0 (fun _ b => b) Z i0 W) i64 W (ix2 k q)
      = if k.val / 64 = q.val / 64 then
          W (ix2 (⟨k.val % 64, Nat.mod_lt _ (by decide)⟩ : Fin 64) (⟨q.val % 64, Nat.mod_lt _ (by decide)⟩ : Fin 64))
        else 0 := by
  have hk := k.isLt
  have hq := q.isLt
  rw [scatter_block_apply (64#32) 64 (by decide) (by decide) i64 h64,
    scatter_block_apply (0#32) 0 (by decide) (by decide) i0 h0, hZ]
  by_cases hhi : (64 ≤ k.val ∧ k.val < 64 + 64) ∧ (64 ≤ q.val ∧ q.val < 64 + 64)
  · rw [dif_pos hhi, if_pos (by omega)]
    have f0 : (⟨k.val - 64, by omega⟩ : Fin 64) = ⟨k.val % 64, Nat.mod_lt _ (by decide)⟩ := Fin.ext (by show k.val - 64 = k.val % 64; omega)
    have f1 : (⟨q.val - 64, by omega⟩ : Fin 64) = ⟨q.val % 64, Nat.mod_lt _ (by decide)⟩ := Fin.ext (by show q.val - 64 = q.val % 64; omega)
    rw [f0, f1]
  · rw [dif_neg hhi]
    by_cases hlo : (0 ≤ k.val ∧ k.val < 0 + 64) ∧ (0 ≤ q.val ∧ q.val < 0 + 64)
    · rw [dif_pos hlo, if_pos (by omega)]
      have f0 : (⟨k.val - 0, by omega⟩ : Fin 64) = ⟨k.val % 64, Nat.mod_lt _ (by decide)⟩ := Fin.ext (by show k.val - 0 = k.val % 64; omega)
      have f1 : (⟨q.val - 0, by omega⟩ : Fin 64) = ⟨q.val % 64, Nat.mod_lt _ (by decide)⟩ := Fin.ext (by show q.val - 0 = q.val % 64; omega)
      rw [f0, f1]
    · rw [dif_neg hlo, if_neg (by omega)]

end Cert.KernelIdeal.BlockDiag

end
-- ==== Proof.Halves.lean ====
import proofs.«410265_j83872121356775_3_alg».proof.KernelIdeal
import proofs.«410265_j83872121356775_3_alg».proof.ReferenceIdeal
import proofs.«410265_j83872121356775_3_alg».proof.Proof.Gen.KernelIdeal
import proofs.«410265_j83872121356775_3_alg».proof.Proof.Gen.ReferenceIdeal
import proofs.«410265_j83872121356775_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Halves

open Idealize.ShloMosaic Idealize.ShloMosaic.ValueIdx
open Cert.KernelIdeal Cert.KernelIdeal.Facts₀

/-- One core's slab, sliced out of the [2, 128, 64] array at offset `c` on the leading axis and recast to [128, 64],
    reads the array at (c, g, j). -/
theorem slab_apply (Y : S2x128x64.Idx → EReal) (c : Fin 2) (off : Fin 3 → Nat) (hoff : off = ![c.val, 0, 0])
    (hs : S2x128x64.Slices off S1x128x64) (g : Fin 128) (j : Fin 64) :
    shapeCast S128x64 (extractStridedSlice S1x128x64 off Y hs) shapeCasts_S1x128x64_S128x64 (ix2 g j) = Y (ix3 c g j) := by
  subst hoff
  refine (shapeCast_apply _ shapeCasts_S1x128x64_S128x64 (ix2 g j) (ix3 (0 : Fin 1) g j) ?_).trans ?_
  · rw [Shape.rowMajor_val_three, Shape.rowMajor_val_two]
    show ((0 : Nat) * 128 + g.val) * 64 + j.val = g.val * 64 + j.val
    omega
  · refine extractStridedSlice_apply _ Y hs (ix3 (0 : Fin 1) g j) (ix3 c g j) (fun a => ?_)
    match a with
    | ⟨0, _⟩ => show c.val = c.val + 0; omega
    | ⟨1, _⟩ => show g.val = 0 + g.val; omega
    | ⟨2, _⟩ => show j.val = 0 + j.val; omega

/-- The two cores' slabs of the [2, 128, 64] array, each sliced out, recast to [128, 64], and the two added: at (g, j)
    the sum of the two slabs' entries there. -/
theorem halves_apply (Y : S2x128x64.Idx → EReal) (g : Fin 128) (j : Fin 64) :
    addf (F := Ideal) (φ := .f32)
        (shapeCast S128x64 (extractStridedSlice S1x128x64 ![0, 0, 0] Y slices_S2x128x64_S1x128x64_0_0_0) shapeCasts_S1x128x64_S128x64)
        (shapeCast S128x64 (extractStridedSlice S1x128x64 ![1, 0, 0] Y slices_S2x128x64_S1x128x64_1_0_0) shapeCasts_S1x128x64_S128x64)
        (ix2 g j)
      = Y (ix3 (0 : Fin 2) g j) + Y (ix3 (1 : Fin 2) g j) := by
  have h0 := slab_apply Y 0 ![0, 0, 0] rfl slices_S2x128x64_S1x128x64_0_0_0 g j
  have h1 := slab_apply Y 1 ![1, 0, 0] rfl slices_S2x128x64_S1x128x64_1_0_0 g j
  rw [addf_apply, h0, h1]

/-- The index vector (w, w) of an `.at[w:, w:].set`, as the host builds it — two one-element vectors of the word `w`
    joined —, reads `w` at both places. -/
theorem idxPair_apply (w : BitVec 32) (a : S2.Idx) :
    concatenate S2 0 [⟨S1, broadcastInDim S1 ![] bcast_S_S1 (constantI S_ 32 w)⟩, ⟨S1, broadcastInDim S1 ![] bcast_S_S1 (constantI S_ 32 w)⟩]
      concatenates_S1_S1_S2_d0 a = w := by
  rw [eq_ix1 a]
  generalize a 0 = k
  match k with
  | ⟨0, _⟩ =>
    refine (concatenate_pair_apply_left (t := S2) (s₁ := S1) (s₂ := S1) (0 : Fin 1) _ _ concatenates_S1_S1_S2_d0 (ix1 (⟨0, by omega⟩ : Fin 2)) rfl (ix1 (0 : Fin 1)) (fun b => ?_)).trans rfl
    match b with
    | ⟨0, _⟩ => rfl
  | ⟨1, _⟩ =>
    refine (concatenate_pair_apply_right (t := S2) (s₁ := S1) (s₂ := S1) (0 : Fin 1) _ _ concatenates_S1_S1_S2_d0 (ix1 (⟨1, by omega⟩ : Fin 2)) rfl rfl (ix1 (0 : Fin 1)) (fun b hb => ?_) rfl).trans rfl
    match b with
    | ⟨0, _⟩ => exact absurd rfl hb

end Cert.KernelIdeal.Halves

end
-- ==== Proof.StageH.lean ====
import proofs.«410265_j83872121356775_3_alg».proof.Proof.Stretches
import proofs.«410265_j83872121356775_3_alg».proof.Proof.ArgsKept
import proofs.«410265_j83872121356775_3_alg».proof.Proof.Gen.ReferenceIdeal.Read
import proofs.«410265_j83872121356775_3_alg».proof.Proof.Transform
import proofs.«410265_j83872121356775_3_alg».proof.Proof.TransformEq
import proofs.«410265_j83872121356775_3_alg».proof.Proof.BlockDiag
import proofs.«410265_j83872121356775_3_alg».proof.Proof.Halves
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The node features after the first call and the recast back to one node per row are the reference's `x · W`. -/
theorem stage_h (c : Dev nD) :
    V3 m ρ c main_v11 = Cert.ReferenceIdeal.Read.val_main_v0 (F := Ideal) (m ((c : Thread nD τ).loc main_arg0)) (m ((c : Thread nD τ).loc main_arg4)) := by
  -- the zero matrix reads zero everywhere: a scalar zero spread over the whole shape
  have hZ : ∀ i, Stretch.Z0 i = 0 := fun i => by
    refine (broadcastInDim_apply _ _ _ i ix0 (fun a => a.elim0)).trans ?_
    show Ideal.ofBits .f32 0x00000000#32 = 0
    exact Ideal.ofBits_zero_f32
  -- the packed features at (r, k): node 2r + k / 64, feature k mod 64
  have hX : ∀ (r : Fin 50000) (k : Fin 128), (V1 m ρ c main_v0 : S50000x128.Idx → EReal) (ix2 r k)
      = (m ((c : Thread nD τ).loc main_arg0) : S100000x64.Idx → EReal)
          (ix2 (⟨2 * r.val + k.val / 64, by have := r.isLt; have := k.isLt; omega⟩ : Fin 100000) (⟨k.val % 64, Nat.mod_lt _ (by decide)⟩ : Fin 64)) := fun r k => by
    rw [Stretch.V1_v0]
    exact TransformEq.pack_apply _ r k
  -- the weight at (k, q): W on the two diagonal blocks, zero off them
  have hW : ∀ k q : Fin 128, (V1 m ρ c main_v9 : S128x128.Idx → EReal) (ix2 k q)
      = if k.val / 64 = q.val / 64 then
          (m ((c : Thread nD τ).loc main_arg4) : S64x64.Idx → EReal)
            (ix2 (⟨k.val % 64, Nat.mod_lt _ (by decide)⟩ : Fin 64) (⟨q.val % 64, Nat.mod_lt _ (by decide)⟩ : Fin 64))
        else (0 : EReal) := fun k q => by
    rw [Stretch.V1_v9]
    exact BlockDiag.blockdiag_apply _ Stretch.Z0 hZ (Stretch.idxPair 0#32) (Stretch.idxPair 64#32)
      (Halves.idxPair_apply 0#32) (Halves.idxPair_apply 64#32) k q
  -- the first call's output array is the packed product; recast back it is read at (n / 2, 64 (n mod 2) + j)
  have hY : W2 m ρ c (Proc.devRef .tc main_v10) = (dat0 (V1 m ρ) c).arrAt 2 cfg0.N := W2_arr m ρ c 2
  rw [Stretch.V3_v11, hY]
  funext i
  obtain ⟨n, j, rfl⟩ : ∃ (n : Fin 100000) (j : Fin 64), i = ix2 n j := ⟨i 0, i 1, eq_ix2 i⟩
  rw [TransformEq.unpack_apply, Transform.region0_array (V1 m ρ) c]
  exact TransformEq.transform_eq _ _ _ hX _ hW n j

end Cert.KernelIdeal.Stage

end
-- ==== Proof.DegreeInv.lean ====
import proofs.«410265_j83872121356775_3_alg».proof.KernelIdeal
import proofs.«410265_j83872121356775_3_alg».proof.ReferenceIdeal
import proofs.«410265_j83872121356775_3_alg».proof.Proof.Gen.KernelIdeal
import proofs.«410265_j83872121356775_3_alg».proof.Proof.Gen.ReferenceIdeal
import proofs.«410265_j83872121356775_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.DegreeInv

open Idealize.ShloMosaic Idealize.ShloMosaic.ValueIdx
open Cert.KernelIdeal Cert.KernelIdeal.Facts₀

/-- A node's degree as both programs compute it: the number of edges whose destination index names the node (an index
    outside the nodes names none), plus one for the self-loop. -/
def degOf (idx : IVec S1200000x1 32) : S100000.Idx → EReal :=
  addf (F := Ideal) (φ := .f32)
    (Host.scatterAdd (F := Ideal) (φ := .f32) Cert.ReferenceIdeal.scatter_S100000_S1200000x1_S1200000_n_0_0_1
      (broadcastInDim S100000 ![] Cert.ReferenceIdeal.Facts₀.bcast_S_S100000 (constant (F := Ideal) S_ .f32 0x00000000#32)) idx
      (broadcastInDim S1200000 ![] Cert.ReferenceIdeal.Facts₀.bcast_S_S1200000 (constant (F := Ideal) S_ .f32 0x3F800000#32)))
    (broadcastInDim S100000 ![] Cert.ReferenceIdeal.Facts₀.bcast_S_S100000 (constant (F := Ideal) S_ .f32 0x3F800000#32))

/-- The word `0x3F800000` is the number one. -/
theorem one_word : Ideal.ofBits .f32 0x3F800000#32 = 1 := by
  simp [Ideal.ofBits, Ideal.ieee, -EReal.coe_mul]; norm_num

/-- Zero, plus a one for each member of a finite set, plus one: a real number at least one. -/
theorem count_succ_real {ι : Type*} (s : Finset ι) :
    ∃ r : ℝ, 1 ≤ r ∧ ((0 : EReal) + ∑ _j ∈ s, (1 : EReal)) + 1 = (r : EReal) :=
  ⟨(s.card : ℝ) + 1, by have h : (0 : ℝ) ≤ s.card := Nat.cast_nonneg _; linarith, by
    rw [zero_add, Finset.sum_const, ← EReal.coe_one, ← EReal.coe_nsmul, ← EReal.coe_add, nsmul_eq_mul, mul_one]⟩

/-- A scatter of ones into zeros, plus one, whatever the indices: at every element a real number at least one. -/
theorem scatter_ones_real {s si su : Shape} (d : ScatterDims s si su) {w : Nat} (idx : IVec si w)
    (x one : FVec Ideal s .f32) (upd : FVec Ideal su .f32) (hx : ∀ i, x i = 0) (hu : ∀ j, upd j = 1) (ho : ∀ i, one i = 1)
    (i : s.Idx) :
    ∃ r : ℝ, 1 ≤ r ∧ addf (F := Ideal) (φ := .f32) (Host.scatterAdd (F := Ideal) (φ := .f32) d x idx upd) one i = (r : EReal) := by
  show ∃ r : ℝ, 1 ≤ r ∧ (x i + ∑ j ∈ Finset.univ.filter (fun j => d.resultIdx? j idx = some i), upd j) + one i = (r : EReal)
  rw [hx, ho, Finset.sum_congr rfl (fun j _ => hu j)]
  exact count_succ_real _

/-- The degree is a real number, at least one: a sum of ones over some of the edges, plus one. -/
theorem degOf_real (idx : IVec S1200000x1 32) (i : S100000.Idx) : ∃ r : ℝ, 1 ≤ r ∧ degOf idx i = (r : EReal) :=
  scatter_ones_real Cert.ReferenceIdeal.scatter_S100000_S1200000x1_S1200000_n_0_0_1 idx _ _ _
    (fun _ => Ideal.ofBits_zero_f32) (fun _ => one_word) (fun _ => one_word) i

/-- On a real number at least one, the inverse square root squared is one over the number. -/
theorem rsqrt_sq_real (r : ℝ) (hr : 1 ≤ r) :
    Ideal.rsqrt (r : EReal) * Ideal.rsqrt (r : EReal) = Ideal.div 1 (r : EReal) := by
  have hpos : 0 < r := by linarith
  have hne : r ≠ 0 := ne_of_gt hpos
  rw [Ideal.div_coe hne, one_mul, Ideal.rsqrt_coe, if_neg (not_lt.mpr hpos.le), if_neg hne, ← EReal.coe_mul]
  congr 1
  rw [← mul_inv, Real.mul_self_sqrt hpos.le, one_div]

/-- Elementwise: where every element of `d` is a real number at least one, squaring its inverse square root is
    dividing one by it. -/
theorem rsqrt_sq_eq_div {s : Shape} (d one : FVec Ideal s .f32) (ho : ∀ i, one i = 1)
    (hd : ∀ i, ∃ r : ℝ, 1 ≤ r ∧ d i = (r : EReal)) :
    mulf (F := Ideal) (φ := .f32) (Host.rsqrt (F := Ideal) (φ := .f32) d) (Host.rsqrt (F := Ideal) (φ := .f32) d)
      = Host.divf (F := Ideal) (φ := .f32) one d := by
  funext i
  obtain ⟨r, hr, e⟩ := hd i
  show Ideal.rsqrt (d i) * Ideal.rsqrt (d i) = Ideal.div (one i) (d i)
  rw [e, ho]
  exact rsqrt_sq_real r hr

/-- The inverse degree both ways: the kernel squares the inverse square root, the reference divides one by the degree.
    On a real number at least one these agree. -/
theorem inv_deg_eq (idx : IVec S1200000x1 32) :
    mulf (F := Ideal) (φ := .f32) (Host.rsqrt (F := Ideal) (φ := .f32) (degOf idx)) (Host.rsqrt (F := Ideal) (φ := .f32) (degOf idx))
      = Host.divf (F := Ideal) (φ := .f32) (broadcastInDim S100000 ![] Cert.ReferenceIdeal.Facts₀.bcast_S_S100000 (constant (F := Ideal) S_ .f32 0x3F800000#32)) (degOf idx) :=
  rsqrt_sq_eq_div (degOf idx) _ (fun _ => one_word) (degOf_real idx)

end Cert.KernelIdeal.DegreeInv

end
-- ==== Proof.StageAgg.lean ====
import proofs.«410265_j83872121356775_3_alg».proof.Proof.Stretches
import proofs.«410265_j83872121356775_3_alg».proof.Proof.ArgsKept
import proofs.«410265_j83872121356775_3_alg».proof.Proof.Gen.ReferenceIdeal.Read
import proofs.«410265_j83872121356775_3_alg».proof.Proof.DegreeInv
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- With the same node features, the kernel's neighbour aggregate is the reference's: the same gathers and the same
    scatter-add, the kernel's change of float format around its gather being the identity on extended reals. -/
theorem stage_agg (c : Dev nD) (hH : V3 m ρ c main_v11 = Cert.ReferenceIdeal.Read.val_main_v0 (F := Ideal) (m ((c : Thread nD τ).loc main_arg0)) (m ((c : Thread nD τ).loc main_arg4))) :
    V3 m ρ c main_v52 = Cert.ReferenceIdeal.Read.val_main_v39 (F := Ideal) (m ((c : Thread nD τ).loc main_arg0)) (m ((c : Thread nD τ).loc main_arg1)) (m ((c : Thread nD τ).loc main_arg4)) := by
  rw [Stretch.V3_v52, ← Stretch.V3_v11, hH, Kept.W2_main_arg1]
  rfl

/-- The kernel's inverse degree, the squared inverse square root kept as a column, is the reference's `1 / deg`. -/
theorem stage_invdeg (c : Dev nD) :
    V3 m ρ c main_v53 = shapeCast S100000x1 (Cert.ReferenceIdeal.Read.val_main_v41 (F := Ideal) (m ((c : Thread nD τ).loc main_arg1))) Facts₀.shapeCasts_S100000_S100000x1 := by
  rw [Stretch.V3_v53, Kept.W2_main_arg1]
  exact congrArg (fun v => shapeCast S100000x1 v Facts₀.shapeCasts_S100000_S100000x1)
    (DegreeInv.inv_deg_eq (Stretch.col (Stretch.dst (m ((c : Thread nD τ).loc main_arg1)))))

/-- The graph ids as a column, and the bias as a row, are the launch arrays recast. -/
theorem stage_ids (c : Dev nD) :
    V3 m ρ c main_v54 = shapeCast S100000x1 (m ((c : Thread nD τ).loc main_arg2)) Facts₀.shapeCasts_S100000_S100000x1 := by
  rw [Stretch.V3_v54, Kept.W2_main_arg2]
theorem stage_bias (c : Dev nD) :
    V3 m ρ c main_v55 = shapeCast S1x64 (m ((c : Thread nD τ).loc main_arg5)) Facts₀.shapeCasts_S64_S1x64 := by
  rw [Stretch.V3_v55, Kept.W2_main_arg5]

end Cert.KernelIdeal.Stage

end
-- ==== Proof.PoolEq.lean ====
import proofs.«410265_j83872121356775_3_alg».proof.KernelIdeal
import proofs.«410265_j83872121356775_3_alg».proof.ReferenceIdeal
import proofs.«410265_j83872121356775_3_alg».proof.Proof.Gen.KernelIdeal
import proofs.«410265_j83872121356775_3_alg».proof.Proof.Gen.ReferenceIdeal
import proofs.«410265_j83872121356775_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PoolEq

open Idealize.ShloMosaic Idealize.ShloMosaic.ValueIdx
open Cert.KernelIdeal Cert.KernelIdeal.Facts₀

local notation "dd" => Cert.ReferenceIdeal.scatter_S128x64_S100000x1_S100000x64_1_0_0_1

/-- The scatter-indices index an update element reads its start from: its own row, the index vector's one slot. -/
theorem siIdx0 (u : S100000x64.Idx) (h : 0 < (ScatterDims.scatterDimsToOperandDims dd).length) :
    ScatterDims.siIdx dd u ⟨0, h⟩ = ix2 (u 0) (0 : Fin 1) := by
  funext b
  match b with
  | ⟨0, _⟩ => rfl
  | ⟨1, _⟩ => rfl

/-- On the row axis the window starts at the row's id, read signed. -/
theorem start0 (u : S100000x64.Idx) (idx : IVec S100000x1 32) :
    ScatterDims.start dd u idx (0 : Fin 2) = (idx (ix2 (u 0) (0 : Fin 1))).toInt := by
  have h : ScatterDims.start dd u idx (0 : Fin 2) = (idx (ScatterDims.siIdx dd u ⟨0, by decide⟩)).toInt := rfl
  rw [h, siIdx0]
  rfl

/-- On the feature axis the window starts at zero: the ids name rows only. -/
theorem start1 (u : S100000x64.Idx) (idx : IVec S100000x1 32) :
    ScatterDims.start dd u idx (1 : Fin 2) = 0 := rfl

/-- The row axis is inserted: the window has no extent along it. -/
theorem window0 (u : S100000x64.Idx) : ScatterDims.window dd u (0 : Fin 2) = 0 := rfl

/-- Along the feature axis the window coordinate is the update element's own feature. -/
theorem window1 (u : S100000x64.Idx) : ScatterDims.window dd u (1 : Fin 2) = (u 1).val := rfl

/-- A 32-bit word read signed is the graph number `g < 128` exactly when it is the word of `g`. -/
theorem toInt_eq_iff (w : BitVec 32) (g : Fin 128) : w.toInt = (g.val : Int) ↔ w = BitVec.ofNat 32 g.val := by
  have hg := g.isLt
  constructor
  · intro h
    apply BitVec.eq_of_toNat_eq
    rw [BitVec.toNat_ofNat]
    rw [BitVec.toInt_eq_toNat_cond] at h
    have := w.isLt
    split at h <;> omega
  · intro h
    subst h
    rw [BitVec.toInt_eq_toNat_cond, BitVec.toNat_ofNat]
    have : g.val % 2 ^ 32 = g.val := Nat.mod_eq_of_lt (by omega)
    rw [this]
    split <;> omega

/-- Where an update element lands: on graph `g`, feature `j`, exactly when its row's id read signed is `g` and its
    own feature is `j`. -/
theorem resultIdx_eq_some_iff (u : S100000x64.Idx) (idx : IVec S100000x1 32) (g : Fin 128) (j : Fin 64) :
    ScatterDims.resultIdx? dd u idx = some (ix2 g j) ↔ (idx (ix2 (u 0) (0 : Fin 1))).toInt = (g.val : Int) ∧ u 1 = j := by
  have hs0 := start0 u idx
  have hs1 := start1 u idx
  have hw0 := window0 u
  have hw1 := window1 u
  have hg := g.isLt
  have hj := j.isLt
  have hu1 : (u 1).val < 64 := (u 1).isLt
  constructor
  · intro he
    unfold ScatterDims.resultIdx? at he
    split at he
    · rename_i h
      have he' := Option.some.inj he
      have h0 : (ScatterDims.start dd u idx 0 + ScatterDims.window dd u 0).toNat = g.val := congrArg Fin.val (congrFun he' 0)
      have h1 : (ScatterDims.start dd u idx 1 + ScatterDims.window dd u 1).toNat = j.val := congrArg Fin.val (congrFun he' 1)
      have hh := (h 0).1
      rw [hs0, hw0] at h0 hh
      rw [hs1, hw1] at h1
      exact ⟨by omega, Fin.ext (by omega)⟩
    · exact absurd he (by simp)
  · rintro ⟨h0, h1⟩
    have h : ∀ a : Fin 2, 0 ≤ ScatterDims.start dd u idx a + ScatterDims.window dd u a ∧
        ScatterDims.start dd u idx a + ScatterDims.window dd u a < S128x64.size a := by
      intro a
      match a with
      | ⟨0, _⟩ =>
        show 0 ≤ ScatterDims.start dd u idx 0 + ScatterDims.window dd u 0 ∧
          ScatterDims.start dd u idx 0 + ScatterDims.window dd u 0 < (128 : Nat)
        rw [hs0, hw0, h0]; omega
      | ⟨1, _⟩ =>
        show 0 ≤ ScatterDims.start dd u idx 1 + ScatterDims.window dd u 1 ∧
          ScatterDims.start dd u idx 1 + ScatterDims.window dd u 1 < (64 : Nat)
        rw [hs1, hw1]; omega
    unfold ScatterDims.resultIdx?
    rw [dif_pos h]
    refine congrArg some (funext fun a => ?_)
    match a with
    | ⟨0, _⟩ =>
      refine Fin.ext ?_
      show (ScatterDims.start dd u idx 0 + ScatterDims.window dd u 0).toNat = g.val
      rw [hs0, hw0, h0]; omega
    | ⟨1, _⟩ =>
      refine Fin.ext ?_
      show (ScatterDims.start dd u idx 1 + ScatterDims.window dd u 1).toNat = j.val
      rw [hs1, hw1, ← h1]; omega

/-- The nodes, cut into two cores of ten tiles of 5000 rows: core, tile and row against the node number. -/
def nodeEquiv : (Fin 2 × Fin 10 × Fin 5000) ≃ Fin 100000 where
  toFun p := Cert.Spec.node p.1 p.2.1 p.2.2
  invFun n := (⟨n.val / 50000, by have := n.isLt; omega⟩, ⟨n.val / 5000 % 10, by omega⟩, ⟨n.val % 5000, by omega⟩)
  left_inv p := by
    obtain ⟨co, s, r⟩ := p
    have hc := co.isLt
    have hs := s.isLt
    have hr := r.isLt
    refine Prod.ext (Fin.ext ?_) (Prod.ext (Fin.ext ?_) (Fin.ext ?_))
    · show (5000 * (10 * co.val + s.val) + r.val) / 50000 = co.val
      omega
    · show (5000 * (10 * co.val + s.val) + r.val) / 5000 % 10 = s.val
      omega
    · show (5000 * (10 * co.val + s.val) + r.val) % 5000 = r.val
      omega
  right_inv n := by
    have hn := n.isLt
    refine Fin.ext ?_
    show 5000 * (10 * (n.val / 50000) + n.val / 5000 % 10) + n.val % 5000 = n.val
    omega

/-- A sum over all nodes, taken core by core, tile by tile, row by row. -/
theorem sum_nodes {M : Type*} [AddCommMonoid M] (F : Fin 100000 → M) :
    ∑ n, F n = ∑ co : Fin 2, ∑ s : Fin 10, ∑ r : Fin 5000, F (Cert.Spec.node co s r) := by
  rw [← Equiv.sum_comp nodeEquiv F, Fintype.sum_prod_type]
  refine Finset.sum_congr rfl fun co _ => ?_
  rw [Fintype.sum_prod_type]
  rfl

/-- The segment sum's ids, a column broadcast from the id vector, read at a row. -/
theorem bcast_ids_apply (bt : S100000.Idx → BitVec 32) (n : Fin 100000) :
    broadcastInDim S100000x1 ![0] Cert.ReferenceIdeal.Facts₀.bcast_S100000_S100000x1_0 bt (ix2 n (0 : Fin 1)) = bt (ix1 n) := by
  refine broadcastInDim_apply _ _ bt _ (ix1 n) (fun a => ?_)
  match a with
  | ⟨0, _⟩ => rfl

/-- The two cores' pooled sums together are the reference's segment sum: every node belongs to exactly one tile of one
    core, and a node adds its row to graph `g` exactly when its id is `g` (an id outside 0 … 127, negative ones
    included, adds nowhere on either side). -/
theorem pool_eq (A H : S100000x64.Idx → EReal) (D : S100000x1.Idx → EReal) (B : S100000x1.Idx → BitVec 32) (b : S1x64.Idx → EReal)
    (hr : S100000x64.Idx → EReal) (hhr : ∀ (n : Fin 100000) (j : Fin 64), hr (ix2 n j) = Cert.Spec.act A H D b n j)
    (bt : S100000.Idx → BitVec 32) (hB : ∀ n : Fin 100000, B (ix2 n (0 : Fin 1)) = bt (ix1 n))
    (Z : S128x64.Idx → EReal) (hZ : ∀ i, Z i = 0) (g : Fin 128) (j : Fin 64) :
    Cert.Spec.coreSum A H D B b 0 g j + Cert.Spec.coreSum A H D B b 1 g j
      = Host.scatterAdd (F := Ideal) (φ := .f32) Cert.ReferenceIdeal.scatter_S128x64_S100000x1_S100000x64_1_0_0_1 Z
          (broadcastInDim S100000x1 ![0] Cert.ReferenceIdeal.Facts₀.bcast_S100000_S100000x1_0 bt) hr (ix2 g j) := by
  classical
  generalize hidx : broadcastInDim S100000x1 ![0] Cert.ReferenceIdeal.Facts₀.bcast_S100000_S100000x1_0 bt = idx
  have hid : ∀ n : Fin 100000, idx (ix2 n (0 : Fin 1)) = bt (ix1 n) := fun n => by rw [← hidx]; exact bcast_ids_apply bt n
  -- the cores' sums, as one sum over the nodes
  have hL : Cert.Spec.coreSum A H D B b 0 g j + Cert.Spec.coreSum A H D B b 1 g j
      = ∑ a : Fin 100000, Cert.Spec.hit B a g * Cert.Spec.act A H D b a j := by
    rw [sum_nodes, Fin.sum_univ_two]
    rfl
  rw [hL]
  show _ = Ideal.hostScatterAdd dd Z idx hr (ix2 g j)
  unfold Ideal.hostScatterAdd
  rw [hZ, zero_add, Finset.filter_congr (fun u _ => resultIdx_eq_some_iff u idx g j), Finset.sum_filter, sum_idx2]
  refine Finset.sum_congr rfl (fun a _ => ?_)
  -- of row `a`'s update elements only feature `j`'s can land on `(g, j)`
  rw [Finset.sum_eq_single j]
  · unfold Cert.Spec.hit
    rw [hB a]
    by_cases hc : bt (ix1 a) = BitVec.ofNat 32 g.val
    · rw [if_pos hc, one_mul, if_pos ⟨(toInt_eq_iff _ g).2 ((hid a).trans hc), rfl⟩, hhr]
    · rw [if_neg hc, zero_mul, if_neg (fun h => hc ((hid a).symm.trans ((toInt_eq_iff _ g).1 h.1)))]
  · intro c _ hcj
    rw [if_neg (fun h => hcj h.2)]
  · intro h
    exact absurd (Finset.mem_univ j) h

end Cert.KernelIdeal.PoolEq

end
-- ==== Proof.LibKeepdims.lean ====
/-
  Two reads of a "keep the reduced axis" pair, as a sum or a maximum over an array's rows is used afterwards: the vector
  of per-row results `[a]` is cast to a column `[a, 1]`, and the column is broadcast along the rows to `[a, b]`.
  Read at `(i, j)` the result is the vector's entry `i`, whatever the column `j`.
-/
import Idealize.ShloMosaic.Lib.Pipeline.Value
import Idealize.ShloMosaic.Lib.ValueIdx

noncomputable section

namespace Cert.Lib

open Idealize.ShloMosaic Idealize.ShloMosaic.ValueIdx

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair together: a vector of per-row results kept as a column and broadcast along the rows reads, at `(i, j)`,
    the vector at `i`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.Lib

end
-- ==== Proof.RefAct.lean ====
import proofs.«410265_j83872121356775_3_alg».proof.Proof.Gen.ReferenceIdeal.Read
import proofs.«410265_j83872121356775_3_alg».proof.Proof.Gen.KernelIdeal
import proofs.«410265_j83872121356775_3_alg».proof.Proof.Spec
import proofs.«410265_j83872121356775_3_alg».proof.Proof.LibKeepdims
import Idealize.ShloMosaic.PureOps.Ideal
import Idealize.ShloMosaic.Lib.ValueIdx
import Idealize.ShloMosaic.Lib.ValueLayout
import Idealize.ShloMosaic.Lib.Pipeline.Value

noncomputable section

namespace Cert.ReferenceIdeal.RefAct

open Idealize.ShloMosaic Idealize.ShloMosaic.ValueIdx
open Cert.ReferenceIdeal Cert.ReferenceIdeal.Read

/-- The reference's relu'd node features, read at node `n`, feature `j`: the aggregate plus the node's own features
    times its inverse degree, plus the bias, cut off below at zero — with the inverse degree kept as a column and the bias
    as a row, the way the kernel's second call is handed them. -/
theorem act_stage (x0 : S100000x64.Idx → EReal) (x1 : S2x1200000.Idx → BitVec 32) (x4 : S64x64.Idx → EReal) (x5 : S64.Idx → EReal)
    (n : Fin 100000) (j : Fin 64) :
    val_main_v49 (F := Ideal) x0 x1 x4 x5 (ix2 n j)
      = Cert.Spec.act (val_main_v39 (F := Ideal) x0 x1 x4) (val_main_v0 (F := Ideal) x0 x4)
          (shapeCast Cert.KernelIdeal.S100000x1 (val_main_v41 (F := Ideal) x1) Cert.KernelIdeal.Facts₀.shapeCasts_S100000_S100000x1)
          (shapeCast Cert.KernelIdeal.S1x64 x5 Cert.KernelIdeal.Facts₀.shapeCasts_S64_S1x64) n j := by
  -- the composed index maps of the two broadcast chains, at (n, j)
  have iD : idx_main_v42 (idx_main_v43 (ix2 n j)) = ix1 n := funext fun a => Fin.ext (by match a with | ⟨0, _⟩ => rfl)
  have ib : idx_main_v46 (idx_main_v47 (ix2 n j)) = ix1 j := funext fun a => Fin.ext (by match a with | ⟨0, _⟩ => rfl)
  -- the column and the row on the right, read at their index
  have eD : shapeCast Cert.KernelIdeal.S100000x1 (val_main_v41 (F := Ideal) x1) Cert.KernelIdeal.Facts₀.shapeCasts_S100000_S100000x1 (ix2 n (0 : Fin 1))
      = val_main_v41 (F := Ideal) x1 (ix1 n) := Cert.Lib.shapeCast_a_a1_apply _ _ n 0
  have eb : shapeCast Cert.KernelIdeal.S1x64 x5 Cert.KernelIdeal.Facts₀.shapeCasts_S64_S1x64 (ix2 (0 : Fin 1) j) = x5 (ix1 j) :=
    shapeCast_a_1a_apply x5 _ 0 j
  have ez : Ideal.ofBits .f32 0x00000000#32 = 0 := by simp [Ideal.ofBits, Ideal.ieee]
  unfold Cert.Spec.act
  rw [val_main_v49_apply, val_main_v48_apply, val_main_v45_apply, val_main_v44_apply, val_main_v47_apply, val_main_v46_apply,
    val_main_v43_apply, val_main_v42_apply, val_main_call0_v0_apply, val_main_call0_cst_apply, iD, ib, eD, eb]
  simp only [Ideal.maximumf_def, Ideal.addf_def, Ideal.mulf_def, Ideal.ofBits_def, ez]

end Cert.ReferenceIdeal.RefAct

end
-- ==== Proof.StagePool.lean ====
import proofs.«410265_j83872121356775_3_alg».proof.Proof.Stretches
import proofs.«410265_j83872121356775_3_alg».proof.Proof.ArgsKept
import proofs.«410265_j83872121356775_3_alg».proof.Proof.Gen.ReferenceIdeal.Read
import proofs.«410265_j83872121356775_3_alg».proof.Proof.PoolEq
import proofs.«410265_j83872121356775_3_alg».proof.Proof.RefAct
import proofs.«410265_j83872121356775_3_alg».proof.Proof.Halves
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The segment sum's starting array is zero everywhere. -/
theorem ref_zero_apply (i : S128x64.Idx) : Cert.ReferenceIdeal.Read.val_main_v54 (F := Ideal) i = 0 := by
  rw [Cert.ReferenceIdeal.Read.val_main_v54_apply, Cert.ReferenceIdeal.Read.val_main_cst_11_apply, Ideal.ofBits_def, Ideal.ofBits_zero_f32]

/-- The pooled array of the two cores, its slabs added, against the reference's segment sum, over plain arrays: `Y` holds
    each core's pooled sums of the relu'd features built from `A`, `H`, `D`, `b` with ids `B`, and those five are the
    reference's aggregate, transformed features, inverse degrees (as a column), ids (as a column) and bias (as a row). -/
theorem pool_core (Y : S2x128x64.Idx → EReal) (A H : S100000x64.Idx → EReal) (D : S100000x1.Idx → EReal)
    (B : S100000x1.Idx → BitVec 32) (b : S1x64.Idx → EReal)
    (x0 : S100000x64.Idx → EReal) (x1 : S2x1200000.Idx → BitVec 32) (x2 : S100000.Idx → BitVec 32) (x4 : S64x64.Idx → EReal)
    (x5 : S64.Idx → EReal)
    (hR : ∀ (co : Fin 2) (g : Fin 128) (j : Fin 64), Y (ix3 co g j) = Cert.Spec.coreSum A H D B b co g j)
    (hH : H = Cert.ReferenceIdeal.Read.val_main_v0 (F := Ideal) x0 x4)
    (hA : A = Cert.ReferenceIdeal.Read.val_main_v39 (F := Ideal) x0 x1 x4)
    (hD : D = shapeCast S100000x1 (Cert.ReferenceIdeal.Read.val_main_v41 (F := Ideal) x1) Facts₀.shapeCasts_S100000_S100000x1)
    (hI : B = shapeCast S100000x1 x2 Facts₀.shapeCasts_S100000_S100000x1)
    (hB : b = shapeCast S1x64 x5 Facts₀.shapeCasts_S64_S1x64) :
    addf (F := Ideal) (φ := .f32)
        (shapeCast S128x64 (extractStridedSlice S1x128x64 ![0, 0, 0] Y Facts₀.slices_S2x128x64_S1x128x64_0_0_0) Facts₀.shapeCasts_S1x128x64_S128x64)
        (shapeCast S128x64 (extractStridedSlice S1x128x64 ![1, 0, 0] Y Facts₀.slices_S2x128x64_S1x128x64_1_0_0) Facts₀.shapeCasts_S1x128x64_S128x64)
      = Cert.ReferenceIdeal.Read.val_main_v56 (F := Ideal) x0 x1 x2 x4 x5 := by
  subst hH hA hD hI hB
  funext i
  obtain ⟨g, j, rfl⟩ : ∃ (g : Fin 128) (j : Fin 64), i = ix2 g j := ⟨i 0, i 1, eq_ix2 i⟩
  rw [Halves.halves_apply, hR 0 g j, hR 1 g j]
  refine (PoolEq.pool_eq _ _ _ _ _ (Cert.ReferenceIdeal.Read.val_main_v49 (F := Ideal) x0 x1 x4 x5)
    (fun n j => Cert.ReferenceIdeal.RefAct.act_stage x0 x1 x4 x5 n j) x2
    (fun n => Cert.Lib.shapeCast_a_a1_apply x2 Facts₀.shapeCasts_S100000_S100000x1 n 0)
    (Cert.ReferenceIdeal.Read.val_main_v54 (F := Ideal)) ref_zero_apply g j).trans ?_
  rfl

/-- The two cores' pooled sums, added, are the reference's segment sum of the relu'd node features. -/
theorem stage_pool (c : Dev nD)
    (hR : ∀ (co : Fin 2) (g : Fin 128) (j : Fin 64), (dat1 (F := Ideal) (V3 m ρ) c).arrAt 5 cfg1.N (ix3 co g j)
      = Cert.Spec.coreSum (V3 m ρ c main_v52) (V3 m ρ c main_v11) (V3 m ρ c main_v53) (V3 m ρ c main_v54) (V3 m ρ c main_v55) co g j)
    (hH : V3 m ρ c main_v11 = Cert.ReferenceIdeal.Read.val_main_v0 (F := Ideal) (m ((c : Thread nD τ).loc main_arg0)) (m ((c : Thread nD τ).loc main_arg4))) (hA : V3 m ρ c main_v52 = Cert.ReferenceIdeal.Read.val_main_v39 (F := Ideal) (m ((c : Thread nD τ).loc main_arg0)) (m ((c : Thread nD τ).loc main_arg1)) (m ((c : Thread nD τ).loc main_arg4)))
    (hD : V3 m ρ c main_v53 = shapeCast S100000x1 (Cert.ReferenceIdeal.Read.val_main_v41 (F := Ideal) (m ((c : Thread nD τ).loc main_arg1))) Facts₀.shapeCasts_S100000_S100000x1)
    (hI : V3 m ρ c main_v54 = shapeCast S100000x1 (m ((c : Thread nD τ).loc main_arg2)) Facts₀.shapeCasts_S100000_S100000x1)
    (hB : V3 m ρ c main_v55 = shapeCast S1x64 (m ((c : Thread nD τ).loc main_arg5)) Facts₀.shapeCasts_S64_S1x64) :
    V5 m ρ c main_v61 = Cert.ReferenceIdeal.Read.val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  rw [Stretch.V5_v61]
  have hY : W4 m ρ c (Proc.devRef .tc main_v56) = (dat1 (F := Ideal) (V3 m ρ) c).arrAt 5 cfg1.N := W4_arr m ρ c 5
  rw [hY]
  exact pool_core _ _ _ _ _ _ _ _ _ _ _ hR hH hA hD hI hB

/-- The per-graph node counts, kept as a column, are the reference's. -/
theorem stage_counts (c : Dev nD) :
    V5 m ρ c main_v66 = shapeCast S128x1 (Cert.ReferenceIdeal.Read.val_main_v53 (F := Ideal) (m ((c : Thread nD τ).loc main_arg2))) Facts₀.shapeCasts_S128_S128x1 := by
  rw [Stretch.V5_v66, Kept.W4_main_arg2]
  rfl

/-- The three biases as rows, and the four arguments the third call reads directly. -/
theorem stage_mu_b (c : Dev nD) : V5 m ρ c main_v67 = shapeCast S1x8 (m ((c : Thread nD τ).loc main_arg7)) Facts₀.shapeCasts_S8_S1x8 := by
  rw [Stretch.V5_v67, Kept.W4_main_arg7]
theorem stage_lv_b (c : Dev nD) : V5 m ρ c main_v68 = shapeCast S1x8 (m ((c : Thread nD τ).loc main_arg9)) Facts₀.shapeCasts_S8_S1x8 := by
  rw [Stretch.V5_v68, Kept.W4_main_arg9]
theorem stage_dec_b (c : Dev nD) : V5 m ρ c main_v69 = shapeCast S1x100 (m ((c : Thread nD τ).loc main_arg11)) Facts₀.shapeCasts_S100_S1x100 := by
  rw [Stretch.V5_v69, Kept.W4_main_arg11]
theorem stage_eps (c : Dev nD) : V5 m ρ c main_arg3 = (m ((c : Thread nD τ).loc main_arg3)) :=
  (Stretch.V5_arg3 m ρ c).trans (Kept.W4_main_arg3 m ρ c)
theorem stage_mu_w (c : Dev nD) : V5 m ρ c main_arg6 = (m ((c : Thread nD τ).loc main_arg6)) :=
  (Stretch.V5_arg6 m ρ c).trans (Kept.W4_main_arg6 m ρ c)
theorem stage_lv_w (c : Dev nD) : V5 m ρ c main_arg8 = (m ((c : Thread nD τ).loc main_arg8)) :=
  (Stretch.V5_arg8 m ρ c).trans (Kept.W4_main_arg8 m ρ c)
theorem stage_dec_w (c : Dev nD) : V5 m ρ c main_arg10 = (m ((c : Thread nD τ).loc main_arg10)) :=
  (Stretch.V5_arg10 m ρ c).trans (Kept.W4_main_arg10 m ρ c)

end Cert.KernelIdeal.Stage

end
-- ==== Proof.HeadArray.lean ====
import proofs.«410265_j83872121356775_3_alg».proof.Proof.Gen.KernelIdeal.Frame
import proofs.«410265_j83872121356775_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Head

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The index maps: block (0, 0) for every window at every grid point -/
theorem idx_0 : ∀ (t : Fin cfg2.N) (a : Fin 2), win2_0.index t a = 0 :=
  (by decide +kernel : ∀ (t : Fin grid2.N) (a : Fin 2), win2_0.index t a = 0)
theorem idx_1 : ∀ (t : Fin cfg2.N) (a : Fin 2), win2_1.index t a = 0 :=
  (by decide +kernel : ∀ (t : Fin grid2.N) (a : Fin 2), win2_1.index t a = 0)
theorem idx_2 : ∀ (t : Fin cfg2.N) (a : Fin 2), win2_2.index t a = 0 :=
  (by decide +kernel : ∀ (t : Fin grid2.N) (a : Fin 2), win2_2.index t a = 0)
theorem idx_3 : ∀ (t : Fin cfg2.N) (a : Fin 2), win2_3.index t a = 0 :=
  (by decide +kernel : ∀ (t : Fin grid2.N) (a : Fin 2), win2_3.index t a = 0)
theorem idx_4 : ∀ (t : Fin cfg2.N) (a : Fin 2), win2_4.index t a = 0 :=
  (by decide +kernel : ∀ (t : Fin grid2.N) (a : Fin 2), win2_4.index t a = 0)
theorem idx_5 : ∀ (t : Fin cfg2.N) (a : Fin 2), win2_5.index t a = 0 :=
  (by decide +kernel : ∀ (t : Fin grid2.N) (a : Fin 2), win2_5.index t a = 0)
theorem idx_6 : ∀ (t : Fin cfg2.N) (a : Fin 2), win2_6.index t a = 0 :=
  (by decide +kernel : ∀ (t : Fin grid2.N) (a : Fin 2), win2_6.index t a = 0)
theorem idx_7 : ∀ (t : Fin cfg2.N) (a : Fin 2), win2_7.index t a = 0 :=
  (by decide +kernel : ∀ (t : Fin grid2.N) (a : Fin 2), win2_7.index t a = 0)
theorem idx_8 : ∀ (t : Fin cfg2.N) (a : Fin 2), win2_8.index t a = 0 :=
  (by decide +kernel : ∀ (t : Fin grid2.N) (a : Fin 2), win2_8.index t a = 0)
theorem idx_9 : ∀ (t : Fin cfg2.N) (a : Fin 2), win2_9.index t a = 0 :=
  (by decide +kernel : ∀ (t : Fin grid2.N) (a : Fin 2), win2_9.index t a = 0)
theorem idx_10 : ∀ (t : Fin cfg2.N) (a : Fin 2), win2_10.index t a = 0 :=
  (by decide +kernel : ∀ (t : Fin grid2.N) (a : Fin 2), win2_10.index t a = 0)
theorem idx_11 : ∀ (t : Fin cfg2.N) (a : Fin 2), win2_11.index t a = 0 :=
  (by decide +kernel : ∀ (t : Fin grid2.N) (a : Fin 2), win2_11.index t a = 0)

/-! ## An input window's block is its whole array -/

theorem blk_0 (c : Dev nD) (t : Fin cfg2.N) :
    (iblk2 (F := Ideal) V c 0 t : Vec Ideal S128x64 .f32) = V c main_v61 := by
  have h0 : (fun a => win2_0.index t a * main_v61.ty.shape.size a) = fun _ => 0 :=
    funext fun a => by rw [idx_0 t a]; exact Nat.zero_mul _
  exact Memref.read_access_unit_zero (Elt Ideal) main_v61 h0 (fun a => by rw [congrFun h0 a]; simp) (V c main_v61)

theorem blk_1 (c : Dev nD) (t : Fin cfg2.N) :
    (iblk2 (F := Ideal) V c 1 t : Vec Ideal S128x1 .f32) = V c main_v66 := by
  have h0 : (fun a => win2_1.index t a * main_v66.ty.shape.size a) = fun _ => 0 :=
    funext fun a => by rw [idx_1 t a]; exact Nat.zero_mul _
  exact Memref.read_access_unit_zero (Elt Ideal) main_v66 h0 (fun a => by rw [congrFun h0 a]; simp) (V c main_v66)

theorem blk_2 (c : Dev nD) (t : Fin cfg2.N) :
    (iblk2 (F := Ideal) V c 2 t : Vec Ideal S128x8 .f32) = V c main_arg3 := by
  have h0 : (fun a => win2_2.index t a * main_arg3.ty.shape.size a) = fun _ => 0 :=
    funext fun a => by rw [idx_2 t a]; exact Nat.zero_mul _
  exact Memref.read_access_unit_zero (Elt Ideal) main_arg3 h0 (fun a => by rw [congrFun h0 a]; simp) (V c main_arg3)

theorem blk_3 (c : Dev nD) (t : Fin cfg2.N) :
    (iblk2 (F := Ideal) V c 3 t : Vec Ideal S64x8 .f32) = V c main_arg6 := by
  have h0 : (fun a => win2_3.index t a * main_arg6.ty.shape.size a) = fun _ => 0 :=
    funext fun a => by rw [idx_3 t a]; exact Nat.zero_mul _
  exact Memref.read_access_unit_zero (Elt Ideal) main_arg6 h0 (fun a => by rw [congrFun h0 a]; simp) (V c main_arg6)

theorem blk_4 (c : Dev nD) (t : Fin cfg2.N) :
    (iblk2 (F := Ideal) V c 4 t : Vec Ideal S1x8 .f32) = V c main_v67 := by
  have h0 : (fun a => win2_4.index t a * main_v67.ty.shape.size a) = fun _ => 0 :=
    funext fun a => by rw [idx_4 t a]; exact Nat.zero_mul _
  exact Memref.read_access_unit_zero (Elt Ideal) main_v67 h0 (fun a => by rw [congrFun h0 a]; simp) (V c main_v67)

theorem blk_5 (c : Dev nD) (t : Fin cfg2.N) :
    (iblk2 (F := Ideal) V c 5 t : Vec Ideal S64x8 .f32) = V c main_arg8 := by
  have h0 : (fun a => win2_5.index t a * main_arg8.ty.shape.size a) = fun _ => 0 :=
    funext fun a => by rw [idx_5 t a]; exact Nat.zero_mul _
  exact Memref.read_access_unit_zero (Elt Ideal) main_arg8 h0 (fun a => by rw [congrFun h0 a]; simp) (V c main_arg8)

theorem blk_6 (c : Dev nD) (t : Fin cfg2.N) :
    (iblk2 (F := Ideal) V c 6 t : Vec Ideal S1x8 .f32) = V c main_v68 := by
  have h0 : (fun a => win2_6.index t a * main_v68.ty.shape.size a) = fun _ => 0 :=
    funext fun a => by rw [idx_6 t a]; exact Nat.zero_mul _
  exact Memref.read_access_unit_zero (Elt Ideal) main_v68 h0 (fun a => by rw [congrFun h0 a]; simp) (V c main_v68)

theorem blk_7 (c : Dev nD) (t : Fin cfg2.N) :
    (iblk2 (F := Ideal) V c 7 t : Vec Ideal S8x100 .f32) = V c main_arg10 := by
  have h0 : (fun a => win2_7.index t a * main_arg10.ty.shape.size a) = fun _ => 0 :=
    funext fun a => by rw [idx_7 t a]; exact Nat.zero_mul _
  exact Memref.read_access_unit_zero (Elt Ideal) main_arg10 h0 (fun a => by rw [congrFun h0 a]; simp) (V c main_arg10)

theorem blk_8 (c : Dev nD) (t : Fin cfg2.N) :
    (iblk2 (F := Ideal) V c 8 t : Vec Ideal S1x100 .f32) = V c main_v69 := by
  have h0 : (fun a => win2_8.index t a * main_v69.ty.shape.size a) = fun _ => 0 :=
    funext fun a => by rw [idx_8 t a]; exact Nat.zero_mul _
  exact Memref.read_access_unit_zero (Elt Ideal) main_v69 h0 (fun a => by rw [congrFun h0 a]; simp) (V c main_v69)

/-! ## An output window's block reads a whole-array contents back whole, and is written back uncut -/

theorem read_9 (t : Fin cfg2.N) (G : Vec Ideal S128x100 .f32) :
    ((cfg2.win 9).blk t).view.read (Elt Ideal) G = G := by
  have h0 : (fun a => win2_9.index t a * main_v70_0.ty.shape.size a) = fun _ => 0 :=
    funext fun a => by rw [idx_9 t a]; exact Nat.zero_mul _
  exact Memref.read_access_unit_zero (Elt Ideal) main_v70_0 h0 (fun a => by rw [congrFun h0 a]; simp) G

theorem cut_9 (t : Fin cfg2.N) (X : Vec Ideal S128x100 .f32) : (cfg2.win 9).cut (grid2.coords t) X = X := rfl

theorem cover_9 (i : S128x100.Idx) :
    ∃ t : Fin cfg2.N, (cfg2.win 9).flush t = true ∧ i ∈ ((cfg2.win 9).blk t).view.set :=
  ⟨t2_0, flush2_9 t2_0, by
    show i ∈ ((View.whole main_v70_0).slice (win2_9.rect t2_0)).set
    rw [View.set_slice_whole, Rect.mem_set_unit]
    intro a
    show win2_9.index t2_0 a * S128x100.size a ≤ (i a).val ∧ (i a).val < win2_9.index t2_0 a * S128x100.size a + S128x100.size a
    rw [idx_9 t2_0 a, Nat.zero_mul, Nat.zero_add]
    exact ⟨Nat.zero_le _, (i a).isLt⟩⟩

theorem read_10 (t : Fin cfg2.N) (G : Vec Ideal S128x8 .f32) :
    ((cfg2.win 10).blk t).view.read (Elt Ideal) G = G := by
  have h0 : (fun a => win2_10.index t a * main_v70_1.ty.shape.size a) = fun _ => 0 :=
    funext fun a => by rw [idx_10 t a]; exact Nat.zero_mul _
  exact Memref.read_access_unit_zero (Elt Ideal) main_v70_1 h0 (fun a => by rw [congrFun h0 a]; simp) G

theorem cut_10 (t : Fin cfg2.N) (X : Vec Ideal S128x8 .f32) : (cfg2.win 10).cut (grid2.coords t) X = X := rfl

theorem cover_10 (i : S128x8.Idx) :
    ∃ t : Fin cfg2.N, (cfg2.win 10).flush t = true ∧ i ∈ ((cfg2.win 10).blk t).view.set :=
  ⟨t2_0, flush2_10 t2_0, by
    show i ∈ ((View.whole main_v70_1).slice (win2_10.rect t2_0)).set
    rw [View.set_slice_whole, Rect.mem_set_unit]
    intro a
    show win2_10.index t2_0 a * S128x8.size a ≤ (i a).val ∧ (i a).val < win2_10.index t2_0 a * S128x8.size a + S128x8.size a
    rw [idx_10 t2_0 a, Nat.zero_mul, Nat.zero_add]
    exact ⟨Nat.zero_le _, (i a).isLt⟩⟩

theorem read_11 (t : Fin cfg2.N) (G : Vec Ideal S128x8 .f32) :
    ((cfg2.win 11).blk t).view.read (Elt Ideal) G = G := by
  have h0 : (fun a => win2_11.index t a * main_v70_2.ty.shape.size a) = fun _ => 0 :=
    funext fun a => by rw [idx_11 t a]; exact Nat.zero_mul _
  exact Memref.read_access_unit_zero (Elt Ideal) main_v70_2 h0 (fun a => by rw [congrFun h0 a]; simp) G

theorem cut_11 (t : Fin cfg2.N) (X : Vec Ideal S128x8 .f32) : (cfg2.win 11).cut (grid2.coords t) X = X := rfl

theorem cover_11 (i : S128x8.Idx) :
    ∃ t : Fin cfg2.N, (cfg2.win 11).flush t = true ∧ i ∈ ((cfg2.win 11).blk t).view.set :=
  ⟨t2_0, flush2_11 t2_0, by
    show i ∈ ((View.whole main_v70_2).slice (win2_11.rect t2_0)).set
    rw [View.set_slice_whole, Rect.mem_set_unit]
    intro a
    show win2_11.index t2_0 a * S128x8.size a ≤ (i a).val ∧ (i a).val < win2_11.index t2_0 a * S128x8.size a + S128x8.size a
    rw [idx_11 t2_0 a, Nat.zero_mul, Nat.zero_add]
    exact ⟨Nat.zero_le _, (i a).isLt⟩⟩

/-! ## The mean head -/

theorem flushed_mu (c : Dev nD) (t : Fin cfg2.N) :
    (dat2 (F := Ideal) V c).flushed 10 t = ((cfg2.win 10).blk t).view.read (Elt Ideal)
      (k2_pay3 (F := Ideal) (V c main_v61) (V c main_v66) (V c main_arg6) (V c main_v67)) := by
  show (cfg2.win 10).cut (grid2.coords t) ((dat2 (F := Ideal) V c).after 10 t) = _
  rw [after2_10]
  unfold out2_10
  rw [View.canon_unit_zero hz]
  simp only [View.ld_unit_zero (S := S128x64) hz, View.ld_unit_zero (S := S128x1) hz, View.ld_unit_zero (S := S64x8) hz, View.ld_unit_zero (S := S1x8) hz]
  refine (cut_10 t _).trans ?_
  refine Eq.trans ?_ (read_10 t _).symm
  rw [blk_0 V c t, blk_1 V c t, blk_3 V c t, blk_4 V c t]

/-! ## The log-variance head -/

theorem flushed_lv (c : Dev nD) (t : Fin cfg2.N) :
    (dat2 (F := Ideal) V c).flushed 11 t = ((cfg2.win 11).blk t).view.read (Elt Ideal)
      (k2_pay4 (F := Ideal) (V c main_v61) (V c main_v66) (V c main_arg8) (V c main_v68)) := by
  show (cfg2.win 11).cut (grid2.coords t) ((dat2 (F := Ideal) V c).after 11 t) = _
  rw [after2_11]
  unfold out2_11
  rw [View.canon_unit_zero hz]
  simp only [View.ld_unit_zero (S := S128x64) hz, View.ld_unit_zero (S := S128x1) hz, View.ld_unit_zero (S := S64x8) hz, View.ld_unit_zero (S := S1x8) hz]
  refine (cut_11 t _).trans ?_
  refine Eq.trans ?_ (read_11 t _).symm
  rw [blk_0 V c t, blk_1 V c t, blk_5 V c t, blk_6 V c t]

/-! ## The thresholded decoder output -/

theorem flushed_adj (c : Dev nD) (t : Fin cfg2.N) :
    (dat2 (F := Ideal) V c).flushed 9 t = ((cfg2.win 9).blk t).view.read (Elt Ideal)
      (k2_pay1 (F := Ideal) (k2_pay5 (F := Ideal) (V c main_v61) (V c main_v66) (V c main_arg6) (V c main_v67) (V c main_arg8) (V c main_v68) (V c main_arg3) (V c main_arg10))
        (k2_pay6 (F := Ideal) (V c main_v69))) := by
  show (cfg2.win 9).cut (grid2.coords t) ((dat2 (F := Ideal) V c).after 9 t) = _
  rw [after2_9]
  unfold out2_9
  rw [View.canon_unit_zero hz]
  simp only [View.ld_unit_zero (S := S128x64) hz, View.ld_unit_zero (S := S128x1) hz, View.ld_unit_zero (S := S64x8) hz, View.ld_unit_zero (S := S1x8) hz, View.ld_unit_zero (S := S128x8) hz, View.ld_unit_zero (S := S8x100) hz, View.ld_unit_zero (S := S1x100) hz]
  refine (cut_9 t _).trans ?_
  refine Eq.trans ?_ (read_9 t _).symm
  rw [blk_0 V c t, blk_1 V c t, blk_2 V c t, blk_3 V c t, blk_4 V c t, blk_5 V c t, blk_6 V c t, blk_7 V c t, blk_8 V c t]

/-! ## The three output arrays after the region -/

/-- The third pallas_call has one grid point and every block is its whole array, so each output array ends at the
    body's value of the input arrays. The mean head: -/
theorem region2_mu (c : Dev nD) :
    (dat2 (F := Ideal) V c).arrAt 10 cfg2.N = k2_pay3 (F := Ideal) (V c main_v61) (V c main_v66) (V c main_arg6) (V c main_v67) :=
  (dat2 (F := Ideal) V c).arrAt_eq_of_cover 10 _ (fun t _ => flushed_mu V c t) cover_10

/-- the log-variance head: -/
theorem region2_lv (c : Dev nD) :
    (dat2 (F := Ideal) V c).arrAt 11 cfg2.N = k2_pay4 (F := Ideal) (V c main_v61) (V c main_v66) (V c main_arg8) (V c main_v68) :=
  (dat2 (F := Ideal) V c).arrAt_eq_of_cover 11 _ (fun t _ => flushed_lv V c t) cover_11

/-- and the thresholded decoder output. -/
theorem region2_adj (c : Dev nD) :
    (dat2 (F := Ideal) V c).arrAt 9 cfg2.N
      = k2_pay1 (F := Ideal) (k2_pay5 (F := Ideal) (V c main_v61) (V c main_v66) (V c main_arg6) (V c main_v67) (V c main_arg8) (V c main_v68) (V c main_arg3) (V c main_arg10))
          (k2_pay6 (F := Ideal) (V c main_v69)) :=
  (dat2 (F := Ideal) V c).arrAt_eq_of_cover 9 _ (fun t _ => flushed_adj V c t) cover_9

end Cert.KernelIdeal.Head

end
-- ==== Proof.HeadEq.lean ====
import proofs.«410265_j83872121356775_3_alg».proof.KernelIdeal
import proofs.«410265_j83872121356775_3_alg».proof.ReferenceIdeal
import proofs.«410265_j83872121356775_3_alg».proof.Proof.Gen.KernelIdeal
import proofs.«410265_j83872121356775_3_alg».proof.Proof.Gen.ReferenceIdeal
import proofs.«410265_j83872121356775_3_alg».proof.Proof.Spec
import proofs.«410265_j83872121356775_3_alg».proof.Proof.Gen.KernelIdeal.Skeleton
import proofs.«410265_j83872121356775_3_alg».proof.Proof.LibKeepdims
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HeadEq

open Idealize.ShloMosaic Idealize.ShloMosaic.ValueIdx
open Cert.KernelIdeal Cert.KernelIdeal.Facts₀
open Cert.KernelIdeal.Gen

/-- The reference's pooled mean: the pooled sum `P` divided, row by row, by the count `Cn` raised to at least one. -/
def meanOf (P : S128x64.Idx → EReal) (Cn : S128.Idx → EReal) : S128x64.Idx → EReal :=
  Host.divf (F := Ideal) (φ := .f32) P
    (broadcastInDim S128x64 ![0, 1] Cert.ReferenceIdeal.Facts₀.bcast_S128x1_S128x64_0_1
      (broadcastInDim S128x1 ![0] Cert.ReferenceIdeal.Facts₀.bcast_S128_S128x1_0
        (maximumf (F := Ideal) (φ := .f32) Cn (broadcastInDim S128 ![] Cert.ReferenceIdeal.Facts₀.bcast_S_S128 (constant (F := Ideal) S_ .f32 0x3F800000#32)))))

/-- One linear head of the reference: the pooled mean times a [64, 8] weight, plus a bias along the rows. -/
def headOf (P : S128x64.Idx → EReal) (Cn : S128.Idx → EReal) (w : S64x8.Idx → EReal) (bias : S8.Idx → EReal) : S128x8.Idx → EReal :=
  addf (F := Ideal) (φ := .f32)
    (Host.dotGeneral (F := Ideal) (φ₁ := .f32) (φ₂ := .f32) Cert.ReferenceIdeal.dot_S128x64_S64x8_S128x8_1_0_0_1_n_n none (meanOf P Cn) w)
    (broadcastInDim S128x8 ![0, 1] Cert.ReferenceIdeal.Facts₀.bcast_S1x8_S128x8_0_1 (broadcastInDim S1x8 ![1] Cert.ReferenceIdeal.Facts₀.bcast_S8_S1x8_1 bias))

/-- The reference's decoder output before the cut: `z = mu + eps · exp (logvar / 2)`, times the [8, 100] weight, plus
    its bias, as a [128, 10, 10] array thresholded at zero. -/
def adjOf (P : S128x64.Idx → EReal) (Cn : S128.Idx → EReal) (eps : S128x8.Idx → EReal) (wm : S64x8.Idx → EReal) (bm : S8.Idx → EReal)
    (wl : S64x8.Idx → EReal) (bl : S8.Idx → EReal) (wd : S8x100.Idx → EReal) (bd : S100.Idx → EReal) : S128x10x10.Idx → EReal :=
  uitofp (F := Ideal) .f32
    (cmpf (F := Ideal) (φ := .f32) .ogt
      (shapeCast S128x10x10
        (addf (F := Ideal) (φ := .f32)
          (Host.dotGeneral (F := Ideal) (φ₁ := .f32) (φ₂ := .f32) Cert.ReferenceIdeal.dot_S128x8_S8x100_S128x100_1_0_0_1_n_n none
            (addf (F := Ideal) (φ := .f32) (headOf P Cn wm bm)
              (mulf (F := Ideal) (φ := .f32) eps
                (Host.exp (F := Ideal) (φ := .f32)
                  (mulf (F := Ideal) (φ := .f32) (broadcastInDim S128x8 ![] Cert.ReferenceIdeal.Facts₀.bcast_S_S128x8 (constant (F := Ideal) S_ .f32 0x3F000000#32)) (headOf P Cn wl bl)))))
            wd)
          (broadcastInDim S128x100 ![0, 1] Cert.ReferenceIdeal.Facts₀.bcast_S1x100_S128x100_0_1 (broadcastInDim S1x100 ![1] Cert.ReferenceIdeal.Facts₀.bcast_S100_S1x100_1 bd)))
        Cert.ReferenceIdeal.Facts₀.shapeCasts_S128x100_S128x10x10)
      (broadcastInDim S128x10x10 ![] Cert.ReferenceIdeal.Facts₀.bcast_S_S128x10x10 (constant (F := Ideal) S_ .f32 0x00000000#32)))

/-! ## The layout pieces read at an index -/

section Layout
variable {α : Type}

/-- A vector `[a]` spread to a column `[a, 1]` and then along the rows to `[a, b]` reads, at `(i, j)`, the vector at `i`. -/
theorem bcastInDim_col_apply {a b : ℕ} (x : (⟨1, ![a]⟩ : Shape).Idx → α)
    (h₁ : (⟨1, ![a]⟩ : Shape).BroadcastsInDim ⟨2, ![a, 1]⟩ ![0])
    (h₂ : (⟨2, ![a, 1]⟩ : Shape).BroadcastsInDim ⟨2, ![a, b]⟩ ![0, 1]) (i : Fin a) (j : Fin b) :
    broadcastInDim ⟨2, ![a, b]⟩ ![0, 1] h₂ (broadcastInDim ⟨2, ![a, 1]⟩ ![0] h₁ x) (ix2 i j) = x (ix1 i) := by
  refine (broadcastInDim_apply ![0, 1] h₂ _ (ix2 i j) (ix2 i (0 : Fin 1)) fun ax => ?_).trans
    (broadcastInDim_apply ![0] h₁ x (ix2 i (0 : Fin 1)) (ix1 i) fun ax => ?_)
  · match ax with
    | ⟨0, _⟩ =>
      show i.val = if a = 1 then 0 else i.val
      split
      · have := i.isLt; omega
      · rfl
    | ⟨1, _⟩ => rfl
  · match ax with
    | ⟨0, _⟩ =>
      show i.val = if a = 1 then 0 else i.val
      split
      · have := i.isLt; omega
      · rfl

/-- A vector `[b]` laid as a row `[1, b]` and then repeated down the rows to `[a, b]` reads, at `(i, j)`, the vector at `j`. -/
theorem bcastInDim_row_apply {a b : ℕ} (x : (⟨1, ![b]⟩ : Shape).Idx → α)
    (h₁ : (⟨1, ![b]⟩ : Shape).BroadcastsInDim ⟨2, ![1, b]⟩ ![1])
    (h₂ : (⟨2, ![1, b]⟩ : Shape).BroadcastsInDim ⟨2, ![a, b]⟩ ![0, 1]) (i : Fin a) (j : Fin b) :
    broadcastInDim ⟨2, ![a, b]⟩ ![0, 1] h₂ (broadcastInDim ⟨2, ![1, b]⟩ ![1] h₁ x) (ix2 i j) = x (ix1 j) := by
  refine (broadcastInDim_apply ![0, 1] h₂ _ (ix2 i j) (ix2 (0 : Fin 1) j) fun ax => ?_).trans
    (broadcastInDim_apply ![1] h₁ x (ix2 (0 : Fin 1) j) (ix1 j) fun ax => ?_)
  · match ax with
    | ⟨0, _⟩ => rfl
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- The same row read the kernel's way: the vector `[b]` recast to `[1, b]` and broadcast to `[a, b]`. -/
theorem bcastTo_row_apply {a b : ℕ} (x : (⟨1, ![b]⟩ : Shape).Idx → α)
    (h₁ : (⟨1, ![b]⟩ : Shape).ShapeCasts ⟨2, ![1, b]⟩)
    (h₂ : (⟨2, ![1, b]⟩ : Shape).Broadcasts ⟨2, ![a, b]⟩) (i : Fin a) (j : Fin b) :
    broadcastTo ⟨2, ![a, b]⟩ (shapeCast ⟨2, ![1, b]⟩ x h₁) h₂ (ix2 i j) = x (ix1 j) := by
  refine (broadcastTo_apply _ h₂ (ix2 i j) (ix2 (0 : Fin 1) j) fun ax => ?_).trans (shapeCast_a_1a_apply x h₁ 0 j)
  match ax with
  | ⟨0, _⟩ => rfl
  | ⟨1, _⟩ =>
    show j.val = if b = 1 then 0 else j.val
    split
    · have := j.isLt; omega
    · rfl

/-- A scalar spread over a shape reads the scalar everywhere. -/
theorem bcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Layout

/-! ## The products -/

/-- The kernel's and the reference's dimension records of the [128, 64] · [64, 8] product are one record. -/
theorem dot_head_eq :
    Cert.KernelIdeal.dot_S128x64_S64x8_S128x8_1_0_0_1_n_n = Cert.ReferenceIdeal.dot_S128x64_S64x8_S128x8_1_0_0_1_n_n := rfl

/-- And those of the [128, 8] · [8, 100] product. -/
theorem dot_dec_eq :
    Cert.KernelIdeal.dot_S128x8_S8x100_S128x100_1_0_0_1_n_n = Cert.ReferenceIdeal.dot_S128x8_S8x100_S128x100_1_0_0_1_n_n := rfl

/-- A product accumulated into the zero splat is the plain product of the same operands: both are, entry by entry, the
    sum over the contracted axis of the operands' products. -/
theorem matmul_zero_eq_dot {sl sr so : Shape} (d : DotDims sl sr so) (prec : Option ContractPrecision)
    (lhs : sl.Idx → EReal) (rhs : sr.Idx → EReal) :
    matmul (F := Ideal) (φ₁ := .bf16) (φ₂ := .bf16) d prec lhs rhs (constant (F := Ideal) so .f32 0x00000000#32)
      = Host.dotGeneral (F := Ideal) (φ₁ := .f32) (φ₂ := .f32) d prec lhs rhs := by
  funext j
  exact (Ideal.matmul_constant_zero_apply d prec lhs rhs j).trans (Ideal.dotGeneral_apply d prec .single lhs rhs j).symm

/-! ## The mean -/

/-- The kernel's pooled mean is the reference's: at `(p, q)` both are `P (p, q) / max (Cn p) 1`. -/
theorem mean_eq (P : S128x64.Idx → EReal) (Cn : S128.Idx → EReal) :
    k2_pay2 (F := Ideal) P (shapeCast S128x1 Cn Facts₀.shapeCasts_S128_S128x1) = meanOf P Cn := by
  funext i
  obtain ⟨p, q, rfl⟩ : ∃ (p : Fin 128) (q : Fin 64), i = ix2 p q := ⟨i 0, i 1, eq_ix2 i⟩
  dsimp only [k2_pay2, meanOf]
  rw [shapeCast_self, shapeCast_self]
  show Ideal.div (P (ix2 p q)) _ = Ideal.div (P (ix2 p q)) _
  refine congrArg _ ?_
  rw [Cert.Lib.broadcastTo_a1_ab_apply, bcastInDim_col_apply]
  show max (shapeCast S128x1 Cn Facts₀.shapeCasts_S128_S128x1 (ix2 p (0 : Fin 1))) _ = max (Cn (ix1 p)) _
  rw [Cert.Lib.shapeCast_a_a1_apply, bcastInDim_scalar_apply]
  rfl

/-! ## The heads -/

/-- One linear head in the kernel's words — the product accumulated into zero, the bias a recast row broadcast down the
    rows — is the reference's head. -/
theorem head_eq (P : S128x64.Idx → EReal) (Cn : S128.Idx → EReal) (w : S64x8.Idx → EReal) (bias : S8.Idx → EReal) :
    addf (F := Ideal) (φ := .f32)
        (matmul (F := Ideal) (φ₁ := .bf16) (φ₂ := .bf16) Cert.KernelIdeal.dot_S128x64_S64x8_S128x8_1_0_0_1_n_n none
          (k2_pay2 (F := Ideal) P (shapeCast S128x1 Cn Facts₀.shapeCasts_S128_S128x1)) w
          (constant (F := Ideal) S128x8 .f32 0x00000000#32))
        (broadcastTo S128x8 (shapeCast S1x8 bias Facts₀.shapeCasts_S8_S1x8) Gen.broadcasts_S1x8_S128x8)
      = headOf P Cn w bias := by
  rw [matmul_zero_eq_dot, mean_eq, dot_head_eq]
  unfold headOf
  refine congrArg _ ?_
  funext i
  obtain ⟨p, q, rfl⟩ : ∃ (p : Fin 128) (q : Fin 8), i = ix2 p q := ⟨i 0, i 1, eq_ix2 i⟩
  rw [bcastTo_row_apply, bcastInDim_row_apply]

/-- The kernel's mean head is the reference's: the same quotient, the same product, the bias kept as a row. -/
theorem mu_eq (P : S128x64.Idx → EReal) (Cn : S128.Idx → EReal) (w : S64x8.Idx → EReal) (bias : S8.Idx → EReal) :
    k2_pay3 (F := Ideal) P (shapeCast S128x1 Cn Facts₀.shapeCasts_S128_S128x1) w (shapeCast S1x8 bias Facts₀.shapeCasts_S8_S1x8) = headOf P Cn w bias := by
  dsimp only [k2_pay3]
  rw [shapeCast_self]
  exact head_eq P Cn w bias

/-- And so is its log-variance head. -/
theorem lv_eq (P : S128x64.Idx → EReal) (Cn : S128.Idx → EReal) (w : S64x8.Idx → EReal) (bias : S8.Idx → EReal) :
    k2_pay4 (F := Ideal) P (shapeCast S128x1 Cn Facts₀.shapeCasts_S128_S128x1) w (shapeCast S1x8 bias Facts₀.shapeCasts_S8_S1x8) = headOf P Cn w bias := by
  dsimp only [k2_pay4]
  rw [shapeCast_self]
  exact head_eq P Cn w bias

/-! ## The decoder output -/

/-- One-for-true read signed off the bit widened to 32 bits, or unsigned off the bit itself, is the same number. -/
theorem sitofp_extui_eq_uitofp (b : BitVec 1) :
    FloatOps.sitofp (F := Ideal) .f32 (b.setWidth 32) = FloatOps.uitofp (F := Ideal) .f32 b := by
  have h : (b.setWidth 32).toInt = (b.toNat : ℤ) := by revert b; decide
  show (((b.setWidth 32).toInt : ℝ) : EReal) = ((b.toNat : ℝ) : EReal)
  rw [h, Int.cast_natCast]

/-- The kernel's thresholded value at an index: the unsigned read of the comparison of the sum with zero. -/
theorem pay1_apply (v32 v35 : S128x100.Idx → EReal) (i : S128x100.Idx) :
    k2_pay1 (F := Ideal) v32 v35 i
      = FloatOps.uitofp (F := Ideal) .f32
          (FloatOps.cmpf (F := Ideal) (φ := .f32) .ogt (addf (F := Ideal) (φ := .f32) v32 v35 i) (Ideal.ofBits .f32 0x00000000#32)) :=
  sitofp_extui_eq_uitofp _

/-- The logits before the recast: the kernel's product plus its broadcast bias is the reference's. -/
theorem logits_eq (P : S128x64.Idx → EReal) (Cn : S128.Idx → EReal) (eps : S128x8.Idx → EReal) (wm : S64x8.Idx → EReal) (bm : S8.Idx → EReal)
    (wl : S64x8.Idx → EReal) (bl : S8.Idx → EReal) (wd : S8x100.Idx → EReal) (bd : S100.Idx → EReal) :
    addf (F := Ideal) (φ := .f32)
        (k2_pay5 (F := Ideal) P (shapeCast S128x1 Cn Facts₀.shapeCasts_S128_S128x1) wm (shapeCast S1x8 bm Facts₀.shapeCasts_S8_S1x8) wl (shapeCast S1x8 bl Facts₀.shapeCasts_S8_S1x8) eps wd)
        (k2_pay6 (F := Ideal) (shapeCast S1x100 bd Facts₀.shapeCasts_S100_S1x100))
      = addf (F := Ideal) (φ := .f32)
          (Host.dotGeneral (F := Ideal) (φ₁ := .f32) (φ₂ := .f32) Cert.ReferenceIdeal.dot_S128x8_S8x100_S128x100_1_0_0_1_n_n none
            (addf (F := Ideal) (φ := .f32) (headOf P Cn wm bm)
              (mulf (F := Ideal) (φ := .f32) eps
                (Host.exp (F := Ideal) (φ := .f32)
                  (mulf (F := Ideal) (φ := .f32) (broadcastInDim S128x8 ![] Cert.ReferenceIdeal.Facts₀.bcast_S_S128x8 (constant (F := Ideal) S_ .f32 0x3F000000#32)) (headOf P Cn wl bl)))))
            wd)
          (broadcastInDim S128x100 ![0, 1] Cert.ReferenceIdeal.Facts₀.bcast_S1x100_S128x100_0_1 (broadcastInDim S1x100 ![1] Cert.ReferenceIdeal.Facts₀.bcast_S100_S1x100_1 bd)) := by
  have hhalf : broadcast S128x8 (FloatOps.ofBits (F := Ideal) .f32 0x3F000000#32)
      = broadcastInDim S128x8 ![] Cert.ReferenceIdeal.Facts₀.bcast_S_S128x8 (constant (F := Ideal) S_ .f32 0x3F000000#32) :=
    funext fun i => (bcastInDim_scalar_apply ![] Cert.ReferenceIdeal.Facts₀.bcast_S_S128x8 (constant (F := Ideal) S_ .f32 0x3F000000#32) i).symm
  dsimp only [k2_pay5, k2_pay6]
  rw [shapeCast_self, mu_eq, lv_eq]
  show addf (F := Ideal) (φ := .f32)
      (matmul (F := Ideal) (φ₁ := .bf16) (φ₂ := .bf16) Cert.KernelIdeal.dot_S128x8_S8x100_S128x100_1_0_0_1_n_n none
        (addf (F := Ideal) (φ := .f32) (headOf P Cn wm bm)
          (mulf (F := Ideal) (φ := .f32) eps
            (Host.exp (F := Ideal) (φ := .f32)
              (mulf (F := Ideal) (φ := .f32) (broadcast S128x8 (FloatOps.ofBits (F := Ideal) .f32 0x3F000000#32)) (headOf P Cn wl bl)))))
        wd (constant (F := Ideal) S128x100 .f32 0x00000000#32))
      (broadcastTo S128x100 (shapeCast S1x100 bd Facts₀.shapeCasts_S100_S1x100) Gen.broadcasts_S1x100_S128x100) = _
  rw [matmul_zero_eq_dot, dot_dec_eq, hhalf]
  refine congrArg _ ?_
  funext i
  obtain ⟨p, q, rfl⟩ : ∃ (p : Fin 128) (q : Fin 100), i = ix2 p q := ⟨i 0, i 1, eq_ix2 i⟩
  rw [bcastTo_row_apply, bcastInDim_row_apply]

/-- The kernel's thresholded decoder output, recast to [128, 10, 10], is the reference's: comparing and then recasting
    is recasting and then comparing, and one-for-true read unsigned off one bit or signed off its widening is the same. -/
theorem adj_eq (P : S128x64.Idx → EReal) (Cn : S128.Idx → EReal) (eps : S128x8.Idx → EReal) (wm : S64x8.Idx → EReal) (bm : S8.Idx → EReal)
    (wl : S64x8.Idx → EReal) (bl : S8.Idx → EReal) (wd : S8x100.Idx → EReal) (bd : S100.Idx → EReal) :
    shapeCast S128x10x10
        (k2_pay1 (F := Ideal)
          (k2_pay5 (F := Ideal) P (shapeCast S128x1 Cn Facts₀.shapeCasts_S128_S128x1) wm (shapeCast S1x8 bm Facts₀.shapeCasts_S8_S1x8) wl (shapeCast S1x8 bl Facts₀.shapeCasts_S8_S1x8) eps wd)
          (k2_pay6 (F := Ideal) (shapeCast S1x100 bd Facts₀.shapeCasts_S100_S1x100)))
        Facts₀.shapeCasts_S128x100_S128x10x10
      = adjOf P Cn eps wm bm wl bl wd bd := by
  funext j
  unfold adjOf
  refine (pay1_apply _ _ (Shape.reshapeEquiv _ j)).trans ?_
  rw [logits_eq]
  exact congrArg (fun c => FloatOps.uitofp (F := Ideal) .f32 (FloatOps.cmpf (F := Ideal) (φ := .f32) .ogt _ c))
    (bcastInDim_scalar_apply _ Cert.ReferenceIdeal.Facts₀.bcast_S_S128x10x10 (constant (F := Ideal) S_ .f32 0x00000000#32) j).symm

end Cert.KernelIdeal.HeadEq

end
-- ==== Proof.StageHead.lean ====
import proofs.«410265_j83872121356775_3_alg».proof.Proof.Stretches
import proofs.«410265_j83872121356775_3_alg».proof.Proof.ArgsKept
import proofs.«410265_j83872121356775_3_alg».proof.Proof.Gen.ReferenceIdeal.Read
import proofs.«410265_j83872121356775_3_alg».proof.Proof.HeadArray
import proofs.«410265_j83872121356775_3_alg».proof.Proof.HeadEq
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- With the pooled sum and the counts the reference's, the three results are the reference's. -/
theorem stage_mu (c : Dev nD) (hP : V5 m ρ c main_v61 = Cert.ReferenceIdeal.Read.val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg5)))
    (hC : V5 m ρ c main_v66 = shapeCast S128x1 (Cert.ReferenceIdeal.Read.val_main_v53 (F := Ideal) (m ((c : Thread nD τ).loc main_arg2))) Facts₀.shapeCasts_S128_S128x1)
    (h6 : V5 m ρ c main_arg6 = (m ((c : Thread nD τ).loc main_arg6))) (h7 : V5 m ρ c main_v67 = shapeCast S1x8 (m ((c : Thread nD τ).loc main_arg7)) Facts₀.shapeCasts_S8_S1x8) :
    W7 m ρ c (Proc.devRef .tc main_v70_1)
      = Cert.ReferenceIdeal.Read.val_main_v65 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  rw [Stretch.W7_v70_1]
  have hW : W6 m ρ c (Proc.devRef .tc main_v70_1) = (dat2 (V5 m ρ) c).arrAt 10 cfg2.N := W6_arr m ρ c 10
  rw [hW, Head.region2_mu (V5 m ρ) c, hP, hC, h6, h7, HeadEq.mu_eq]
  unfold Cert.ReferenceIdeal.Read.val_main_v65 Cert.ReferenceIdeal.Read.val_main_v62 Cert.ReferenceIdeal.Read.val_main_v64
    Cert.ReferenceIdeal.Read.val_main_v63 Cert.ReferenceIdeal.Read.val_main_v61 Cert.ReferenceIdeal.Read.val_main_v60
    Cert.ReferenceIdeal.Read.val_main_v59 Cert.ReferenceIdeal.Read.val_main_v58 Cert.ReferenceIdeal.Read.val_main_v57
    Cert.ReferenceIdeal.Read.val_main_cst_12 HeadEq.headOf HeadEq.meanOf
  rfl

theorem stage_lv (c : Dev nD) (hP : V5 m ρ c main_v61 = Cert.ReferenceIdeal.Read.val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg5)))
    (hC : V5 m ρ c main_v66 = shapeCast S128x1 (Cert.ReferenceIdeal.Read.val_main_v53 (F := Ideal) (m ((c : Thread nD τ).loc main_arg2))) Facts₀.shapeCasts_S128_S128x1)
    (h8 : V5 m ρ c main_arg8 = (m ((c : Thread nD τ).loc main_arg8))) (h9 : V5 m ρ c main_v68 = shapeCast S1x8 (m ((c : Thread nD τ).loc main_arg9)) Facts₀.shapeCasts_S8_S1x8) :
    W7 m ρ c (Proc.devRef .tc main_v70_2)
      = Cert.ReferenceIdeal.Read.val_main_v69 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) := by
  rw [Stretch.W7_v70_2]
  have hW : W6 m ρ c (Proc.devRef .tc main_v70_2) = (dat2 (V5 m ρ) c).arrAt 11 cfg2.N := W6_arr m ρ c 11
  rw [hW, Head.region2_lv (V5 m ρ) c, hP, hC, h8, h9, HeadEq.lv_eq]
  unfold Cert.ReferenceIdeal.Read.val_main_v69 Cert.ReferenceIdeal.Read.val_main_v66 Cert.ReferenceIdeal.Read.val_main_v68
    Cert.ReferenceIdeal.Read.val_main_v67 Cert.ReferenceIdeal.Read.val_main_v61 Cert.ReferenceIdeal.Read.val_main_v60
    Cert.ReferenceIdeal.Read.val_main_v59 Cert.ReferenceIdeal.Read.val_main_v58 Cert.ReferenceIdeal.Read.val_main_v57
    Cert.ReferenceIdeal.Read.val_main_cst_12 HeadEq.headOf HeadEq.meanOf
  rfl

theorem stage_adj (c : Dev nD) (hP : V5 m ρ c main_v61 = Cert.ReferenceIdeal.Read.val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg5)))
    (hC : V5 m ρ c main_v66 = shapeCast S128x1 (Cert.ReferenceIdeal.Read.val_main_v53 (F := Ideal) (m ((c : Thread nD τ).loc main_arg2))) Facts₀.shapeCasts_S128_S128x1)
    (h3 : V5 m ρ c main_arg3 = (m ((c : Thread nD τ).loc main_arg3)))
    (h6 : V5 m ρ c main_arg6 = (m ((c : Thread nD τ).loc main_arg6))) (h7 : V5 m ρ c main_v67 = shapeCast S1x8 (m ((c : Thread nD τ).loc main_arg7)) Facts₀.shapeCasts_S8_S1x8)
    (h8 : V5 m ρ c main_arg8 = (m ((c : Thread nD τ).loc main_arg8))) (h9 : V5 m ρ c main_v68 = shapeCast S1x8 (m ((c : Thread nD τ).loc main_arg9)) Facts₀.shapeCasts_S8_S1x8)
    (h10 : V5 m ρ c main_arg10 = (m ((c : Thread nD τ).loc main_arg10))) (h11 : V5 m ρ c main_v69 = shapeCast S1x100 (m ((c : Thread nD τ).loc main_arg11)) Facts₀.shapeCasts_S100_S1x100) :
    W7 m ρ c (Proc.devRef .tc main_v71)
      = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Stretch.W7_v71]
  have hW : W6 m ρ c (Proc.devRef .tc main_v70_0) = (dat2 (V5 m ρ) c).arrAt 9 cfg2.N := W6_arr m ρ c 9
  rw [hW, Head.region2_adj (V5 m ρ) c, hP, hC, h3, h6, h7, h8, h9, h10, h11, HeadEq.adj_eq]
  unfold Cert.ReferenceIdeal.Read.val_main_v82 Cert.ReferenceIdeal.Read.val_main_v81 Cert.ReferenceIdeal.Read.val_main_v80
    Cert.ReferenceIdeal.Read.val_main_cst_14 Cert.ReferenceIdeal.Read.val_main_v79 Cert.ReferenceIdeal.Read.val_main_v78
    Cert.ReferenceIdeal.Read.val_main_v77 Cert.ReferenceIdeal.Read.val_main_v76 Cert.ReferenceIdeal.Read.val_main_v75
    Cert.ReferenceIdeal.Read.val_main_v74 Cert.ReferenceIdeal.Read.val_main_v73 Cert.ReferenceIdeal.Read.val_main_v72
    Cert.ReferenceIdeal.Read.val_main_v71 Cert.ReferenceIdeal.Read.val_main_v70 Cert.ReferenceIdeal.Read.val_main_cst_13
    Cert.ReferenceIdeal.Read.val_main_v69 Cert.ReferenceIdeal.Read.val_main_v66 Cert.ReferenceIdeal.Read.val_main_v68
    Cert.ReferenceIdeal.Read.val_main_v67 Cert.ReferenceIdeal.Read.val_main_v65 Cert.ReferenceIdeal.Read.val_main_v62
    Cert.ReferenceIdeal.Read.val_main_v64 Cert.ReferenceIdeal.Read.val_main_v63 Cert.ReferenceIdeal.Read.val_main_v61
    Cert.ReferenceIdeal.Read.val_main_v60 Cert.ReferenceIdeal.Read.val_main_v59 Cert.ReferenceIdeal.Read.val_main_v58
    Cert.ReferenceIdeal.Read.val_main_v57 Cert.ReferenceIdeal.Read.val_main_cst_12 HeadEq.adjOf HeadEq.headOf HeadEq.meanOf
  rfl

end Cert.KernelIdeal.Stage

end
-- ==== Proof.PoolTile.lean ====
import proofs.«410265_j83872121356775_3_alg».proof.Proof.Gen.KernelIdeal.Frame
import proofs.«410265_j83872121356775_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pool

open Idealize.ShloMosaic Idealize.ShloMosaic.TcCoe Idealize.ShloMosaic.ValueIdx Idealize.SL.Sem
open Cert.KernelIdeal Cert.KernelIdeal.Gen

/-- One node tile's contribution to graph `g`, feature `j`: over the tile's 5000 rows, the row's combined and relu'd
    value `max (agg + h · inv_deg + bias) 0` where the row's graph id is `g`, nothing where it is not. -/
def tileSum (x0 : Vec Ideal S5000x64 .f32) (x1 : Vec Ideal S5000x64 .bf16) (x2 : Vec Ideal S5000x1 .f32) (x3 : Vec Ideal S5000x1 .i32)
    (x4 : Vec Ideal S1x64 .f32) (g : Fin 128) (j : Fin 64) : EReal :=
  ∑ r : Fin 5000, (if x3 (ix2 r (0 : Fin 1)) = BitVec.ofNat 32 g.val then (1 : EReal) else 0)
    * max (x0 (ix2 r j) + x1 (ix2 r j) * x2 (ix2 r (0 : Fin 1)) + x4 (ix2 (0 : Fin 1) j)) 0

/-! ## The block each case leaves, as one term of the loads -/

variable {F : FTy → Type} [FloatOps F]

/-- The zero offsets of a whole-block access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At a later tile the block is the one covering store's payload, its loads reading the whole buffers: the pooled
    update of what the block held. -/
theorem block_B (c : Dev nD) (i : grid1.Coords) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S5000x1 .i32) (harg5 : arg5.IsWhole) (arg6 : Memref sig .tc .vmem S1x64 .f32) (harg6 : arg6.IsWhole) (arg7 : Memref sig .tc .vmem S1x128x64 .f32) (harg7 : arg7.IsWhole) (hc0 : ¬cond1_0 i) (x0 : Vec F S5000x64 .f32) (x1 : Vec F S5000x64 .bf16) (x2 : Vec F S5000x1 .f32) (x3 : Vec F S5000x1 .i32) (x4 : Vec F S1x64 .f32) (xo5 : Vec F S1x128x64 .f32) :
    out1_B_5 c i arg2 harg2 arg3 harg3 arg4 harg4 arg5 harg5 arg6 harg6 arg7 harg7 hc0 x0 x1 x2 x3 x4 xo5 = k1_pay2 x0 x1 x2 x4 x3 xo5 := by
  unfold out1_B_5
  rw [View.read_writes_eq_canon _ _ _ (cover1_B_5 c i arg2 harg2 arg3 harg3 arg4 harg4 arg5 harg5 arg6 harg6 arg7 harg7 hc0 x0 x1 x2 x3 x4 xo5)]
  unfold kernelRun1_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S5000x64) hz2, View.ld_unit_zero (S := S5000x1) hz2, View.ld_unit_zero (S := S1x64) hz2, View.ld_unit_zero (S := S1x128x64) hz3]

/-- At a core's first tile the block is cleared, read back, and updated: the pooled update of the zero block. -/
theorem block_A (c : Dev nD) (i : grid1.Coords) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S5000x1 .i32) (harg5 : arg5.IsWhole) (arg6 : Memref sig .tc .vmem S1x64 .f32) (harg6 : arg6.IsWhole) (arg7 : Memref sig .tc .vmem S1x128x64 .f32) (harg7 : arg7.IsWhole) (hc0 : cond1_0 i) (x0 : Vec F S5000x64 .f32) (x1 : Vec F S5000x64 .bf16) (x2 : Vec F S5000x1 .f32) (x3 : Vec F S5000x1 .i32) (x4 : Vec F S1x64 .f32) :
    out1_A_5 c i arg2 harg2 arg3 harg3 arg4 harg4 arg5 harg5 arg6 harg6 arg7 harg7 hc0 x0 x1 x2 x3 x4 = k1_pay2 x0 x1 x2 x4 x3 (k1_pay1 (F := F)) := by
  unfold out1_A_5
  rw [View.read_writes_eq_canon _ _ _ (cover1_A_5 c i arg2 harg2 arg3 harg3 arg4 harg4 arg5 harg5 arg6 harg6 arg7 harg7 hc0 x0 x1 x2 x3 x4)]
  unfold kernelRun1_A
  dsimp only
  sl_unfold_words
  rw [View.canon_cons_unit_zero (S := S1x128x64) hz3]
  simp only [View.readAt_eq_ld, harg2.read_unread, harg3.read_unread, harg4.read_unread, harg5.read_unread, harg6.read_unread,
    View.ld_unit_zero (S := S5000x64) hz2, View.ld_unit_zero (S := S5000x1) hz2, View.ld_unit_zero (S := S1x64) hz2,
    View.readCov_unit_zero (S := S1x128x64) _ hz3]

/-! ## The pooling contraction read at an index -/

/-- The one-hot operand's index at an output index and a contraction index: its row is the contracted one. -/
theorem lhs_pool_0 (y : S128x64.Idx) (q : dot_S5000x128_S5000x64_S128x64_0_0_1_1_n_n.contr.Idx) :
    (dot_S5000x128_S5000x64_S128x64_0_0_1_1_n_n.lhsIdx y q 0).val = (q ⟨0, by decide⟩).val :=
  dot_S5000x128_S5000x64_S128x64_0_0_1_1_n_n.lhsIdx_val_of_single rfl y q
/-- Its column is the output's row. -/
theorem lhs_pool_1 (y : S128x64.Idx) (q : dot_S5000x128_S5000x64_S128x64_0_0_1_1_n_n.contr.Idx) :
    (dot_S5000x128_S5000x64_S128x64_0_0_1_1_n_n.lhsIdx y q 1).val = (y 0).val := by
  unfold DotDims.lhsIdx
  rw [dif_neg (show ¬(1 : Fin S5000x128.rank) ∈ dot_S5000x128_S5000x64_S128x64_0_0_1_1_n_n.lhsBatch by decide), dif_pos (show (1 : Fin S5000x128.rank) ∈ dot_S5000x128_S5000x64_S128x64_0_0_1_1_n_n.lhsNonContracting by decide)]
  rfl
/-- The feature operand's row is the contracted one. -/
theorem rhs_pool_0 (y : S128x64.Idx) (q : dot_S5000x128_S5000x64_S128x64_0_0_1_1_n_n.contr.Idx) :
    (dot_S5000x128_S5000x64_S128x64_0_0_1_1_n_n.rhsIdx y q 0).val = (q ⟨0, by decide⟩).val :=
  dot_S5000x128_S5000x64_S128x64_0_0_1_1_n_n.rhsIdx_val_of_single rfl y q
/-- Its column is the output's column. -/
theorem rhs_pool_1 (y : S128x64.Idx) (q : dot_S5000x128_S5000x64_S128x64_0_0_1_1_n_n.contr.Idx) :
    (dot_S5000x128_S5000x64_S128x64_0_0_1_1_n_n.rhsIdx y q 1).val = (y 1).val := by
  unfold DotDims.rhsIdx
  rw [dif_neg (show ¬(1 : Fin S5000x64.rank) ∈ dot_S5000x128_S5000x64_S128x64_0_0_1_1_n_n.rhsBatch by decide), dif_pos (show (1 : Fin S5000x64.rank) ∈ dot_S5000x128_S5000x64_S128x64_0_0_1_1_n_n.rhsNonContracting by decide)]
  rfl

/-- The contraction over the rows, into the zero block, at (g, j): the sum over the 5000 rows of the products of the
    two operands' entries in columns g and j. -/
theorem pool_matmul_apply (A : FVec Ideal S5000x128 .bf16) (B : FVec Ideal S5000x64 .bf16) (g : Fin 128) (j : Fin 64) :
    FloatOps.matmul dot_S5000x128_S5000x64_S128x64_0_0_1_1_n_n none A B (constant (F := Ideal) S128x64 .f32 0x00000000#32) (ix2 g j)
      = ∑ r : Fin 5000, A (ix2 r g) * B (ix2 r j) := by
  rw [Ideal.matmul_constant_zero_apply, ← Equiv.sum_comp (contrEquiv1 dot_S5000x128_S5000x64_S128x64_0_0_1_1_n_n 5000 rfl rfl).symm]
  refine Finset.sum_congr rfl fun r _ => ?_
  have hr := contrEquiv1_symm_val dot_S5000x128_S5000x64_S128x64_0_0_1_1_n_n 5000 rfl rfl r
  have el : dot_S5000x128_S5000x64_S128x64_0_0_1_1_n_n.lhsIdx (ix2 g j) ((contrEquiv1 dot_S5000x128_S5000x64_S128x64_0_0_1_1_n_n 5000 rfl rfl).symm r) = ix2 r g := funext fun a => Fin.ext (by
    match a with
    | ⟨0, _⟩ => exact (lhs_pool_0 _ _).trans hr
    | ⟨1, _⟩ => exact lhs_pool_1 _ _)
  have er : dot_S5000x128_S5000x64_S128x64_0_0_1_1_n_n.rhsIdx (ix2 g j) ((contrEquiv1 dot_S5000x128_S5000x64_S128x64_0_0_1_1_n_n 5000 rfl rfl).symm r) = ix2 r j := funext fun a => Fin.ext (by
    match a with
    | ⟨0, _⟩ => exact (rhs_pool_0 _ _).trans hr
    | ⟨1, _⟩ => exact rhs_pool_1 _ _)
  rw [el, er]

/-! ## The one-hot operand and the combined features, entry by entry -/

/-- Two words compared for equality, the bit widened and read as a signed integer: the indicator of equality. -/
theorem indicator (a b : BitVec 32) :
    (FloatOps.sitofp (F := Ideal) .f32 ((IntOp.cmpi .eq a b).setWidth 32) : EReal) = if a = b then (1 : EReal) else 0 := by
  show (((((IntOp.cmpi .eq a b).setWidth 32).toInt : ℤ) : ℝ) : EReal) = _
  by_cases h : a = b
  · subst h
    rw [if_pos rfl]
    have e : (IntOp.cmpi .eq a a) = 1#1 := by simp [IntOp.cmpi]
    rw [e]
    have e2 : ((1#1 : BitVec 1).setWidth 32).toInt = 1 := by decide
    rw [e2]; norm_num
  · rw [if_neg h]
    have e : (IntOp.cmpi .eq a b) = 0#1 := by
      show BitVec.ofBool (a == b) = 0#1
      rw [beq_false_of_ne h]; rfl
    rw [e]
    have e2 : ((0#1 : BitVec 1).setWidth 32).toInt = 0 := by decide
    rw [e2]; norm_num

/-- The one-hot operand at (r, g): 1 where row r's id is g, else 0. -/
theorem onehot_apply (ids : Vec Ideal S5000x1 .i32) (r : Fin 5000) (g : Fin 128) :
    (truncf .bf16 (sitofp (F := Ideal) .f32 (extui 32 (cmpi .eq (broadcastTo S5000x128 (shapeCast S5000x1 ids shapeCasts_S5000x1_S5000x1) broadcasts_S5000x1_S5000x128) (iota .tc S5000x128 32 [1] iota_S5000x128_d1_w32)) natLt_1_32)) bitsLt_bf16_f32 : FVec Ideal S5000x128 .bf16) (ix2 r g)
      = if ids (ix2 r (0 : Fin 1)) = BitVec.ofNat 32 g.val then (1 : EReal) else 0 := by
  have e1 : broadcastTo S5000x128 (shapeCast S5000x1 ids shapeCasts_S5000x1_S5000x1) broadcasts_S5000x1_S5000x128 (ix2 r g) = ids (ix2 r (0 : Fin 1)) :=
    (Cert.Lib.broadcastTo_a1_ab_apply _ broadcasts_S5000x1_S5000x128 r g).trans (congrFun (shapeCast_self ids shapeCasts_S5000x1_S5000x1) _)
  have e2 : iota .tc S5000x128 32 [1] iota_S5000x128_d1_w32 (ix2 r g) = BitVec.ofNat 32 g.val :=
    iota_single_apply .tc S5000x128 32 1 iota_S5000x128_d1_w32 (ix2 r g)
  show (FloatOps.sitofp (F := Ideal) .f32 ((IntOp.cmpi .eq (broadcastTo S5000x128 (shapeCast S5000x1 ids shapeCasts_S5000x1_S5000x1) broadcasts_S5000x1_S5000x128 (ix2 r g)) (iota .tc S5000x128 32 [1] iota_S5000x128_d1_w32 (ix2 r g))).setWidth 32) : EReal) = _
  rw [e1, e2]
  exact indicator _ _

/-- The combined features at (r, j): the aggregate plus the row's own features scaled by its inverse degree plus the
    bias, clipped below at zero. -/
theorem feat_apply (x0 : Vec Ideal S5000x64 .f32) (x1 : Vec Ideal S5000x64 .bf16) (x2 : Vec Ideal S5000x1 .f32) (x4 : Vec Ideal S1x64 .f32) (r : Fin 5000) (j : Fin 64) :
    (truncf .bf16 (maximumf (addf (addf (shapeCast S5000x64 x0 shapeCasts_S5000x64_S5000x64) (mulf (extf .f32 (shapeCast S5000x64 x1 shapeCasts_S5000x64_S5000x64) bitsLt_bf16_f32) (broadcastTo S5000x64 (shapeCast S5000x1 x2 shapeCasts_S5000x1_S5000x1) broadcasts_S5000x1_S5000x64))) (broadcastTo S5000x64 (shapeCast S1x64 x4 shapeCasts_S1x64_S1x64) broadcasts_S1x64_S5000x64)) (broadcast S5000x64 (Scalar.ofBits (F := Ideal) .f32 0x00000000#32))) bitsLt_bf16_f32 : FVec Ideal S5000x64 .bf16) (ix2 r j)
      = max (x0 (ix2 r j) + x1 (ix2 r j) * x2 (ix2 r (0 : Fin 1)) + x4 (ix2 (0 : Fin 1) j)) 0 := by
  have e2 : broadcastTo S5000x64 (shapeCast S5000x1 x2 shapeCasts_S5000x1_S5000x1) broadcasts_S5000x1_S5000x64 (ix2 r j) = x2 (ix2 r (0 : Fin 1)) :=
    (Cert.Lib.broadcastTo_a1_ab_apply _ broadcasts_S5000x1_S5000x64 r j).trans (congrFun (shapeCast_self x2 shapeCasts_S5000x1_S5000x1) _)
  have e4 : broadcastTo S5000x64 (shapeCast S1x64 x4 shapeCasts_S1x64_S1x64) broadcasts_S1x64_S5000x64 (ix2 r j) = x4 (ix2 (0 : Fin 1) j) :=
    (broadcastTo_1b_ab_apply _ broadcasts_S1x64_S5000x64 r j).trans (congrFun (shapeCast_self x4 shapeCasts_S1x64_S1x64) _)
  show max (shapeCast S5000x64 x0 shapeCasts_S5000x64_S5000x64 (ix2 r j)
      + shapeCast S5000x64 x1 shapeCasts_S5000x64_S5000x64 (ix2 r j) * broadcastTo S5000x64 (shapeCast S5000x1 x2 shapeCasts_S5000x1_S5000x1) broadcasts_S5000x1_S5000x64 (ix2 r j)
      + broadcastTo S5000x64 (shapeCast S1x64 x4 shapeCasts_S1x64_S1x64) broadcasts_S1x64_S5000x64 (ix2 r j)) (Ideal.ofBits .f32 0x00000000#32) = _
  rw [e2, e4, shapeCast_self, shapeCast_self, Ideal.ofBits_zero_f32]

/-! ## The stored block at an index -/

/-- The updated block at (0, g, j): what the block held there plus the tile's contribution. -/
theorem pay2_apply (x0 : Vec Ideal S5000x64 .f32) (x1 : Vec Ideal S5000x64 .bf16) (x2 : Vec Ideal S5000x1 .f32) (x3 : Vec Ideal S5000x1 .i32) (x4 : Vec Ideal S1x64 .f32) (xo : Vec Ideal S1x128x64 .f32) (g : Fin 128) (j : Fin 64) :
    k1_pay2 (F := Ideal) x0 x1 x2 x4 x3 xo (ix3 (0 : Fin 1) g j) = xo (ix3 (0 : Fin 1) g j) + tileSum x0 x1 x2 x3 x4 g j := by
  unfold k1_pay2
  refine (shapeCast_ab_1ab_apply _ shapeCasts_S128x64_S1x128x64 (0 : Fin 1) g j).trans ?_
  refine congrArg₂ (· + ·) (shapeCast_1ab_ab_apply xo shapeCasts_S1x128x64_S128x64 g j) ?_
  refine (pool_matmul_apply _ _ g j).trans ?_
  unfold tileSum
  exact Finset.sum_congr rfl fun r _ => congrArg₂ (· * ·) (onehot_apply x3 r g) (feat_apply x0 x1 x2 x4 r j)

/-- The cleared block is zero everywhere. -/
theorem pay1_apply (y : S1x128x64.Idx) : k1_pay1 (F := Ideal) y = 0 := by
  unfold k1_pay1
  show shapeCast S1x128x64 (broadcast S128x64 (Scalar.ofBits (F := Ideal) .f32 0x00000000#32)) shapeCasts_S128x64_S1x128x64 y = 0
  unfold shapeCast
  exact Ideal.ofBits_zero_f32

/-! ## The two cases at an index -/

/-- At a core's first tile the body clears the output block and then adds the tile's contribution: the block holds
    the contribution alone. -/
theorem out1_A_apply (c : Dev nD) (i : grid1.Coords) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S5000x1 .i32) (harg5 : arg5.IsWhole) (arg6 : Memref sig .tc .vmem S1x64 .f32) (harg6 : arg6.IsWhole) (arg7 : Memref sig .tc .vmem S1x128x64 .f32) (harg7 : arg7.IsWhole) (hc0 : cond1_0 i) (x0 : Vec Ideal S5000x64 .f32) (x1 : Vec Ideal S5000x64 .bf16) (x2 : Vec Ideal S5000x1 .f32) (x3 : Vec Ideal S5000x1 .i32) (x4 : Vec Ideal S1x64 .f32) (g : Fin 128) (j : Fin 64) :
    out1_A_5 (F := Ideal) c i arg2 harg2 arg3 harg3 arg4 harg4 arg5 harg5 arg6 harg6 arg7 harg7 hc0 x0 x1 x2 x3 x4 (ix3 (0 : Fin 1) g j) = tileSum x0 x1 x2 x3 x4 g j := by
  refine (congrFun (block_A (F := Ideal) c i arg2 harg2 arg3 harg3 arg4 harg4 arg5 harg5 arg6 harg6 arg7 harg7 hc0 x0 x1 x2 x3 x4) (ix3 (0 : Fin 1) g j)).trans ?_
  refine (pay2_apply x0 x1 x2 x3 x4 (k1_pay1 (F := Ideal)) g j).trans ?_
  rw [pay1_apply, zero_add]

/-- At every later tile the body adds the tile's contribution to what the block held. -/
theorem out1_B_apply (c : Dev nD) (i : grid1.Coords) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S5000x1 .i32) (harg5 : arg5.IsWhole) (arg6 : Memref sig .tc .vmem S1x64 .f32) (harg6 : arg6.IsWhole) (arg7 : Memref sig .tc .vmem S1x128x64 .f32) (harg7 : arg7.IsWhole) (hc0 : ¬cond1_0 i) (x0 : Vec Ideal S5000x64 .f32) (x1 : Vec Ideal S5000x64 .bf16) (x2 : Vec Ideal S5000x1 .f32) (x3 : Vec Ideal S5000x1 .i32) (x4 : Vec Ideal S1x64 .f32) (xo5 : Vec Ideal S1x128x64 .f32) (g : Fin 128) (j : Fin 64) :
    out1_B_5 (F := Ideal) c i arg2 harg2 arg3 harg3 arg4 harg4 arg5 harg5 arg6 harg6 arg7 harg7 hc0 x0 x1 x2 x3 x4 xo5 (ix3 (0 : Fin 1) g j) = xo5 (ix3 (0 : Fin 1) g j) + tileSum x0 x1 x2 x3 x4 g j :=
  (congrFun (block_B (F := Ideal) c i arg2 harg2 arg3 harg3 arg4 harg4 arg5 harg5 arg6 harg6 arg7 harg7 hc0 x0 x1 x2 x3 x4 xo5) (ix3 (0 : Fin 1) g j)).trans (pay2_apply x0 x1 x2 x3 x4 xo5 g j)

end Cert.KernelIdeal.Pool

end
-- ==== Proof.PoolArray.lean ====
/-
  The second pallas_call's output array, entry by entry.

  The call walks the 100000 nodes in tiles of 5000 rows: twenty grid points, point `t = 10·co + s` being tile `s` of
  core `co`. Each core keeps ONE output block, its slab of the [2, 128, 64] array, through its ten points: the first
  point clears it and adds its tile's sum, the nine others add theirs, and the last writes the block back. A tile's
  sum at graph `g`, feature `j` (`tileSum`, read off the kernel body elsewhere) runs over the tile's rows, and row `r`
  of the blocks at point `t` is row `5000·t + r` of the arrays, which is node `node co s r`. So the staging block after
  point `10·co + 9` is the sum over `s` of the tiles' sums (a running value that resets at the multiples of ten and
  steps by one addend elsewhere is the sum of the addends since the reset), which is `coreSum … co`; that point's block
  of the array is slab `co`; and the two slabs cover the array.
-/
import proofs.«410265_j83872121356775_3_alg».proof.Proof.Gen.KernelIdeal.Frame
import proofs.«410265_j83872121356775_3_alg».proof.Proof.Spec
import proofs.«410265_j83872121356775_3_alg».proof.Proof.PoolTile
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pool

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Blocks and arrays under their literal types -/

/-- The five input blocks of grid point `t`, and the five input arrays, each named at its literal shape so that
    their entries are extended reals (or 32-bit words) on which the statements below can do arithmetic. -/
abbrev blkA (c : Dev nD) (t : Fin cfg1.N) : Vec Ideal S5000x64 .f32 := iblk1 (F := Ideal) V c 0 t
abbrev blkH (c : Dev nD) (t : Fin cfg1.N) : Vec Ideal S5000x64 .bf16 := iblk1 (F := Ideal) V c 1 t
abbrev blkD (c : Dev nD) (t : Fin cfg1.N) : Vec Ideal S5000x1 .f32 := iblk1 (F := Ideal) V c 2 t
abbrev blkB (c : Dev nD) (t : Fin cfg1.N) : Vec Ideal S5000x1 .i32 := iblk1 (F := Ideal) V c 3 t
abbrev blkb (c : Dev nD) (t : Fin cfg1.N) : Vec Ideal S1x64 .f32 := iblk1 (F := Ideal) V c 4 t
abbrev arrA (c : Dev nD) : S100000x64.Idx → EReal := V c main_v52
abbrev arrH (c : Dev nD) : S100000x64.Idx → EReal := V c main_v11
abbrev arrD (c : Dev nD) : S100000x1.Idx → EReal := V c main_v53
abbrev arrB (c : Dev nD) : S100000x1.Idx → BitVec 32 := V c main_v54
abbrev arrb (c : Dev nD) : S1x64.Idx → EReal := V c main_v55

/-- Where the blocks sit. At grid point `t` the four node-tiled inputs are at block row `t` (column 0), the bias is
    its whole array, and the output is at slab `t / 10`: the index maps, evaluated at each of the twenty points. -/
theorem index_at : ∀ t : Fin cfg1.N,
    (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0)
    ∧ (win1_4.index t 0 = 0 ∧ win1_4.index t 1 = 0)
    ∧ (win1_5.index t 0 = t.val / 10 ∧ win1_5.index t 1 = 0 ∧ win1_5.index t 2 = 0) :=
  (by decide +kernel : ∀ t : Fin grid1.N, _)

/-- Row `r` of the aggregate's block at point `t` is row `5000·t + r` of the array. -/
theorem blkA_apply (c : Dev nD) (t : Fin cfg1.N) (r : Fin 5000) (j : Fin 64) (n : Fin 100000)
    (hn : n.val = 5000 * t.val + r.val) : blkA V c t (ix2 r j) = arrA V c (ix2 n j) := by
  show V c main_v52 _ = V c main_v52 _
  congr 1
  funext a
  apply Fin.ext
  match a with
  | ⟨0, _⟩ => show win1_0.index t 0 * 5000 + 1 * r.val = n.val; rw [(index_at t).1.1, hn]; omega
  | ⟨1, _⟩ => show win1_0.index t 1 * 64 + 1 * j.val = j.val; rw [(index_at t).1.2]; omega

/-- The same for the node features, -/
theorem blkH_apply (c : Dev nD) (t : Fin cfg1.N) (r : Fin 5000) (j : Fin 64) (n : Fin 100000)
    (hn : n.val = 5000 * t.val + r.val) : blkH V c t (ix2 r j) = arrH V c (ix2 n j) := by
  show V c main_v11 _ = V c main_v11 _
  congr 1
  funext a
  apply Fin.ext
  match a with
  | ⟨0, _⟩ => show win1_1.index t 0 * 5000 + 1 * r.val = n.val; rw [(index_at t).2.1.1, hn]; omega
  | ⟨1, _⟩ => show win1_1.index t 1 * 64 + 1 * j.val = j.val; rw [(index_at t).2.1.2]; omega

/-- the inverse degrees, -/
theorem blkD_apply (c : Dev nD) (t : Fin cfg1.N) (r : Fin 5000) (n : Fin 100000)
    (hn : n.val = 5000 * t.val + r.val) : blkD V c t (ix2 r (0 : Fin 1)) = arrD V c (ix2 n (0 : Fin 1)) := by
  show V c main_v53 _ = V c main_v53 _
  congr 1
  funext a
  apply Fin.ext
  match a with
  | ⟨0, _⟩ => show win1_2.index t 0 * 5000 + 1 * r.val = n.val; rw [(index_at t).2.2.1.1, hn]; omega
  | ⟨1, _⟩ => show win1_2.index t 1 * 1 + 1 * 0 = 0; rw [(index_at t).2.2.1.2]

/-- and the graph ids. -/
theorem blkB_apply (c : Dev nD) (t : Fin cfg1.N) (r : Fin 5000) (n : Fin 100000)
    (hn : n.val = 5000 * t.val + r.val) : blkB V c t (ix2 r (0 : Fin 1)) = arrB V c (ix2 n (0 : Fin 1)) := by
  show V c main_v54 _ = V c main_v54 _
  congr 1
  funext a
  apply Fin.ext
  match a with
  | ⟨0, _⟩ => show win1_3.index t 0 * 5000 + 1 * r.val = n.val; rw [(index_at t).2.2.2.1.1, hn]; omega
  | ⟨1, _⟩ => show win1_3.index t 1 * 1 + 1 * 0 = 0; rw [(index_at t).2.2.2.1.2]

/-- The bias block is the bias. -/
theorem blkb_apply (c : Dev nD) (t : Fin cfg1.N) (j : Fin 64) :
    blkb V c t (ix2 (0 : Fin 1) j) = arrb V c (ix2 (0 : Fin 1) j) := by
  show V c main_v55 _ = V c main_v55 _
  congr 1
  funext a
  apply Fin.ext
  match a with
  | ⟨0, _⟩ => show win1_4.index t 0 * 1 + 1 * 0 = 0; rw [(index_at t).2.2.2.2.1.1]
  | ⟨1, _⟩ => show win1_4.index t 1 * 64 + 1 * j.val = j.val; rw [(index_at t).2.2.2.2.1.2]; omega

/-! ## What one grid point adds, and the run of ten points as a sum -/

/-- Point `n`'s contribution to the staging block at an index: the tile sum of the point's five blocks at the index's
    graph and feature coordinates (and nothing past the grid, where no point is). -/
def addend (c : Dev nD) (n : ℕ) (y : S1x128x64.Idx) : EReal :=
  if h : n < cfg1.N then
    tileSum (blkA V c ⟨n, h⟩) (blkH V c ⟨n, h⟩) (blkD V c ⟨n, h⟩) (blkB V c ⟨n, h⟩) (blkb V c ⟨n, h⟩) (y 1) (y 2)
  else 0

/-- At the first point of a core's run (`n` a multiple of ten) the staging block is cleared and then holds that
    point's contribution alone. -/
theorem stage_reset (c : Dev nD) (n : ℕ) (h : n < cfg1.N) (h0 : n % 10 = 0) :
    outsAt1 (F := Ideal) V c n h = addend V c n := by
  funext y
  obtain ⟨p, g, j, rfl⟩ : ∃ (p : Fin 1) (g : Fin 128) (j : Fin 64), y = ix3 p g j := ⟨y 0, y 1, y 2, eq_ix3 y⟩
  obtain rfl : p = 0 := Subsingleton.elim _ _
  refine (congrFun (outsAt1_A V c ⟨n, h⟩ h0) _).trans ?_
  unfold addend
  rw [dif_pos h]
  exact out1_A_apply c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) ((hcond1_0 ⟨n, h⟩).mpr h0) (blkA V c ⟨n, h⟩) (blkH V c ⟨n, h⟩) (blkD V c ⟨n, h⟩) (blkB V c ⟨n, h⟩) (blkb V c ⟨n, h⟩) g j

/-- At every other point the staging block gains that point's contribution on top of what the point before left. -/
theorem stage_step (c : Dev nD) (n : ℕ) (h : n + 1 < cfg1.N) (h0 : ¬(n + 1) % 10 = 0) :
    outsAt1 (F := Ideal) V c (n + 1) h
      = fun y => outsAt1 (F := Ideal) V c n (Nat.lt_of_succ_lt h) y + addend V c (n + 1) y := by
  funext y
  obtain ⟨p, g, j, rfl⟩ : ∃ (p : Fin 1) (g : Fin 128) (j : Fin 64), y = ix3 p g j := ⟨y 0, y 1, y 2, eq_ix3 y⟩
  obtain rfl : p = 0 := Subsingleton.elim _ _
  refine (congrFun (outsAt1_B V c ⟨n + 1, h⟩ h0) _).trans ?_
  unfold addend
  rw [dif_pos h]
  exact out1_B_apply c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (fun hh => h0 ((hcond1_0 ⟨n + 1, h⟩).mp hh)) (blkA V c ⟨n + 1, h⟩) (blkH V c ⟨n + 1, h⟩) (blkD V c ⟨n + 1, h⟩) (blkB V c ⟨n + 1, h⟩) (blkb V c ⟨n + 1, h⟩)
    (outsAt1 (F := Ideal) V c n (Nat.lt_of_succ_lt h)) g j

/-- So after the last of core `co`'s ten points (point `10·co + 9`) the staging block holds the sum of the ten
    points' contributions: the running value resets at the multiples of ten and steps by one addend elsewhere. -/
theorem stage_last (c : Dev nD) (co : Fin 2) (h : 10 * co.val + 9 < cfg1.N) (y : S1x128x64.Idx) :
    outsAt1 (F := Ideal) V c (10 * co.val + 9) h y = ∑ s ∈ Finset.range 10, addend V c (10 * co.val + s) y := by
  have hfold := Pipeline.eq_accAt (N := cfg1.N) (outsAt1 (F := Ideal) V c) 10
    (fun n _ => addend V c n) (fun n _ acc => fun y => acc y + addend V c n y)
    (fun n h hm => stage_reset V c n h hm) (fun n h hm => stage_step V c n h hm) co.val 9 (by omega) h
  rw [hfold]
  refine (Pipeline.accAt_add_apply (N := cfg1.N) (fun n _ => addend V c n) (fun n _ acc => fun y => acc y + addend V c n y)
    (fun _ => (0 : EReal)) (addend V c) (10 * co.val) 9 (fun _ i => (zero_add _).symm) (fun _ _ _ _ _ _ => rfl) 9 le_rfl h y).trans ?_
  exact zero_add _

/-! ## A tile's rows are nodes -/

/-- A tile sum over blocks whose row `r` is node `node co s r` of the arrays (and whose bias row is the bias) is the
    inner sum of `coreSum` at tile `s`: term by term the one-hot weight is `hit` and the relu'd row is `act`. -/
theorem tileSum_rows (x0 : Vec Ideal S5000x64 .f32) (x1 : Vec Ideal S5000x64 .bf16) (x2 : Vec Ideal S5000x1 .f32)
    (x3 : Vec Ideal S5000x1 .i32) (x4 : Vec Ideal S1x64 .f32)
    (A H : S100000x64.Idx → EReal) (D : S100000x1.Idx → EReal) (B : S100000x1.Idx → BitVec 32) (b : S1x64.Idx → EReal)
    (co : Fin 2) (s : Fin 10) (g : Fin 128) (j : Fin 64)
    (h0 : ∀ r : Fin 5000, x0 (ix2 r j) = A (ix2 (Spec.node co s r) j))
    (h1 : ∀ r : Fin 5000, x1 (ix2 r j) = H (ix2 (Spec.node co s r) j))
    (h2 : ∀ r : Fin 5000, x2 (ix2 r (0 : Fin 1)) = D (ix2 (Spec.node co s r) (0 : Fin 1)))
    (h3 : ∀ r : Fin 5000, x3 (ix2 r (0 : Fin 1)) = B (ix2 (Spec.node co s r) (0 : Fin 1)))
    (h4 : x4 (ix2 (0 : Fin 1) j) = b (ix2 (0 : Fin 1) j)) :
    tileSum x0 x1 x2 x3 x4 g j
      = ∑ r : Fin 5000, Spec.hit B (Spec.node co s r) g * Spec.act A H D b (Spec.node co s r) j := by
  unfold tileSum Spec.hit Spec.act
  refine Finset.sum_congr rfl fun r _ => ?_
  rw [h0 r, h1 r, h2 r, h3 r, h4]

/-- Point `10·co + s` is tile `s` of core `co`: its blocks' rows are the nodes `node co s r`, so its contribution
    is that tile's inner sum. -/
theorem addend_tile (c : Dev nD) (co : Fin 2) (s : Fin 10) (g : Fin 128) (j : Fin 64) :
    addend V c (10 * co.val + s.val) (ix3 (0 : Fin 1) g j)
      = ∑ r : Fin 5000, Spec.hit (arrB V c) (Spec.node co s r) g
          * Spec.act (arrA V c) (arrH V c) (arrD V c) (arrb V c) (Spec.node co s r) j := by
  have hN : cfg1.N = 20 := N_1
  have hco : co.val < 2 := co.isLt
  have hs : s.val < 10 := s.isLt
  have h : 10 * co.val + s.val < cfg1.N := by rw [hN]; omega
  unfold addend
  rw [dif_pos h]
  exact tileSum_rows (blkA V c ⟨10 * co.val + s.val, h⟩) (blkH V c ⟨10 * co.val + s.val, h⟩)
    (blkD V c ⟨10 * co.val + s.val, h⟩) (blkB V c ⟨10 * co.val + s.val, h⟩) (blkb V c ⟨10 * co.val + s.val, h⟩)
    (arrA V c) (arrH V c) (arrD V c) (arrB V c) (arrb V c) co s g j
    (fun r => blkA_apply V c ⟨10 * co.val + s.val, h⟩ r j (Spec.node co s r) rfl)
    (fun r => blkH_apply V c ⟨10 * co.val + s.val, h⟩ r j (Spec.node co s r) rfl)
    (fun r => blkD_apply V c ⟨10 * co.val + s.val, h⟩ r (Spec.node co s r) rfl)
    (fun r => blkB_apply V c ⟨10 * co.val + s.val, h⟩ r (Spec.node co s r) rfl)
    (blkb_apply V c ⟨10 * co.val + s.val, h⟩ j)

/-- So after core `co`'s last point the staging block holds the core's pooled sums. -/
theorem stage_last_eq (c : Dev nD) (co : Fin 2) (h : 10 * co.val + 9 < cfg1.N) (g : Fin 128) (j : Fin 64) :
    outsAt1 (F := Ideal) V c (10 * co.val + 9) h (ix3 (0 : Fin 1) g j)
      = Spec.coreSum (arrA V c) (arrH V c) (arrD V c) (arrB V c) (arrb V c) co g j := by
  rw [stage_last V c co h, Finset.sum_range]
  unfold Spec.coreSum
  exact Finset.sum_congr rfl fun s _ => addend_tile V c co s g j

/-! ## The output array -/

/-- The whole output array as one function of the inputs: slab `co` holds core `co`'s pooled sums. -/
def pooled (c : Dev nD) : S2x128x64.Idx → EReal :=
  fun i => Spec.coreSum (arrA V c) (arrH V c) (arrD V c) (arrB V c) (arrb V c) (i 0) (i 1) (i 2)

/-- Core `co`'s last point is a point of the grid. -/
theorem last_lt (co : Fin 2) : 10 * co.val + 9 < cfg1.N := by
  have hN : cfg1.N = 20 := N_1
  have hco : co.val < 2 := co.isLt
  rw [hN]; omega

/-- What a write-back writes is its block of `pooled`: write-backs happen at the points `10·co + 9`, whose staging
    block holds core `co`'s sums, and whose block of the array is slab `co`. -/
theorem flushed_pooled (c : Dev nD) (t : Fin cfg1.N) (hf : (cfg1.win 5).flush t = true) :
    (dat1 (F := Ideal) V c).flushed 5 t = ((cfg1.win 5).blk t).view.read (Elt Ideal) (pooled V c) := by
  have hN : cfg1.N = 20 := N_1
  have h9 : t.val % 10 = 9 := (flush1_5 t).mp hf
  have hlt : t.val < 20 := lt_of_lt_of_eq t.isLt hN
  obtain ⟨co, hco⟩ : ∃ co : Fin 2, t.val = 10 * co.val + 9 := ⟨⟨t.val / 10, by omega⟩, by show t.val = 10 * (t.val / 10) + 9; omega⟩
  obtain rfl : t = ⟨10 * co.val + 9, last_lt co⟩ := Fin.ext hco
  show (cfg1.win 5).cut (grid1.coords _) ((dat1 (F := Ideal) V c).after 5 _) = _
  rw [after1_5]
  refine funext fun (y : S1x128x64.Idx) => ?_
  obtain ⟨p, g, j, rfl⟩ : ∃ (p : Fin 1) (g : Fin 128) (j : Fin 64), y = ix3 p g j := ⟨y 0, y 1, y 2, eq_ix3 y⟩
  obtain rfl : p = 0 := Subsingleton.elim _ _
  refine (stage_last_eq V c co _ g j).trans ?_
  have hco2 : co.val < 2 := co.isLt
  have e : ((cfg1.win 5).blk ⟨10 * co.val + 9, last_lt co⟩).view.emb (ix3 (0 : Fin 1) g j) = ix3 co g j := by
    funext a
    apply Fin.ext
    match a with
    | ⟨0, _⟩ =>
      show win1_5.index ⟨10 * co.val + 9, _⟩ 0 * 1 + 1 * 0 = co.val
      rw [(index_at _).2.2.2.2.2.1]; show (10 * co.val + 9) / 10 * 1 + 1 * 0 = co.val; omega
    | ⟨1, _⟩ =>
      show win1_5.index ⟨10 * co.val + 9, _⟩ 1 * 128 + 1 * g.val = g.val
      rw [(index_at _).2.2.2.2.2.2.1]; omega
    | ⟨2, _⟩ =>
      show win1_5.index ⟨10 * co.val + 9, _⟩ 2 * 64 + 1 * j.val = j.val
      rw [(index_at _).2.2.2.2.2.2.2]; omega
  exact (show Spec.coreSum (arrA V c) (arrH V c) (arrD V c) (arrB V c) (arrb V c) co g j = pooled V c (ix3 co g j) from rfl).trans
    (congrArg (pooled V c) e.symm)

/-- Every entry of the array lies in a block that is written back: slab `i 0` is the block of point `10·(i 0) + 9`. -/
theorem covered (c : Dev nD) (i : ((cfg1.win 5).arr.view.loc (c.tc : Thread nD τ)).2.ty.Idx) :
    ∃ t : Fin cfg1.N, (cfg1.win 5).flush t = true ∧ i ∈ ((cfg1.win 5).blk t).view.set := by
  have hN : cfg1.N = 20 := N_1
  have h0 : (i 0).val < 2 := (i 0).isLt
  have h1 : (i 1).val < 128 := (i 1).isLt
  have h2 : (i 2).val < 64 := (i 2).isLt
  have hb : 10 * (i 0).val + 9 < cfg1.N := by rw [hN]; omega
  refine ⟨⟨10 * (i 0).val + 9, hb⟩, (flush1_5 _).mpr (by show (10 * (i 0).val + 9) % 10 = 9; omega), ?_⟩
  show i ∈ ((View.whole main_v56).slice (win1_5.rect ⟨10 * (i 0).val + 9, hb⟩)).set
  rw [View.set_slice_whole, Rect.mem_set_unit]
  intro a
  match a with
  | ⟨0, _⟩ =>
    show win1_5.index ⟨10 * (i 0).val + 9, hb⟩ 0 * 1 ≤ (i 0).val ∧ (i 0).val < win1_5.index ⟨10 * (i 0).val + 9, hb⟩ 0 * 1 + 1
    rw [(index_at _).2.2.2.2.2.1]
    show (10 * (i 0).val + 9) / 10 * 1 ≤ (i 0).val ∧ (i 0).val < (10 * (i 0).val + 9) / 10 * 1 + 1
    omega
  | ⟨1, _⟩ =>
    show win1_5.index ⟨10 * (i 0).val + 9, hb⟩ 1 * 128 ≤ (i 1).val ∧ (i 1).val < win1_5.index ⟨10 * (i 0).val + 9, hb⟩ 1 * 128 + 128
    rw [(index_at _).2.2.2.2.2.2.1]; omega
  | ⟨2, _⟩ =>
    show win1_5.index ⟨10 * (i 0).val + 9, hb⟩ 2 * 64 ≤ (i 2).val ∧ (i 2).val < win1_5.index ⟨10 * (i 0).val + 9, hb⟩ 2 * 64 + 64
    rw [(index_at _).2.2.2.2.2.2.2]; omega

/-- What the second pallas_call leaves in its output array: core `co`'s slab holds, at graph `g` and feature `j`, the sum
    over that core's ten node tiles of the tile's one-hot-weighted, relu'd rows. -/
theorem region1_array (c : Dev nD) (co : Fin 2) (g : Fin 128) (j : Fin 64) :
    (dat1 (F := Ideal) V c).arrAt 5 cfg1.N (ix3 co g j)
      = Cert.Spec.coreSum (V c main_v52) (V c main_v11) (V c main_v53) (V c main_v54) (V c main_v55) co g j := by
  have hG := (dat1 (F := Ideal) V c).arrAt_eq_of_cover 5 (pooled V c) (flushed_pooled V c) (covered c)
  exact (congrFun hG (ix3 co g j)).trans rfl

end Cert.KernelIdeal.Pool

end
-- ==== Proof.KernelValue.lean ====
import proofs.«410265_j83872121356775_3_alg».proof.Proof.StageH
import proofs.«410265_j83872121356775_3_alg».proof.Proof.StageAgg
import proofs.«410265_j83872121356775_3_alg».proof.Proof.StagePool
import proofs.«410265_j83872121356775_3_alg».proof.Proof.StageHead
import proofs.«410265_j83872121356775_3_alg».proof.Proof.PoolArray

set_option maxRecDepth 16384

noncomputable section

namespace Cert.KernelIdeal.Stage

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The pooled sum the third call is handed is the reference's: the node features, the aggregate, the inverse degree,
    the ids and the bias the second call reads are the reference's, so its two cores' sums add up to the segment sum. -/
theorem pooled (c : Dev nD) :
    V5 m ρ c main_v61 = Cert.ReferenceIdeal.Read.val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  have hH := stage_h m ρ c
  stage_pool m ρ c (Cert.KernelIdeal.Pool.region1_array (V3 m ρ) c) hH (stage_agg m ρ c hH) (stage_invdeg m ρ c) (stage_ids m ρ c) (stage_bias m ρ c)

/-- What the run leaves in the three result buffers, as the reference's stage functions of the launch arguments. -/
theorem result_adj (c : Dev nD) :
    W7 m ρ c (Proc.devRef .tc main_v71) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  stage_adj m ρ c (pooled m ρ c) (stage_counts m ρ c) (stage_eps m ρ c) (stage_mu_w m ρ c) (stage_mu_b m ρ c) (stage_lv_w m ρ c) (stage_lv_b m ρ c)
    (stage_dec_w m ρ c) (stage_dec_b m ρ c)

theorem result_mu (c : Dev nD) :
    W7 m ρ c (Proc.devRef .tc main_v70_1) = Cert.ReferenceIdeal.Read.val_main_v65 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  stage_mu m ρ c (pooled m ρ c) (stage_counts m ρ c) (stage_mu_w m ρ c) (stage_mu_b m ρ c)

theorem result_lv (c : Dev nD) :
    W7 m ρ c (Proc.devRef .tc main_v70_2) = Cert.ReferenceIdeal.Read.val_main_v69 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) :=
  stage_lv m ρ c (pooled m ρ c) (stage_counts m ρ c) (stage_lv_w m ρ c) (stage_lv_b m ρ c)

end Cert.KernelIdeal.Stage

end
-- ==== Proof.RefValue.lean ====
/-
  The reference has no kernel: what it computes is read off its generated run, one operation at a time, by the generated
  stage functions. This module brings those two generated modules into the proof; the kernel's three results are shown
  equal to the reference's stage functions of the launch arguments elsewhere.
-/
import proofs.«410265_j83872121356775_3_alg».proof.Defs
import proofs.«410265_j83872121356775_3_alg».proof.Proof.Gen.ReferenceIdeal.Run
import proofs.«410265_j83872121356775_3_alg».proof.Proof.Gen.ReferenceIdeal.Read

noncomputable section

namespace Cert.ReferenceIdeal.RefValue

end Cert.ReferenceIdeal.RefValue

end
-- ==== Proof.lean ====
/-
  The kernel — a lane-dense `x · W`, the degree-normalised neighbour aggregate, relu, a mean pool over graph ids
  computed as one-hot products tile by tile on two cores, and a small variational head — against the plain reference.

  Both programs run (the kernel's three calls and the host operations between them; the reference's host operations) and
  leave the arguments as launched: the frames. On extended reals the two compute the same three results:
  * the packed product against the block-diagonal weight `diag(W, W)` is `x · W`: the off-diagonal blocks are zero, and
    `0 · a = 0`, `a + 0 = a` hold for every extended real;
  * the squared inverse square root of a degree is its reciprocal, a degree being a count plus one, a real number ≥ 1;
  * a node adds its relu'd row to graph `g` exactly when its id is `g`, in the kernel's one-hot product as in the
    reference's segment sum, and a sum may be regrouped by tiles and cores;
  * the head applies the same operations to the same pooled mean.
  No finiteness of an input is used. The idealization rewrote nothing, so `preserves` is `True`.
-/
import proofs.«410265_j83872121356775_3_alg».proof.Defs
import proofs.«410265_j83872121356775_3_alg».proof.Proof.Gen.Kernel
import proofs.«410265_j83872121356775_3_alg».proof.Proof.Gen.Kernel.Skeleton
import proofs.«410265_j83872121356775_3_alg».proof.Proof.Gen.Kernel.Launch
import proofs.«410265_j83872121356775_3_alg».proof.Proof.Gen.Kernel.Points
import proofs.«410265_j83872121356775_3_alg».proof.Proof.Gen.Kernel.Frame
import proofs.«410265_j83872121356775_3_alg».proof.Proof.Gen.KernelIdeal
import proofs.«410265_j83872121356775_3_alg».proof.Proof.Gen.KernelIdeal.Skeleton
import proofs.«410265_j83872121356775_3_alg».proof.Proof.Gen.KernelIdeal.Launch
import proofs.«410265_j83872121356775_3_alg».proof.Proof.Gen.KernelIdeal.Points
import proofs.«410265_j83872121356775_3_alg».proof.Proof.Gen.KernelIdeal.Frame
import proofs.«410265_j83872121356775_3_alg».proof.Proof.Gen.ReferenceIdeal
import proofs.«410265_j83872121356775_3_alg».proof.Proof.Gen.ReferenceIdeal.Run
import proofs.«410265_j83872121356775_3_alg».proof.Proof.Gen.ReferenceIdeal.Read
import proofs.«410265_j83872121356775_3_alg».proof.Proof.Gen.Pre_finite_inputs
import proofs.«410265_j83872121356775_3_alg».proof.Proof.RunValues
import proofs.«410265_j83872121356775_3_alg».proof.Proof.KernelValue
import proofs.«410265_j83872121356775_3_alg».proof.Proof.RefValue
import Idealize.ShloMosaic.Adequacy
import Idealize.ShloMosaic.Init

noncomputable section

namespace Cert.Proof

open Idealize.ShloMosaic Idealize.SL.Sem Cert.Kernel

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with the same three results: the kernel's run leaves
    each result buffer at the reference's stage function of the launch arguments, which the reference's own run
    computes of arguments that agree. -/
theorem algebraic : Cert.algebraic_KernelIdeal_ReferenceIdeal := by
  intro m ρ m' ρ' _ hagree
  refine ⟨_, _, _, Cert.KernelIdeal.RunValues.run_values (F := Ideal) m ρ, ?_⟩
  refine (θ_run Cert.ReferenceIdeal.defs _ _).mono (fun _ h c => ?_) (Cert.ReferenceIdeal.Value.run (F := Ideal) m' ρ')
  obtain ⟨a0, a1, a2, rest⟩ := h c
  refine ⟨a0.trans ?_, a1.trans ?_, a2.trans ?_, rest⟩
  · rw [Cert.ReferenceIdeal.Read.val_main_v82_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.KernelIdeal.Stage.result_adj m ρ c).symm
  · rw [Cert.ReferenceIdeal.Read.val_main_v65_eq, (hagree c).1, (hagree c).2.1, (hagree c).2.2.1, (hagree c).2.2.2.2.1, (hagree c).2.2.2.2.2.1, (hagree c).2.2.2.2.2.2.1, (hagree c).2.2.2.2.2.2.2.1]
    exact (Cert.KernelIdeal.Stage.result_mu m ρ c).symm
  · rw [Cert.ReferenceIdeal.Read.val_main_v69_eq, (hagree c).1, (hagree c).2.1, (hagree c).2.2.1, (hagree c).2.2.2.2.1, (hagree c).2.2.2.2.2.1, (hagree c).2.2.2.2.2.2.2.2.1, (hagree c).2.2.2.2.2.2.2.2.2.1]
    exact (Cert.KernelIdeal.Stage.result_lv m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
